-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_

variable [Facts]

def fn_part6 {F : FTy → Type} [FloatOps F] (main_arg3 : IVec S800000 32) (main_arg23 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_c_42 : IVec S_ 32 := constantI S_ 32 0#32
  let main_v109 : IVec S800000 32 := broadcastInDim S800000 ![] bcast_S_S800000 main_c_42
  let main_v110 : IVec S800000 1 := cmpi .sge main_arg3 main_v109
  let main_c_43 : IVec S_ 32 := constantI S_ 32 50000#32
  let main_v111 : IVec S800000 32 := broadcastInDim S800000 ![] bcast_S_S800000 main_c_43
  let main_v112 : IVec S800000 1 := cmpi .slt main_arg3 main_v111
  let main_v113 : IVec S800000 1 := andi main_v110 main_v112
  let main_c_44 : IVec S_ 1 := constantI S_ 1 1#1
  let main_v114 : IVec S_ 1 := (fun x v => Host.reduce IntOp.andi x v reducesTo_S800000_S_d0 h_S_) main_v113 main_c_44
  let main_v115 : IVec S_ 1 := andi main_v108 main_v114
  main_v115

def fn_part5 {F : FTy → Type} [FloatOps F] (main_arg3 : IVec S800000 32) (main_arg20 : FVec F S128 .f32) (main_arg21 : FVec F S128 .f32) (main_arg22 : FVec F S128 .f32) (main_arg23 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg3 main_arg23 main_v98 main_v101 main_c_39

def fn_part4 {F : FTy → Type} [FloatOps F] (main_arg3 : IVec S800000 32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg3 main_arg20 main_arg21 main_arg22 main_arg23 main_v83 main_v84 main_cst_32

def fn_part3 {F : FTy → Type} [FloatOps F] (main_arg3 : IVec S800000 32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg3 main_arg16 main_arg17 main_arg18 main_arg19 main_arg20 main_arg21 main_arg22 main_arg23 main_v63 main_v67

def fn_part2 {F : FTy → Type} [FloatOps F] (main_arg3 : IVec S800000 32) (main_arg9 : FVec F S1 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg3 main_arg13 main_arg14 main_arg15 main_arg16 main_arg17 main_arg18 main_arg19 main_arg20 main_arg21 main_arg22 main_arg23 main_v48 main_v49 main_v50

def fn_part1 {F : FTy → Type} [FloatOps F] (main_arg3 : IVec S800000 32) (main_arg6 : FVec F S128x128 .f32) (main_arg7 : FVec F S128 .f32) (main_arg8 : FVec F S128x1 .f32) (main_arg9 : FVec F S1 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg3 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x128 .f32) (main_arg1 : FVec F S50000x128 .f32) (main_arg2 : IVec S800000 32) (main_arg3 : IVec S800000 32) (main_arg4 : FVec F S256x128 .f32) (main_arg5 : FVec F S128 .f32) (main_arg6 : FVec F S128x128 .f32) (main_arg7 : FVec F S128 .f32) (main_arg8 : FVec F S128x1 .f32) (main_arg9 : FVec F S1 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S3200x128 : Shape := ⟨2, ![3200, 128]⟩
abbrev S3200 : Shape := ⟨1, ![3200]⟩
abbrev S3200x1 : Shape := ⟨2, ![3200, 1]⟩

abbrev nBuf : Space → Nat
  | .hbm => 108
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .i32⟩
  | .hbm, ⟨3, _⟩ => ⟨S800000, .i32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128x128, .bf16⟩
  | .hbm, ⟨25, _⟩ => ⟨S128x128, .bf16⟩
  | .hbm, ⟨26, _⟩ => ⟨S128x128, .bf16⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S1, .i32⟩
  | .hbm, ⟨37, _⟩ => ⟨S_, .i32⟩
  | .hbm, ⟨38, _⟩ => ⟨S800000x1, .i32⟩
  | .hbm, ⟨39, _⟩ => ⟨S800000x1, .i1⟩
  | .hbm, ⟨40, _⟩ => ⟨S1x1, .i32⟩
  | .hbm, ⟨41, _⟩ => ⟨S800000x1, .i32⟩
  | .hbm, ⟨42, _⟩ => ⟨S800000x1, .i1⟩
  | .hbm, ⟨43, _⟩ => ⟨S800000x1, .i1⟩
  | .hbm, ⟨44, _⟩ => ⟨S_, .i1⟩
  | .hbm, ⟨45, _⟩ => ⟨S800000, .i1⟩
  | .hbm, ⟨46, _⟩ => ⟨S800000x128, .f32⟩
  | .hbm, ⟨47, _⟩ => ⟨S800000x128, .i1⟩
  | .hbm, ⟨48, _⟩ => ⟨S_, .f32⟩
  | .hbm, ⟨49, _⟩ => ⟨S800000x128, .f32⟩
  | .hbm, ⟨50, _⟩ => ⟨S800000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S1, .i32⟩
  | .hbm, ⟨60, _⟩ => ⟨S_, .i32⟩
  | .hbm, ⟨61, _⟩ => ⟨S800000x1, .i32⟩
  | .hbm, ⟨62, _⟩ => ⟨S800000x1, .i1⟩
  | .hbm, ⟨63, _⟩ => ⟨S1x1, .i32⟩
  | .hbm, ⟨64, _⟩ => ⟨S800000x1, .i32⟩
  | .hbm, ⟨65, _⟩ => ⟨S800000x1, .i1⟩
  | .hbm, ⟨66, _⟩ => ⟨S800000x1, .i1⟩
  | .hbm, ⟨67, _⟩ => ⟨S_, .i1⟩
  | .hbm, ⟨68, _⟩ => ⟨S800000, .i1⟩
  | .hbm, ⟨69, _⟩ => ⟨S800000x128, .f32⟩
  | .hbm, ⟨70, _⟩ => ⟨S800000x128, .i1⟩
  | .hbm, ⟨71, _⟩ => ⟨S_, .f32⟩
  | .hbm, ⟨72, _⟩ => ⟨S800000x128, .f32⟩
  | .hbm, ⟨73, _⟩ => ⟨S800000x128, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S1, .i32⟩
  | .hbm, ⟨83, _⟩ => ⟨S_, .i32⟩
  | .hbm, ⟨84, _⟩ => ⟨S800000x1, .i32⟩
  | .hbm, ⟨85, _⟩ => ⟨S800000x1, .i1⟩
  | .hbm, ⟨86, _⟩ => ⟨S1x1, .i32⟩
  | .hbm, ⟨87, _⟩ => ⟨S800000x1, .i32⟩
  | .hbm, ⟨88, _⟩ => ⟨S800000x1, .i1⟩
  | .hbm, ⟨89, _⟩ => ⟨S800000x1, .i1⟩
  | .hbm, ⟨90, _⟩ => ⟨S_, .i1⟩
  | .hbm, ⟨91, _⟩ => ⟨S800000, .i1⟩
  | .hbm, ⟨92, _⟩ => ⟨S800000x128, .f32⟩
  | .hbm, ⟨93, _⟩ => ⟨S800000x128, .i1⟩
  | .hbm, ⟨94, _⟩ => ⟨S_, .f32⟩
  | .hbm, ⟨95, _⟩ => ⟨S800000x128, .f32⟩
  | .hbm, ⟨96, _⟩ => ⟨S800000x128, .f32⟩
  | .hbm, ⟨97, _⟩ => ⟨S128x128, .f32⟩
  | .hbm, ⟨98, _⟩ => ⟨S128x128, .bf16⟩
  | .hbm, ⟨99, _⟩ => ⟨S128x128, .f32⟩
  | .hbm, ⟨100, _⟩ => ⟨S128x128, .bf16⟩
  | .hbm, ⟨101, _⟩ => ⟨S128x128, .bf16⟩
  | .hbm, ⟨102, _⟩ => ⟨S128x1, .bf16⟩
  | .hbm, ⟨103, _⟩ => ⟨S800000x128, .f32⟩
  | .hbm, ⟨104, _⟩ => ⟨S_, .f32⟩
  | .hbm, ⟨105, _⟩ => ⟨S50000x128, .f32⟩
  | .hbm, ⟨106, _⟩ => ⟨S800000x1, .i32⟩
  | .hbm, ⟨107, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S3200x128, .f32⟩
  | .local _ .vmem, ⟨15, _⟩ => ⟨S3200x128, .f32⟩
  | .local _ .vmem, ⟨16, _⟩ => ⟨S3200x128, .f32⟩
  | .local _ .vmem, ⟨17, _⟩ => ⟨S3200x128, .f32⟩
  | .local _ .vmem, ⟨18, _⟩ => ⟨S3200x128, .f32⟩
  | .local _ .vmem, ⟨19, _⟩ => ⟨S3200x128, .f32⟩
  | .local _ .vmem, ⟨20, _⟩ => ⟨S128x128, .bf16⟩
  | .local _ .vmem, ⟨21, _⟩ => ⟨S128x128, .bf16⟩
  | .local _ .vmem, ⟨22, _⟩ => ⟨S128, .f32⟩
  | .local _ .vmem, ⟨23, _⟩ => ⟨S128x128, .bf16⟩
  | .local _ .vmem, ⟨24, _⟩ => ⟨S128, .f32⟩
  | .local _ .vmem, ⟨25, _⟩ => ⟨S128x1, .bf16⟩
  | .local _ .vmem, ⟨26, _⟩ => ⟨S1, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S128, .f32⟩
  | .local _ .vmem, ⟨31, _⟩ => ⟨S3200x128, .f32⟩
  | .local _ .vmem, ⟨32, _⟩ => ⟨S3200x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v4 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v5 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v6 : Ref sig .tc := ⟨.hbm, 96, rfl⟩
abbrev main_v7 : Ref sig .tc := ⟨.hbm, 97, rfl⟩
abbrev main_v8 : Ref sig .tc := ⟨.hbm, 98, rfl⟩
abbrev main_v9 : Ref sig .tc := ⟨.hbm, 99, rfl⟩
abbrev main_v10 : Ref sig .tc := ⟨.hbm, 100, rfl⟩
abbrev main_v11 : Ref sig .tc := ⟨.hbm, 101, rfl⟩
abbrev main_v12 : Ref sig .tc := ⟨.hbm, 102, rfl⟩
abbrev main_v13 : Ref sig .tc := ⟨.hbm, 103, rfl⟩
abbrev main_cst : Ref sig .tc := ⟨.hbm, 104, rfl⟩
abbrev main_v14 : Ref sig .tc := ⟨.hbm, 105, rfl⟩
abbrev main_v15 : Ref sig .tc := ⟨.hbm, 106, rfl⟩
abbrev main_v16 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg14_0 : Ref sig .tc := ⟨.vmem, 31, rfl⟩
abbrev cc1_stg14_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem14_0 : DmaSem sig := 31
abbrev cc1_sem14_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S3200x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S256x128_S128x128_0_0 : S256x128.Slices ![0, 0] S128x128
  slices_S256x128_S128x128_128_0 : S256x128.Slices ![128, 0] S128x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  broadcasts_S1x128_S3200x128 : S1x128.Broadcasts S3200x128
  reduces_S3200x128_S3200 : S3200x128.Reduces [1] S3200
  shapeCasts_S3200_S3200x1 : S3200.ShapeCasts S3200x1
  broadcasts_S3200x1_S3200x128 : S3200x1.Broadcasts S3200x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S3200x1 : S1x1.Broadcasts S3200x1
  bcast_S_S50000x128 : S_.BroadcastsInDim S50000x128 (![] : Fin 0 → Fin S50000x128.rank)
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  dot_S3200x128_S128x128_S3200x128_1_0_0_1_n_n_wf : DotDims.WF S3200x128 S128x128 S3200x128 [1] [0] [0] [1] [] []
  dot_S3200x128_S128x1_S3200x1_1_0_0_1_n_n_wf : DotDims.WF S3200x128 S128x1 S3200x1 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S50000x128.size a
  hwx0_11 : ∀ i : grid0.Coords, EltTy.bits .f32 = 32 ∨ (Rect.block (s := S50000x128) S5000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x128.size a ≤ S800000x128.size a
  hwx1_0 : ∀ i : grid1.Coords, EltTy.bits .f32 = 32 ∨ (Rect.block (s := S800000x128) S3200x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S800000x128.size a
  hwx1_1 : ∀ i : grid1.Coords, EltTy.bits .f32 = 32 ∨ (Rect.block (s := S800000x128) S3200x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x128.size a ≤ S800000x128.size a
  hwx1_2 : ∀ i : grid1.Coords, EltTy.bits .f32 = 32 ∨ (Rect.block (s := S800000x128) S3200x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x1.size a ≤ S128x1.size a
  hwx1_8 : ∀ i : grid1.Coords, EltTy.bits .bf16 = 32 ∨ (Rect.block (s := S128x1) S128x1.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1.size a ≤ S1.size a
  hwx1_9 : ∀ i : grid1.Coords, EltTy.bits .f32 = 32 ∨ (Rect.block (s := S1) S1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128.size a ≤ S128.size a
  hwx1_13 : ∀ i : grid1.Coords, EltTy.bits .f32 = 32 ∨ (Rect.block (s := S128) S128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S3200x128.size a ≤ S800000x128.size a
  hwx1_14 : ∀ i : grid1.Coords, EltTy.bits .f32 = 32 ∨ (Rect.block (s := S800000x128) S3200x128.size (cc1_transform_14 i) (hinb1_14 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x128_S128x1_S3200x1_1_0_0_1_n_n : DotDims S3200x128 S128x1 S3200x1 where
  lhsContracting := [1]
  rhsContracting := [0]
  lhsNonContracting := [0]
  rhsNonContracting := [1]
  lhsBatch := []
  rhsBatch := []
  wf := dot_S3200x128_S128x1_S3200x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg15) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg17) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg19) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg20) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg21) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg22) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg23) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v4) S3200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S3200x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12) S128x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg9) S1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg10) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg11) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg12) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg13) S128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v13) S3200x128.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S1x1 : Shape := ⟨2, ![1, 1]⟩
abbrev S50000 : Shape := ⟨1, ![50000]⟩
abbrev S50000x1 : Shape := ⟨2, ![50000, 1]⟩

abbrev nBuf : Space → Nat
  | .hbm => 213
  | .vmem => 0
  | .smem => 0
  | _ => 0

abbrev hbmTy0_0 (i : Nat) : BufTy := match i % 128 with
  | 0 => ⟨S50000x128, .f32⟩
  | 1 => ⟨S50000x128, .f32⟩
  | 2 => ⟨S800000, .i32⟩
  | 3 => ⟨S800000, .i32⟩
  | 4 => ⟨S256x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S128, .f32⟩
  | 11 => ⟨S128, .f32⟩
  | 12 => ⟨S128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128, .f32⟩
  | 21 => ⟨S128, .f32⟩
  | 22 => ⟨S128, .f32⟩
  | 23 => ⟨S128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S800000x256, .f32⟩
  | 43 => ⟨S800000x128, .f32⟩
  | 44 => ⟨S1x128, .f32⟩
  | 45 => ⟨S800000x128, .f32⟩
  | 46 => ⟨S800000x128, .f32⟩
  | 47 => ⟨S_, .f32⟩
  | 48 => ⟨S800000x128, .f32⟩
  | 49 => ⟨S800000x128, .f32⟩
  | 50 => ⟨S_, .f32⟩
  | 51 => ⟨S800000, .f32⟩
  | 52 => ⟨S800000x1, .f32⟩
  | 53 => ⟨S_, .f32⟩
  | 54 => ⟨S800000x1, .f32⟩
  | 55 => ⟨S800000x1, .f32⟩
  | 56 => ⟨S800000x128, .f32⟩
  | 57 => ⟨S800000x128, .f32⟩
  | 58 => ⟨S800000x128, .f32⟩
  | 59 => ⟨S_, .f32⟩
  | 60 => ⟨S800000, .f32⟩
  | 61 => ⟨S800000x1, .f32⟩
  | 62 => ⟨S_, .f32⟩
  | 63 => ⟨S800000x1, .f32⟩
  | 64 => ⟨S800000x1, .f32⟩
  | 65 => ⟨S800000x128, .f32⟩
  | 66 => ⟨S800000x128, .f32⟩
  | 67 => ⟨S_, .f32⟩
  | 68 => ⟨S800000x1, .f32⟩
  | 69 => ⟨S800000x1, .f32⟩
  | 70 => ⟨S800000x1, .f32⟩
  | 71 => ⟨S800000x128, .f32⟩
  | 72 => ⟨S800000x128, .f32⟩
  | 73 => ⟨S1x128, .f32⟩
  | 74 => ⟨S800000x128, .f32⟩
  | 75 => ⟨S800000x128, .f32⟩
  | 76 => ⟨S1x128, .f32⟩
  | 77 => ⟨S800000x128, .f32⟩
  | 78 => ⟨S800000x128, .f32⟩
  | 79 => ⟨S800000x128, .f32⟩
  | 80 => ⟨S1x128, .f32⟩
  | 81 => ⟨S800000x128, .f32⟩
  | 82 => ⟨S800000x128, .f32⟩
  | 83 => ⟨S_, .f32⟩
  | 84 => ⟨S800000x128, .f32⟩
  | 85 => ⟨S800000x128, .f32⟩
  | 86 => ⟨S_, .f32⟩
  | 87 => ⟨S800000, .f32⟩
  | 88 => ⟨S800000x1, .f32⟩
  | 89 => ⟨S_, .f32⟩
  | 90 => ⟨S800000x1, .f32⟩
  | 91 => ⟨S800000x1, .f32⟩
  | 92 => ⟨S800000x128, .f32⟩
  | 93 => ⟨S800000x128, .f32⟩
  | 94 => ⟨S800000x128, .f32⟩
  | 95 => ⟨S_, .f32⟩
  | 96 => ⟨S800000, .f32⟩
  | 97 => ⟨S800000x1, .f32⟩
  | 98 => ⟨S_, .f32⟩
  | 99 => ⟨S800000x1, .f32⟩
  | 100 => ⟨S800000x1, .f32⟩
  | 101 => ⟨S800000x128, .f32⟩
  | 102 => ⟨S800000x128, .f32⟩
  | 103 => ⟨S_, .f32⟩
  | 104 => ⟨S800000x1, .f32⟩
  | 105 => ⟨S800000x1, .f32⟩
  | 106 => ⟨S800000x1, .f32⟩
  | 107 => ⟨S800000x128, .f32⟩
  | 108 => ⟨S800000x128, .f32⟩
  | 109 => ⟨S1x128, .f32⟩
  | 110 => ⟨S800000x128, .f32⟩
  | 111 => ⟨S800000x128, .f32⟩
  | 112 => ⟨S1x128, .f32⟩
  | 113 => ⟨S800000x128, .f32⟩
  | 114 => ⟨S800000x128, .f32⟩
  | 115 => ⟨S800000x1, .f32⟩
  | 116 => ⟨S1x1, .f32⟩
  | 117 => ⟨S800000x1, .f32⟩
  | 118 => ⟨S800000x1, .f32⟩
  | 119 => ⟨S800000x1, .f32⟩
  | 120 => ⟨S800000, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000, .f32⟩
  | 2 => ⟨S50000x1, .f32⟩
  | 3 => ⟨S_, .f32⟩
  | 4 => ⟨S50000x1, .f32⟩
  | 5 => ⟨S50000x1, .f32⟩
  | 6 => ⟨S50000x128, .f32⟩
  | 7 => ⟨S50000x128, .f32⟩
  | 8 => ⟨S50000x128, .f32⟩
  | 9 => ⟨S_, .f32⟩
  | 10 => ⟨S50000, .f32⟩
  | 11 => ⟨S50000x1, .f32⟩
  | 12 => ⟨S_, .f32⟩
  | 13 => ⟨S50000x1, .f32⟩
  | 14 => ⟨S50000x1, .f32⟩
  | 15 => ⟨S50000x128, .f32⟩
  | 16 => ⟨S50000x128, .f32⟩
  | 17 => ⟨S_, .f32⟩
  | 18 => ⟨S50000x1, .f32⟩
  | 19 => ⟨S50000x1, .f32⟩
  | 20 => ⟨S50000x1, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S_, .f32⟩
  | 37 => ⟨S50000, .f32⟩
  | 38 => ⟨S50000x1, .f32⟩
  | 39 => ⟨S_, .f32⟩
  | 40 => ⟨S50000x1, .f32⟩
  | 41 => ⟨S50000x1, .f32⟩
  | 42 => ⟨S50000x128, .f32⟩
  | 43 => ⟨S50000x128, .f32⟩
  | 44 => ⟨S50000x128, .f32⟩
  | 45 => ⟨S_, .f32⟩
  | 46 => ⟨S50000, .f32⟩
  | 47 => ⟨S50000x1, .f32⟩
  | 48 => ⟨S_, .f32⟩
  | 49 => ⟨S50000x1, .f32⟩
  | 50 => ⟨S50000x1, .f32⟩
  | 51 => ⟨S50000x128, .f32⟩
  | 52 => ⟨S50000x128, .f32⟩
  | 53 => ⟨S_, .f32⟩
  | 54 => ⟨S50000x1, .f32⟩
  | 55 => ⟨S50000x1, .f32⟩
  | 56 => ⟨S50000x1, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S800000x1, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S800000x128, .f32⟩
  | 80 => ⟨S800000x128, .f32⟩
  | 81 => ⟨S_, .f32⟩
  | 82 => ⟨S50000x128, .f32⟩
  | 83 => ⟨S800000x1, .i32⟩
  | 84 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_call0_cst : Ref sig .tc := ⟨.hbm, 47, rfl⟩
abbrev main_call0_v0 : Ref sig .tc := ⟨.hbm, 48, rfl⟩
abbrev main_v19 : Ref sig .tc := ⟨.hbm, 49, rfl⟩
abbrev main_cst : Ref sig .tc := ⟨.hbm, 50, rfl⟩
abbrev main_v20 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_4 : Ref sig .tc := ⟨.hbm, 59, rfl⟩
abbrev main_v27 : Ref sig .tc := ⟨.hbm, 60, rfl⟩
abbrev main_v28 : Ref sig .tc := ⟨.hbm, 61, rfl⟩
abbrev main_cst_5 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_call1_cst : Ref sig .tc := ⟨.hbm, 83, rfl⟩
abbrev main_call1_v0 : Ref sig .tc := ⟨.hbm, 84, rfl⟩
abbrev main_v48 : Ref sig .tc := ⟨.hbm, 85, rfl⟩
abbrev main_cst_7 : Ref sig .tc := ⟨.hbm, 86, rfl⟩
abbrev main_v49 : Ref sig .tc := ⟨.hbm, 87, rfl⟩
abbrev main_v50 : Ref sig .tc := ⟨.hbm, 88, rfl⟩
abbrev main_cst_8 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_9 : Ref sig .tc := ⟨.hbm, 95, rfl⟩
abbrev main_v56 : Ref sig .tc := ⟨.hbm, 96, rfl⟩
abbrev main_v57 : Ref sig .tc := ⟨.hbm, 97, rfl⟩
abbrev main_cst_10 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_11 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_call2_cst : Ref sig .tc := ⟨.hbm, 125, rfl⟩
abbrev main_call2_v0 : Ref sig .tc := ⟨.hbm, 126, rfl⟩
abbrev main_v83 : Ref sig .tc := ⟨.hbm, 127, rfl⟩
abbrev main_cst_12 : Ref sig .tc := ⟨.hbm, 128, rfl⟩
abbrev main_v84 : Ref sig .tc := ⟨.hbm, 129, rfl⟩
abbrev main_v85 : Ref sig .tc := ⟨.hbm, 130, rfl⟩
abbrev main_cst_13 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_14 : Ref sig .tc := ⟨.hbm, 137, rfl⟩
abbrev main_v91 : Ref sig .tc := ⟨.hbm, 138, rfl⟩
abbrev main_v92 : Ref sig .tc := ⟨.hbm, 139, rfl⟩
abbrev main_cst_15 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_16 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_call3_cst : Ref sig .tc := ⟨.hbm, 161, rfl⟩
abbrev main_call3_v0 : Ref sig .tc := ⟨.hbm, 162, rfl⟩
abbrev main_v112 : Ref sig .tc := ⟨.hbm, 163, rfl⟩
abbrev main_cst_17 : Ref sig .tc := ⟨.hbm, 164, rfl⟩
abbrev main_v113 : Ref sig .tc := ⟨.hbm, 165, rfl⟩
abbrev main_v114 : Ref sig .tc := ⟨.hbm, 166, rfl⟩
abbrev main_cst_18 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_19 : Ref sig .tc := ⟨.hbm, 173, rfl⟩
abbrev main_v120 : Ref sig .tc := ⟨.hbm, 174, rfl⟩
abbrev main_v121 : Ref sig .tc := ⟨.hbm, 175, rfl⟩
abbrev main_cst_20 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_cst_21 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_c_22 : Ref sig .tc := ⟨.hbm, 198, rfl⟩
abbrev main_v142 : Ref sig .tc := ⟨.hbm, 199, rfl⟩
abbrev main_v143 : Ref sig .tc := ⟨.hbm, 200, rfl⟩
abbrev main_c_23 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_cst_24 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  reducesTo_S800000x128_S800000_d1 : S800000x128.ReducesTo [1] S800000
  h_S_ : 0 < S_.numel
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  dot_S50000x128_S128x128_S50000x128_1_0_0_1_n_n_wf : DotDims.WF S50000x128 S128x128 S50000x128 [1] [0] [0] [1] [] []
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The mathematics both programs compute, one row at a time.

  A row of 128 numbers goes through an affine map, is clipped below at zero, centred on its mean, scaled by the
  inverse square root of its variance plus a small offset, and scaled and shifted coordinatewise. Two such layers and a
  final affine map make the three-layer perceptron of one row. The memory table is mapped row by row through one
  perceptron (128 outputs). An edge takes its query row and its memory row, whose concatenation (256 numbers) goes
  through a second perceptron with ONE output, squashed by the hyperbolic tangent; the edge's message is that
  scalar times the mapped memory row of the edge's source node.

  The sum over the 256 concatenated coordinates is written as the sum over the query half plus the sum over the
  memory half: on the extended reals addition is commutative and associative, so the two spellings agree with no
  finiteness assumption (`sum_halves`).

  All literals are kept as the bit patterns the two programs print (zero, 128 and the variance offset): the same
  word on both sides is never evaluated.
-/
import Idealize.ShloMosaic.PureOps.Ideal
import Idealize.ShloMosaic.Lib.ValueIdx

noncomputable section

open Idealize.ShloMosaic Idealize.ShloMosaic.ValueIdx
open scoped BigOperators

namespace Cert.Spec

/-- The word of `0.0`. -/
abbrev zeroW : EReal := Ideal.ofBits .f32 0x00000000#32
/-- The word of `128.0`, the length of a row. -/
abbrev width : EReal := Ideal.ofBits .f32 0x43000000#32
/-- The word of the variance offset. -/
abbrev eps : EReal := Ideal.ofBits .f32 0x3A83126F#32

/-- A matrix and a vector as functions of their array indices. -/
abbrev Mat (R C : Nat) : Type := (⟨2, ![R, C]⟩ : Shape).Idx → EReal
abbrev Row (C : Nat) : Type := (⟨1, ![C]⟩ : Shape).Idx → EReal

/-- Entry `(k, j)` of a matrix, coordinate `j` of a vector, row `r` of a matrix. -/
def mat {R C : Nat} (W : Mat R C) : Fin R → Fin C → EReal := fun k j => W (ix2 k j)
def vec {C : Nat} (b : Row C) : Fin C → EReal := fun j => b (ix1 j)
def rowOf {R C : Nat} (x : Mat R C) (r : Fin R) : Fin C → EReal := fun k => x (ix2 r k)

/-- The affine map of a row: `(x · W) j + b j`. -/
def affine {K M : Nat} (x : Fin K → EReal) (W : Fin K → Fin M → EReal) (b : Fin M → EReal) (j : Fin M) : EReal :=
  (∑ k : Fin K, x k * W k j) + b j

/-- The mean of a row of 128. -/
def rowMean (r : Fin 128 → EReal) : EReal := Ideal.div (∑ k : Fin 128, r k) width

/-- Clipping below at zero. -/
def relu (h : Fin 128 → EReal) (k : Fin 128) : EReal := max (h k) zeroW

/-- A row minus its mean. -/
def centred (r : Fin 128 → EReal) (k : Fin 128) : EReal := r k - rowMean r

/-- Layer normalisation of a row: centred, times the inverse root of (variance + offset), times `g`, plus `be`. -/
def normed (r g be : Fin 128 → EReal) (j : Fin 128) : EReal :=
  centred r j * Ideal.rsqrt (rowMean (fun k => centred r k * centred r k) + eps) * g j + be j

/-- A hidden layer's output from its pre-activation row. -/
def hidden (h g be : Fin 128 → EReal) : Fin 128 → EReal := normed (relu h) g be

/-- The perceptron's two hidden layers after the first pre-activation `h1`, then the output map. -/
def tail {M : Nat} (h1 : Fin 128 → EReal) (W2 : Mat 128 128) (b2 : Row 128) (W3 : Mat 128 M) (b3 : Row M)
    (g1 be1 g2 be2 : Row 128) : Fin M → EReal :=
  affine (hidden (affine (hidden h1 (vec g1) (vec be1)) (mat W2) (vec b2)) (vec g2) (vec be2)) (mat W3) (vec b3)

/-- The mapped memory row. -/
def memRow (x : Fin 128 → EReal) (W1 : Mat 128 128) (b1 : Row 128) (W2 : Mat 128 128) (b2 : Row 128) (W3 : Mat 128 128)
    (b3 : Row 128) (g1 be1 g2 be2 : Row 128) : Fin 128 → EReal :=
  tail (affine x (mat W1) (vec b1)) W2 b2 W3 b3 g1 be1 g2 be2

/-- The mapped memory table, row by row. -/
def memHead {R : Nat} (x : Mat R 128) (W1 : Mat 128 128) (b1 : Row 128) (W2 : Mat 128 128) (b2 : Row 128)
    (W3 : Mat 128 128) (b3 : Row 128) (g1 be1 g2 be2 : Row 128) : Mat R 128 :=
  fun i => memRow (rowOf x (i 0)) W1 b1 W2 b2 W3 b3 g1 be1 g2 be2 (i 1)

/-- The first pre-activation of an edge: the query half and the memory half of the 256 × 128 matrix. -/
def edgePre (q m : Fin 128 → EReal) (W1a W1b : Fin 128 → Fin 128 → EReal) (b1 : Fin 128 → EReal) (j : Fin 128) : EReal :=
  (∑ k : Fin 128, q k * W1a k j) + (∑ k : Fin 128, m k * W1b k j) + b1 j

/-- The edge's gate: the one-output perceptron of the two rows, squashed. -/
def gate (q m : Fin 128 → EReal) (W1a W1b : Mat 128 128) (b1 : Row 128) (W2 : Mat 128 128) (b2 : Row 128) (W3 : Mat 128 1)
    (b3 : Row 1) (g1 be1 g2 be2 : Row 128) : EReal :=
  Ideal.tanh (tail (edgePre q m (mat W1a) (mat W1b) (vec b1)) W2 b2 W3 b3 g1 be1 g2 be2 0)

/-- The edges' messages: gate times the gathered mapped memory row. -/
def edgeVal {R : Nat} (q m mh : Mat R 128) (W1a W1b : Mat 128 128) (b1 : Row 128) (W2 : Mat 128 128) (b2 : Row 128)
    (W3 : Mat 128 1) (b3 : Row 1) (g1 be1 g2 be2 : Row 128) : Mat R 128 :=
  fun i => gate (rowOf q (i 0)) (rowOf m (i 0)) W1a W1b b1 W2 b2 W3 b3 g1 be1 g2 be2 * mh i

/-- The first 128 rows and the last 128 rows of a 256-row matrix: the query half and the memory half. -/
def loHalf (W : Mat 256 128) : Mat 128 128 :=
  fun i => W (ix2 ⟨(i 0).val, by have := idx2_lt0 i; omega⟩ ⟨(i 1).val, idx2_lt1 i⟩)
def hiHalf (W : Mat 256 128) : Mat 128 128 :=
  fun i => W (ix2 ⟨128 + (i 0).val, by have := idx2_lt0 i; omega⟩ ⟨(i 1).val, idx2_lt1 i⟩)

/-- A sum over 256 coordinates is the sum over the first 128 plus the sum over the last 128. -/
theorem sum_halves (f : Fin 256 → EReal) :
    ∑ k : Fin 256, f k = (∑ k : Fin 128, f (Fin.castAdd 128 k)) + ∑ k : Fin 128, f (Fin.natAdd 128 k) :=
  Fin.sum_univ_add (a := 128) (b := 128) f

/-- The messages of an edge depend only on that edge's three rows. -/
theorem edgeVal_congr {R : Nat} (q q' m m' mh mh' : Mat R 128) (W1a W1b : Mat 128 128) (b1 : Row 128) (W2 : Mat 128 128)
    (b2 : Row 128) (W3 : Mat 128 1) (b3 : Row 1) (g1 be1 g2 be2 : Row 128) (e : Fin R) (j : Fin 128)
    (hq : ∀ k, q (ix2 e k) = q' (ix2 e k)) (hm : ∀ k, m (ix2 e k) = m' (ix2 e k)) (hh : mh (ix2 e j) = mh' (ix2 e j)) :
    edgeVal q m mh W1a W1b b1 W2 b2 W3 b3 g1 be1 g2 be2 (ix2 e j)
      = edgeVal q' m' mh' W1a W1b b1 W2 b2 W3 b3 g1 be1 g2 be2 (ix2 e j) := by
  have e1 : rowOf q e = rowOf q' e := funext hq
  have e2 : rowOf m e = rowOf m' e := funext hm
  show gate (rowOf q ((ix2 e j : (⟨2, ![R, 128]⟩ : Shape).Idx) 0)) (rowOf m ((ix2 e j : (⟨2, ![R, 128]⟩ : Shape).Idx) 0))
      W1a W1b b1 W2 b2 W3 b3 g1 be1 g2 be2 * mh (ix2 e j) = _
  show gate (rowOf q e) (rowOf m e) W1a W1b b1 W2 b2 W3 b3 g1 be1 g2 be2 * mh (ix2 e j)
    = gate (rowOf q' e) (rowOf m' e) W1a W1b b1 W2 b2 W3 b3 g1 be1 g2 be2 * mh' (ix2 e j)
  rw [e1, e2, hh]

end Cert.Spec

end
-- ==== Proof.MemBlock.lean ====
/-
  The first kernel's body on one block of memory rows.

  The body takes 5000 rows of the memory table and the eleven weight arrays and writes 5000 rows: each output row is
  the three-layer perceptron of the same input row (an affine map is a sum over the 128 input coordinates, the lane
  sums that give the mean and the variance run along a row, every other operation is coordinatewise), so the block
  written is the row-by-row map of the block read. The narrowing of the matrix operands to half width is the identity
  on extended reals.
-/
import proofs.«429219_j43319040147615_1_alg».proof.Proof.Gen.KernelIdeal.Frame
import proofs.«429219_j43319040147615_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.SL.Sem
open scoped BigOperators

namespace Cert.KernelIdeal.Val

open Cert.KernelIdeal Cert.KernelIdeal.Gen Cert.Spec

/-! The helpers of this module live in their own namespace: the column forms of the layout operations, the body's
    building blocks read at an entry, and the rows of their results. -/
namespace MemRows

/-! ## Column forms of the layout operations -/

/-- A vector of length `a` viewed as a column `[a, 1]` reads, at `(r, u)`, the vector at `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` spread over `b` lanes reads, at `(r, j)`, the column at `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## The body's building blocks -/

/-- A row vector of 128 numbers laid under every one of the 5000 rows. -/
def biasB (b : Vec Ideal S128 .f32) : FVec Ideal S5000x128 .f32 :=
  broadcastTo S5000x128 (shapeCast S1x128 b shapeCasts_S128_S1x128) broadcasts_S1x128_S5000x128

/-- At `(r, j)` it reads the vector at `j`. -/
theorem biasB_apply (b : Vec Ideal S128 .f32) (r : Fin 5000) (j : Fin 128) : biasB b (ix2 r j) = b (ix1 j) :=
  (broadcastTo_1b_ab_apply _ broadcasts_S1x128_S5000x128 r j).trans
    (shapeCast_a_1a_apply b shapeCasts_S128_S1x128 (0 : Fin 1) j)

/-- The block times a 128 × 128 matrix, both operands narrowed to half width, accumulated from zero. -/
def mm (a : FVec Ideal S5000x128 .f32) (W : FVec Ideal S128x128 .bf16) : FVec Ideal S5000x128 .f32 :=
  matmul dot_S5000x128_S128x128_S5000x128_1_0_0_1_n_n none (truncf .bf16 a bitsLt_bf16_f32)
    (shapeCast S128x128 W shapeCasts_S128x128_S128x128) (constant S5000x128 .f32 0x00000000#32)

theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(r, j)` of the product is the sum over `k` of the block at `(r, k)` times the matrix at `(k, j)`. -/
theorem mm_apply (a : FVec Ideal S5000x128 .f32) (W : FVec Ideal S128x128 .bf16) (r : Fin 5000) (j : Fin 128) :
    mm a W (ix2 r j) = ∑ k : Fin 128, a (ix2 r k) * W (ix2 k j) := by
  unfold mm
  rw [shapeCast_self]
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_mm_0 _ _).trans hk
    | ⟨1, _⟩ => exact rhs_mm_1 _ _)
  rw [el, er]
  rfl

/-- Clipping the block below at zero. -/
def reluB (h : FVec Ideal S5000x128 .f32) : FVec Ideal S5000x128 .f32 :=
  maximumf h (broadcast S5000x128 (Scalar.ofBits .f32 0x00000000#32))

/-- Row `r` of the clipped block is the clipped row. -/
theorem rowOf_reluB (h : FVec Ideal S5000x128 .f32) (r : Fin 5000) : rowOf (reluB h) r = relu (rowOf h r) := rfl

/-- The lane sums of the block's rows kept as a column, divided by the row length: the column of row means. -/
def meanCol (v : FVec Ideal S5000x128 .f32) : FVec Ideal S5000x1 .f32 :=
  divf (shapeCast S5000x1 (multiReduction .add [1] S5000 v 0x00000000#32 reduces_S5000x128_S5000 (.inl rfl) rfl)
      shapeCasts_S5000_S5000x1) (broadcast S5000x1 (Scalar.ofBits .f32 0x43000000#32))

/-- The lane sum kept as a column reads, at `(r, u)`, the sum of row `r` over its 128 lanes. -/
theorem laneSum_apply (v : FVec Ideal S5000x128 .f32) (r : Fin 5000) (u : Fin 1) :
    shapeCast S5000x1 (multiReduction (F := Ideal) .add [1] S5000 v 0x00000000#32 reduces_S5000x128_S5000 (.inl rfl) rfl)
        shapeCasts_S5000_S5000x1 (ix2 r u) = ∑ k : Fin 128, v (ix2 r k) := by
  refine (shapeCast_a_a1_apply _ shapeCasts_S5000_S5000x1 r u).trans ?_
  refine (Ideal.multiReduction_add_single v 0x00000000#32 reduces_S5000x128_S5000 (.inl rfl) rfl (ix1 r)).trans ?_
  refine Finset.sum_congr rfl fun k _ => congrArg v (funext fun a => Fin.ext ?_)
  match a with
  | ⟨0, _⟩ => rfl
  | ⟨1, _⟩ => rfl

/-- The column of means reads, at `(r, u)`, the mean of row `r`. -/
theorem meanCol_apply (v : FVec Ideal S5000x128 .f32) (r : Fin 5000) (u : Fin 1) :
    meanCol v (ix2 r u) = rowMean (rowOf v r) := by
  unfold meanCol
  rw [divf_apply, laneSum_apply]
  rfl

/-- The block minus its column of row means spread over the lanes. -/
def centredB (v : FVec Ideal S5000x128 .f32) : FVec Ideal S5000x128 .f32 :=
  subf v (broadcastTo S5000x128 (meanCol v) broadcasts_S5000x1_S5000x128)

/-- Row `r` of the centred block is the centred row. -/
theorem rowOf_centredB (v : FVec Ideal S5000x128 .f32) (r : Fin 5000) : rowOf (centredB v) r = centred (rowOf v r) := by
  funext k
  show centredB v (ix2 r k) = _
  unfold centredB
  rw [subf_apply, broadcastTo_a1_ab_apply, meanCol_apply]
  rfl

/-- One hidden layer on the block after its affine map: clipped, centred, scaled by the inverse root of the variance
    plus the offset, then scaled and shifted lane by lane. -/
def lnB (h : FVec Ideal S5000x128 .f32) (g be : Vec Ideal S128 .f32) : FVec Ideal S5000x128 .f32 :=
  addf (mulf (mulf (centredB (reluB h))
      (broadcastTo S5000x128 (rsqrt (addf (meanCol (mulf (centredB (reluB h)) (centredB (reluB h))))
        (broadcast S5000x1 (Scalar.ofBits .f32 0x3A83126F#32)))) broadcasts_S5000x1_S5000x128)) (biasB g)) (biasB be)

/-- Row `r` of the layer's output is the hidden layer of row `r`. -/
theorem rowOf_lnB (h : FVec Ideal S5000x128 .f32) (g be : Vec Ideal S128 .f32) (r : Fin 5000) :
    rowOf (lnB h g be) r = hidden (rowOf h r) (vec g) (vec be) := by
  funext j
  show lnB h g be (ix2 r j) = _
  have hc : ∀ k : Fin 128, centredB (reluB h) (ix2 r k) = centred (relu (rowOf h r)) k := fun k =>
    (congrFun (rowOf_centredB (reluB h) r) k).trans (by rw [rowOf_reluB])
  have hsq : rowOf (mulf (centredB (reluB h)) (centredB (reluB h))) r
      = fun k => centred (relu (rowOf h r)) k * centred (relu (rowOf h r)) k := by
    funext k
    show mulf (centredB (reluB h)) (centredB (reluB h)) (ix2 r k) = _
    rw [mulf_apply, hc]
  unfold lnB
  rw [addf_apply, mulf_apply, mulf_apply, biasB_apply, biasB_apply, broadcastTo_a1_ab_apply, hc]
  show _ * Ideal.rsqrt (meanCol (mulf (centredB (reluB h)) (centredB (reluB h))) (ix2 r 0) + _) * _ + _ = _
  rw [meanCol_apply, hsq]
  rfl

/-- Row `r` of "block times matrix plus the row vector" is the affine map of row `r`. -/
theorem rowOf_affine (a : FVec Ideal S5000x128 .f32) (W : FVec Ideal S128x128 .bf16) (b : Vec Ideal S128 .f32) (r : Fin 5000) :
    rowOf (addf (mm a W) (biasB b)) r = affine (rowOf a r) (mat W) (vec b) := by
  funext j
  show addf (mm a W) (biasB b) (ix2 r j) = _
  rw [addf_apply, mm_apply, biasB_apply]
  rfl

/-! ## The body's two payloads as compositions of the building blocks -/

/-- The first part of the body: first affine map, first hidden layer, second matrix product. -/
theorem pay2_eq (v0 : Vec Ideal S5000x128 .f32) (v2 : Vec Ideal S128x128 .bf16) (v5 v29 v33 : Vec Ideal S128 .f32)
    (v38 : Vec Ideal S128x128 .bf16) :
    k0_pay2 (F := Ideal) v0 v2 v5 v29 v33 v38 = mm (lnB (addf (mm v0 v2) (biasB v5)) v29 v33) v38 := rfl

/-- The rest of the body: second bias, second hidden layer, the output affine map. -/
theorem pay1_eq (v40 : FVec Ideal S5000x128 .f32) (v41 v65 v69 : Vec Ideal S128 .f32) (v74 : Vec Ideal S128x128 .bf16)
    (v77 : Vec Ideal S128 .f32) :
    k0_pay1 (F := Ideal) v40 v41 v65 v69 v74 v77 = addf (mm (lnB (addf v40 (biasB v41)) v65 v69) v74) (biasB v77) := rfl

/-- The offsets of a whole-buffer rectangle of rank two are zero on both axes. -/
theorem off2_zero : (![0, 0] : Fin 2 → Nat) = fun _ => 0 :=
  funext fun a => match a with | ⟨0, _⟩ => rfl | ⟨1, _⟩ => rfl
/-- The offset of a whole-buffer rectangle of rank one is zero. -/
theorem off1_zero : (![0] : Fin 1 → Nat) = fun _ => 0 :=
  funext fun a => match a with | ⟨0, _⟩ => rfl

end MemRows

open MemRows in
/-- What the body leaves in the output window's buffer is the mapped memory of the block's rows. -/
theorem out0_eq (x0 : Vec Ideal S5000x128 .f32) (x1 : Vec Ideal S128x128 .bf16) (x2 : Vec Ideal S128 .f32)
    (x3 : Vec Ideal S128x128 .bf16) (x4 : Vec Ideal S128 .f32) (x5 : Vec Ideal S128x128 .bf16)
    (x6 x7 x8 x9 x10 : Vec Ideal S128 .f32) :
    out0_11 (F := Ideal) x0 x1 x2 x3 x4 x5 x6 x7 x8 x9 x10
      = memHead (R := 5000) x0 x1 x2 x3 x4 x5 x6 x7 x8 x9 x10 := by
  unfold out0_11
  rw [View.canon_unit_zero off2_zero]
  simp only [View.ld_unit_zero (S := S5000x128) off2_zero, View.ld_unit_zero (S := S128x128) off2_zero,
    View.ld_unit_zero (S := S128) off1_zero]
  rw [pay1_eq, pay2_eq]
  funext i
  obtain ⟨r, j, rfl⟩ : ∃ (r : Fin 5000) (j : Fin 128), i = ix2 r j := ⟨i 0, i 1, eq_ix2 i⟩
  show rowOf (addf (mm (lnB (addf (mm (lnB (addf (mm x0 x1) (biasB x2)) x7 x8) x3) (biasB x4)) x9 x10) x5) (biasB x6)) r j
    = memRow (rowOf x0 r) x1 x2 x3 x4 x5 x6 x7 x8 x9 x10 j
  rw [rowOf_affine, rowOf_lnB, rowOf_affine, rowOf_lnB, rowOf_affine]
  rfl

end Cert.KernelIdeal.Val

end
-- ==== Proof.EdgeBlock.lean ====
/-
  The second kernel's body on one block of edges.

  The body takes 3200 gathered query rows, 3200 gathered memory rows, 3200 gathered mapped-memory rows and the
  eleven weight arrays. For each edge the two gathered rows go through the one-output perceptron (the first affine map
  is the query half of the 256 × 128 matrix applied to the query row plus the memory half applied to the memory row),
  the output is squashed by the hyperbolic tangent, and the edge's row of the result is that scalar times the edge's
  mapped-memory row. Every step is row-local, so the block written is the row-by-row map of the blocks read.
-/
import proofs.«429219_j43319040147615_1_alg».proof.Proof.Gen.KernelIdeal.Frame
import proofs.«429219_j43319040147615_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.SL.Sem
open scoped BigOperators

namespace Cert.KernelIdeal.Val

open Cert.KernelIdeal Cert.KernelIdeal.Gen Cert.Spec

/-! ## The whole-buffer rectangles have zero offsets -/

private theorem off2_zero : (![0, 0] : Fin 2 → Nat) = fun _ => 0 := funext fun a => by fin_cases a <;> rfl
private theorem off1_zero : (![0] : Fin 1 → Nat) = fun _ => 0 := funext fun a => by fin_cases a <;> rfl

/-! ## Rows, columns and single entries laid over a block, read at an entry -/

/-- A vector of 128 laid over every row of the block reads its own coordinate. -/
private theorem rowOver_apply (b : Vec Ideal S128 .f32) (h1 : S128.ShapeCasts S1x128) (h2 : S1x128.Broadcasts S3200x128)
    (e : Fin 3200) (j : Fin 128) :
    broadcastTo S3200x128 (shapeCast S1x128 b h1) h2 (ix2 e j) = b (ix1 j) :=
  (broadcastTo_1b_ab_apply (shapeCast S1x128 b h1) h2 e j).trans (shapeCast_a_1a_apply b h1 0 j)

/-- A column of 3200 laid over the 128 lanes reads the row's entry. -/
private theorem colOver_apply (c : FVec Ideal S3200x1 .f32) (h : S3200x1.Broadcasts S3200x128) (e : Fin 3200) (j : Fin 128) :
    broadcastTo S3200x128 c h (ix2 e j) = c (ix2 e (0 : Fin 1)) := by
  refine broadcastTo_apply c h (ix2 e j) (ix2 e (0 : Fin 1)) fun ax => ?_
  match ax with
  | ⟨0, _⟩ =>
    show e.val = if (3200 : Nat) = 1 then 0 else e.val
    rw [if_neg (by decide)]
  | ⟨1, _⟩ =>
    show (0 : Nat) = if (1 : Nat) = 1 then 0 else j.val
    rw [if_pos rfl]

/-- A vector of 3200 seen as a column reads the same entry. -/
private theorem asCol_apply (v : FVec Ideal S3200 .f32) (h : S3200.ShapeCasts S3200x1) (e : Fin 3200) :
    shapeCast S3200x1 v h (ix2 e (0 : Fin 1)) = v (ix1 e) :=
  shapeCast_apply v h _ _ (by
    rw [Shape.rowMajor_val_two, Shape.rowMajor_val_one]
    show e.val = e.val * 1 + 0
    rw [Nat.mul_one, Nat.add_zero])

/-- The one-entry vector laid over a column of 3200 reads its entry. -/
private theorem oneOver_apply (b : Vec Ideal S1 .f32) (h1 : S1.ShapeCasts S1x1) (h2 : S1x1.Broadcasts S3200x1) (e : Fin 3200) :
    broadcastTo S3200x1 (shapeCast S1x1 b h1) h2 (ix2 e (0 : Fin 1)) = b (ix1 (0 : Fin 1)) :=
  (broadcastTo_1b_ab_apply (shapeCast S1x1 b h1) h2 e (0 : Fin 1)).trans (shapeCast_a_1a_apply b h1 0 (0 : Fin 1))

/-- The sum along the 128 lanes, read at a row. -/
private theorem laneSum_apply (src : FVec Ideal S3200x128 .f32) (h : S3200x128.Reduces [1] S3200) (hφ : FKind.Formats .f32)
    (hacc : (0x00000000#32 : BitVec 32) = FKind.add.neutral .f32 hφ) (e : Fin 3200) :
    multiReduction (F := Ideal) .add [1] S3200 src 0x00000000#32 h hφ hacc (ix1 e) = ∑ k : Fin 128, src (ix2 e k) := by
  refine (Ideal.multiReduction_add_single src 0x00000000#32 h hφ hacc (ix1 e)).trans ?_
  refine Finset.sum_congr rfl fun k _ => congrArg src (funext fun a => Fin.ext ?_)
  match a with
  | ⟨0, _⟩ => rfl
  | ⟨1, _⟩ => rfl

/-! ## The two matrix products, read at an entry -/

private theorem lhs_mm_0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
private theorem lhs_mm_1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
private theorem rhs_mm_0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
private theorem rhs_mm_1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-- A block of 3200 rows times a 128 × 128 matrix, accumulated from zero: entry (e, j) is the row e times column j. -/
private theorem mulMat_apply (x : FVec Ideal S3200x128 .bf16) (W : FVec Ideal S128x128 .bf16) (e : Fin 3200) (j : Fin 128) :
    matmul dot_S3200x128_S128x128_S3200x128_1_0_0_1_n_n none x W (constant (F := Ideal) S3200x128 .f32 0x00000000#32) (ix2 e j)
      = ∑ k : Fin 128, x (ix2 e k) * W (ix2 k j) := by
  simp only [matmul]
  rw [Ideal.matmul_constant_zero_apply, ← Equiv.sum_comp (contrEquiv1 dot_S3200x128_S128x128_S3200x128_1_0_0_1_n_n 128 rfl rfl).symm]
  refine Finset.sum_congr rfl fun k _ => ?_
  have hk := contrEquiv1_symm_val dot_S3200x128_S128x128_S3200x128_1_0_0_1_n_n 128 rfl rfl k
  have el : dot_S3200x128_S128x128_S3200x128_1_0_0_1_n_n.lhsIdx (ix2 e j) ((contrEquiv1 dot_S3200x128_S128x128_S3200x128_1_0_0_1_n_n 128 rfl rfl).symm k) = ix2 e k := funext fun a => Fin.ext (by
    match a with
    | ⟨0, _⟩ => exact lhs_mm_0 _ _
    | ⟨1, _⟩ => exact (lhs_mm_1 _ _).trans hk)
  have er : dot_S3200x128_S128x128_S3200x128_1_0_0_1_n_n.rhsIdx (ix2 e j) ((contrEquiv1 dot_S3200x128_S128x128_S3200x128_1_0_0_1_n_n 128 rfl rfl).symm k) = ix2 k j := funext fun a => Fin.ext (by
    match a with
    | ⟨0, _⟩ => exact (rhs_mm_0 _ _).trans hk
    | ⟨1, _⟩ => exact rhs_mm_1 _ _)
  rw [el, er]

private theorem lhs_mc_0 (i : S3200x1.Idx) (q : dot_S3200x128_S128x1_S3200x1_1_0_0_1_n_n.contr.Idx) :
    (dot_S3200x128_S128x1_S3200x1_1_0_0_1_n_n.lhsIdx i q 0).val = (i 0).val := by
  unfold DotDims.lhsIdx
  rw [dif_neg (show ¬(0 : Fin S3200x128.rank) ∈ dot_S3200x128_S128x1_S3200x1_1_0_0_1_n_n.lhsBatch by decide), dif_pos (show (0 : Fin S3200x128.rank) ∈ dot_S3200x128_S128x1_S3200x1_1_0_0_1_n_n.lhsNonContracting by decide)]
  rfl
private theorem lhs_mc_1 (i : S3200x1.Idx) (q : dot_S3200x128_S128x1_S3200x1_1_0_0_1_n_n.contr.Idx) :
    (dot_S3200x128_S128x1_S3200x1_1_0_0_1_n_n.lhsIdx i q 1).val = (q ⟨0, by decide⟩).val :=
  dot_S3200x128_S128x1_S3200x1_1_0_0_1_n_n.lhsIdx_val_of_single rfl i q
private theorem rhs_mc_0 (i : S3200x1.Idx) (q : dot_S3200x128_S128x1_S3200x1_1_0_0_1_n_n.contr.Idx) :
    (dot_S3200x128_S128x1_S3200x1_1_0_0_1_n_n.rhsIdx i q 0).val = (q ⟨0, by decide⟩).val :=
  dot_S3200x128_S128x1_S3200x1_1_0_0_1_n_n.rhsIdx_val_of_single rfl i q
private theorem rhs_mc_1 (i : S3200x1.Idx) (q : dot_S3200x128_S128x1_S3200x1_1_0_0_1_n_n.contr.Idx) :
    (dot_S3200x128_S128x1_S3200x1_1_0_0_1_n_n.rhsIdx i q 1).val = (i 1).val := by
  unfold DotDims.rhsIdx
  rw [dif_neg (show ¬(1 : Fin S128x1.rank) ∈ dot_S3200x128_S128x1_S3200x1_1_0_0_1_n_n.rhsBatch by decide), dif_pos (show (1 : Fin S128x1.rank) ∈ dot_S3200x128_S128x1_S3200x1_1_0_0_1_n_n.rhsNonContracting by decide)]
  rfl

/-- A block of 3200 rows times a 128 × 1 matrix, accumulated from zero: entry (e, 0) is the row e times the column. -/
private theorem mulCol_apply (x : FVec Ideal S3200x128 .bf16) (W : FVec Ideal S128x1 .bf16) (e : Fin 3200) :
    matmul dot_S3200x128_S128x1_S3200x1_1_0_0_1_n_n none x W (constant (F := Ideal) S3200x1 .f32 0x00000000#32) (ix2 e (0 : Fin 1))
      = ∑ k : Fin 128, x (ix2 e k) * W (ix2 k (0 : Fin 1)) := by
  simp only [matmul]
  rw [Ideal.matmul_constant_zero_apply, ← Equiv.sum_comp (contrEquiv1 dot_S3200x128_S128x1_S3200x1_1_0_0_1_n_n 128 rfl rfl).symm]
  refine Finset.sum_congr rfl fun k _ => ?_
  have hk := contrEquiv1_symm_val dot_S3200x128_S128x1_S3200x1_1_0_0_1_n_n 128 rfl rfl k
  have el : dot_S3200x128_S128x1_S3200x1_1_0_0_1_n_n.lhsIdx (ix2 e (0 : Fin 1)) ((contrEquiv1 dot_S3200x128_S128x1_S3200x1_1_0_0_1_n_n 128 rfl rfl).symm k) = ix2 e k := funext fun a => Fin.ext (by
    match a with
    | ⟨0, _⟩ => exact lhs_mc_0 _ _
    | ⟨1, _⟩ => exact (lhs_mc_1 _ _).trans hk)
  have er : dot_S3200x128_S128x1_S3200x1_1_0_0_1_n_n.rhsIdx (ix2 e (0 : Fin 1)) ((contrEquiv1 dot_S3200x128_S128x1_S3200x1_1_0_0_1_n_n 128 rfl rfl).symm k) = ix2 k (0 : Fin 1) := funext fun a => Fin.ext (by
    match a with
    | ⟨0, _⟩ => exact (rhs_mc_0 _ _).trans hk
    | ⟨1, _⟩ => exact rhs_mc_1 _ _)
  rw [el, er]

/-! ## One hidden layer on a block, read at an entry -/

/-- A layer's output before its shift is added: centred, times the inverse root, times the scale. -/
private def scaled (r g : Fin 128 → EReal) (j : Fin 128) : EReal :=
  centred r j * Ideal.rsqrt (rowMean (fun k => centred r k * centred r k) + eps) * g j

/-- Adding a vector of 128 to every row of a block. -/
private def addRow (x : FVec Ideal S3200x128 .f32) (b : Vec Ideal S128 .f32) : FVec Ideal S3200x128 .f32 :=
  addf x (broadcastTo S3200x128 (shapeCast S1x128 b shapeCasts_S128_S1x128) broadcasts_S1x128_S3200x128)

/-- Clipping a block below at zero. -/
private def clipBlk (v : FVec Ideal S3200x128 .f32) : FVec Ideal S3200x128 .f32 :=
  maximumf v (broadcast S3200x128 (Scalar.ofBits .f32 0x00000000#32 : Ideal .f32))

/-- The column of the rows' means. -/
private def meanCol (v : FVec Ideal S3200x128 .f32) : FVec Ideal S3200x1 .f32 :=
  divf (shapeCast S3200x1 (multiReduction .add [1] S3200 v 0x00000000#32 reduces_S3200x128_S3200 (.inl rfl) rfl) shapeCasts_S3200_S3200x1)
    (broadcast S3200x1 (Scalar.ofBits .f32 0x43000000#32 : Ideal .f32))

/-- Every row minus its mean. -/
private def centreBlk (r : FVec Ideal S3200x128 .f32) : FVec Ideal S3200x128 .f32 :=
  subf r (broadcastTo S3200x128 (meanCol r) broadcasts_S3200x1_S3200x128)

/-- Clipped, centred, times the inverse root of the variance plus the offset, times the scale vector. -/
private def scaleBlk (v : FVec Ideal S3200x128 .f32) (g : Vec Ideal S128 .f32) : FVec Ideal S3200x128 .f32 :=
  mulf (mulf (centreBlk (clipBlk v))
      (broadcastTo S3200x128 (rsqrt (addf (meanCol (mulf (centreBlk (clipBlk v)) (centreBlk (clipBlk v))))
        (broadcast S3200x1 (Scalar.ofBits .f32 0x3A83126F#32 : Ideal .f32)))) broadcasts_S3200x1_S3200x128))
    (broadcastTo S3200x128 (shapeCast S1x128 g shapeCasts_S128_S1x128) broadcasts_S1x128_S3200x128)

private theorem addRow_apply (x : FVec Ideal S3200x128 .f32) (b : Vec Ideal S128 .f32) (e : Fin 3200) (j : Fin 128) :
    addRow x b (ix2 e j) = x (ix2 e j) + b (ix1 j) := by
  show x (ix2 e j) + broadcastTo S3200x128 (shapeCast S1x128 b shapeCasts_S128_S1x128) broadcasts_S1x128_S3200x128 (ix2 e j) = _
  rw [rowOver_apply]

private theorem clipBlk_row (v : FVec Ideal S3200x128 .f32) (e : Fin 3200) :
    (fun k : Fin 128 => clipBlk v (ix2 e k)) = relu (fun k => v (ix2 e k)) := rfl

private theorem meanCol_apply (v : FVec Ideal S3200x128 .f32) (e : Fin 3200) :
    meanCol v (ix2 e (0 : Fin 1)) = rowMean (fun k => v (ix2 e k)) := by
  show Ideal.div (shapeCast S3200x1 (multiReduction (F := Ideal) .add [1] S3200 v 0x00000000#32 reduces_S3200x128_S3200 (.inl rfl) rfl)
      shapeCasts_S3200_S3200x1 (ix2 e (0 : Fin 1))) width = _
  rw [asCol_apply]
  exact congrArg (fun t => Ideal.div t width) (laneSum_apply v reduces_S3200x128_S3200 (.inl rfl) rfl e)

private theorem centreBlk_apply (r : FVec Ideal S3200x128 .f32) (e : Fin 3200) (j : Fin 128) :
    centreBlk r (ix2 e j) = centred (fun k => r (ix2 e k)) j := by
  show r (ix2 e j) - broadcastTo S3200x128 (meanCol r) broadcasts_S3200x1_S3200x128 (ix2 e j) = _
  rw [colOver_apply, meanCol_apply]
  rfl

private theorem scaleBlk_apply (v : FVec Ideal S3200x128 .f32) (g : Vec Ideal S128 .f32) (e : Fin 3200) (j : Fin 128) :
    scaleBlk v g (ix2 e j) = scaled (relu (fun k => v (ix2 e k))) (vec g) j := by
  show centreBlk (clipBlk v) (ix2 e j)
      * broadcastTo S3200x128 (rsqrt (addf (meanCol (mulf (centreBlk (clipBlk v)) (centreBlk (clipBlk v))))
          (broadcast S3200x1 (Scalar.ofBits .f32 0x3A83126F#32 : Ideal .f32)))) broadcasts_S3200x1_S3200x128 (ix2 e j)
      * broadcastTo S3200x128 (shapeCast S1x128 g shapeCasts_S128_S1x128) broadcasts_S1x128_S3200x128 (ix2 e j) = _
  rw [colOver_apply, rowOver_apply]
  show centreBlk (clipBlk v) (ix2 e j)
      * Ideal.rsqrt (meanCol (mulf (centreBlk (clipBlk v)) (centreBlk (clipBlk v))) (ix2 e (0 : Fin 1)) + eps)
      * g (ix1 j) = _
  rw [meanCol_apply, centreBlk_apply, clipBlk_row]
  have hsq : (fun k : Fin 128 => mulf (centreBlk (clipBlk v)) (centreBlk (clipBlk v)) (ix2 e k))
      = fun k => centred (relu (fun k => v (ix2 e k))) k * centred (relu (fun k => v (ix2 e k))) k :=
    funext fun k => by rw [mulf_apply, centreBlk_apply, clipBlk_row]
  rw [hsq]
  rfl

/-- A whole hidden layer: the shift added after the scaling. -/
private theorem layer_apply (v : FVec Ideal S3200x128 .f32) (g be : Vec Ideal S128 .f32) (e : Fin 3200) (j : Fin 128) :
    addRow (scaleBlk v g) be (ix2 e j) = hidden (fun k => v (ix2 e k)) (vec g) (vec be) j := by
  rw [addRow_apply, scaleBlk_apply]
  rfl

/-! ## The three stretches of the body, read at an entry -/

/-- The first stretch is the first hidden layer up to its scaling, over the edge's first pre-activation. -/
private theorem pay2_eq (x0 x1 : Vec Ideal S3200x128 .f32) (W1a W1b : Vec Ideal S128x128 .bf16) (b1 g1 : Vec Ideal S128 .f32) :
    k1_pay2 (F := Ideal) x0 x1 W1a W1b b1 g1
      = scaleBlk (addRow (addf
          (matmul (φ₂ := .bf16) dot_S3200x128_S128x128_S3200x128_1_0_0_1_n_n none
            (truncf .bf16 (shapeCast S3200x128 x0 shapeCasts_S3200x128_S3200x128) bitsLt_bf16_f32)
            (shapeCast S128x128 W1a shapeCasts_S128x128_S128x128) (constant (F := Ideal) S3200x128 .f32 0x00000000#32))
          (matmul (φ₂ := .bf16) dot_S3200x128_S128x128_S3200x128_1_0_0_1_n_n none
            (truncf .bf16 (shapeCast S3200x128 x1 shapeCasts_S3200x128_S3200x128) bitsLt_bf16_f32)
            (shapeCast S128x128 W1b shapeCasts_S128x128_S128x128) (constant (F := Ideal) S3200x128 .f32 0x00000000#32))) b1) g1 := rfl

private theorem firstLayer_apply (x0 x1 : Vec Ideal S3200x128 .f32) (W1a W1b : Vec Ideal S128x128 .bf16) (b1 g1 : Vec Ideal S128 .f32)
    (e : Fin 3200) (j : Fin 128) :
    k1_pay2 (F := Ideal) x0 x1 W1a W1b b1 g1 (ix2 e j)
      = scaled (relu (edgePre (rowOf x0 e) (rowOf x1 e) (mat W1a) (mat W1b) (vec b1))) (vec g1) j := by
  rw [pay2_eq, shapeCast_self, shapeCast_self, shapeCast_self, shapeCast_self, scaleBlk_apply]
  have hpre : (fun k : Fin 128 => addRow (addf
          (matmul (φ₂ := .bf16) dot_S3200x128_S128x128_S3200x128_1_0_0_1_n_n none (truncf .bf16 x0 bitsLt_bf16_f32) W1a
            (constant (F := Ideal) S3200x128 .f32 0x00000000#32))
          (matmul (φ₂ := .bf16) dot_S3200x128_S128x128_S3200x128_1_0_0_1_n_n none (truncf .bf16 x1 bitsLt_bf16_f32) W1b
            (constant (F := Ideal) S3200x128 .f32 0x00000000#32))) b1 (ix2 e k))
      = edgePre (rowOf x0 e) (rowOf x1 e) (mat W1a) (mat W1b) (vec b1) :=
    funext fun k => by
      rw [addRow_apply, addf_apply, mulMat_apply, mulMat_apply]
      rfl
  rw [hpre]

/-- The second stretch: the first layer's shift, the second affine map, the second hidden layer, the 128 × 1 product. -/
private theorem pay3_eq (v40 : FVec Ideal S3200x128 .f32) (be1 : Vec Ideal S128 .f32) (W2 : Vec Ideal S128x128 .bf16)
    (b2 g2 be2 : Vec Ideal S128 .f32) (W3 : Vec Ideal S128x1 .bf16) :
    k1_pay3 (F := Ideal) v40 be1 W2 b2 g2 be2 W3
      = matmul (φ₂ := .bf16) dot_S3200x128_S128x1_S3200x1_1_0_0_1_n_n none
          (truncf .bf16 (addRow (scaleBlk (addRow
            (matmul (φ₂ := .bf16) dot_S3200x128_S128x128_S3200x128_1_0_0_1_n_n none (truncf .bf16 (addRow v40 be1) bitsLt_bf16_f32)
              (shapeCast S128x128 W2 shapeCasts_S128x128_S128x128) (constant (F := Ideal) S3200x128 .f32 0x00000000#32)) b2) g2) be2)
            bitsLt_bf16_f32)
          (shapeCast S128x1 W3 shapeCasts_S128x1_S128x1) (constant (F := Ideal) S3200x1 .f32 0x00000000#32) := rfl

private theorem secondLayer_apply (v40 : FVec Ideal S3200x128 .f32) (be1 : Vec Ideal S128 .f32) (W2 : Vec Ideal S128x128 .bf16)
    (b2 g2 be2 : Vec Ideal S128 .f32) (W3 : Vec Ideal S128x1 .bf16) (e : Fin 3200) :
    k1_pay3 (F := Ideal) v40 be1 W2 b2 g2 be2 W3 (ix2 e (0 : Fin 1))
      = ∑ k : Fin 128, hidden (affine (fun k' : Fin 128 => v40 (ix2 e k') + be1 (ix1 k')) (mat W2) (vec b2)) (vec g2) (vec be2) k
          * W3 (ix2 k (0 : Fin 1)) := by
  rw [pay3_eq, shapeCast_self, shapeCast_self, mulCol_apply]
  refine Finset.sum_congr rfl fun k _ => ?_
  rw [truncf_apply, layer_apply]
  have hpre : (fun k : Fin 128 => addRow
          (matmul (φ₂ := .bf16) dot_S3200x128_S128x128_S3200x128_1_0_0_1_n_n none (truncf .bf16 (addRow v40 be1) bitsLt_bf16_f32) W2
            (constant (F := Ideal) S3200x128 .f32 0x00000000#32)) b2 (ix2 e k))
      = affine (fun k' : Fin 128 => v40 (ix2 e k') + be1 (ix1 k')) (mat W2) (vec b2) :=
    funext fun k => by
      rw [addRow_apply, mulMat_apply]
      have hrow : (fun k' : Fin 128 => truncf .bf16 (addRow v40 be1) bitsLt_bf16_f32 (ix2 e k'))
          = fun k' : Fin 128 => v40 (ix2 e k') + be1 (ix1 k') :=
        funext fun k' => by rw [truncf_apply, addRow_apply]
      show (∑ k' : Fin 128, (fun k' : Fin 128 => truncf .bf16 (addRow v40 be1) bitsLt_bf16_f32 (ix2 e k')) k' * W2 (ix2 k' k)) + b2 (ix1 k) = _
      rw [hrow]
      rfl
  rw [hpre]

/-- The last stretch: the output map's shift, the squashing, and the product with the mapped-memory block. -/
private theorem pay1_eq (v84 : FVec Ideal S3200x1 .f32) (b3 : Vec Ideal S1 .f32) (x2 : Vec Ideal S3200x128 .f32) :
    k1_pay1 (F := Ideal) v84 b3 x2
      = mulf (broadcastTo S3200x128 (tanh (addf v84 (broadcastTo S3200x1 (shapeCast S1x1 b3 shapeCasts_S1_S1x1) broadcasts_S1x1_S3200x1)))
          broadcasts_S3200x1_S3200x128) (shapeCast S3200x128 x2 shapeCasts_S3200x128_S3200x128) := rfl

private theorem lastStep_apply (v84 : FVec Ideal S3200x1 .f32) (b3 : Vec Ideal S1 .f32) (x2 : Vec Ideal S3200x128 .f32)
    (e : Fin 3200) (j : Fin 128) :
    k1_pay1 (F := Ideal) v84 b3 x2 (ix2 e j) = Ideal.tanh (v84 (ix2 e (0 : Fin 1)) + b3 (ix1 (0 : Fin 1))) * x2 (ix2 e j) := by
  rw [pay1_eq, shapeCast_self, mulf_apply, colOver_apply]
  show Ideal.tanh (v84 (ix2 e (0 : Fin 1)) + broadcastTo S3200x1 (shapeCast S1x1 b3 shapeCasts_S1_S1x1) broadcasts_S1x1_S3200x1 (ix2 e (0 : Fin 1)))
      * x2 (ix2 e j) = _
  rw [oneOver_apply]

/-! ## The block written -/

/-- What the body leaves in the output window's buffer is the block's messages. -/
theorem out1_eq (x0 x1 x2 : Vec Ideal S3200x128 .f32) (x3 x4 : Vec Ideal S128x128 .bf16) (x5 : Vec Ideal S128 .f32)
    (x6 : Vec Ideal S128x128 .bf16) (x7 : Vec Ideal S128 .f32) (x8 : Vec Ideal S128x1 .bf16) (x9 : Vec Ideal S1 .f32)
    (x10 x11 x12 x13 : Vec Ideal S128 .f32) :
    out1_14 (F := Ideal) x0 x1 x2 x3 x4 x5 x6 x7 x8 x9 x10 x11 x12 x13
      = edgeVal (R := 3200) x0 x1 x2 x3 x4 x5 x6 x7 x8 x9 x10 x11 x12 x13 := by
  unfold out1_14
  rw [View.canon_unit_zero off2_zero]
  simp only [View.ld_unit_zero (S := S3200x128) off2_zero, View.ld_unit_zero (S := S128x128) off2_zero,
    View.ld_unit_zero (S := S128x1) off2_zero, View.ld_unit_zero (S := S128) off1_zero, View.ld_unit_zero (S := S1) off1_zero]
  funext i
  obtain ⟨e, j, rfl⟩ : ∃ (e : Fin 3200) (j : Fin 128), i = ix2 e j := ⟨i 0, i 1, eq_ix2 i⟩
  rw [lastStep_apply, secondLayer_apply]
  have hfirst : (fun k' : Fin 128 => k1_pay2 (F := Ideal) x0 x1 x3 x4 x5 x10 (ix2 e k') + x11 (ix1 k'))
      = hidden (edgePre (rowOf x0 e) (rowOf x1 e) (mat x3) (mat x4) (vec x5)) (vec x10) (vec x11) :=
    funext fun k' => by
      rw [firstLayer_apply]
      rfl
  rw [hfirst]
  rfl

end Cert.KernelIdeal.Val

end
-- ==== Proof.Arrays.lean ====
/-
  From blocks to arrays, for both kernels.

  The first kernel's grid has 10 points; point `t` reads rows `5000 t … 5000 t + 4999` of the memory table (every
  weight array whole) and writes the same rows of its output. The second kernel's grid has 250 points; point `t` reads
  and writes rows `3200 t … 3200 t + 3199` of the edge arrays. The blocks tile the arrays with no overhang, and each
  output row depends only on the same row of the inputs, so the array a kernel leaves is the row-by-row map of the whole
  input arrays.
-/
import proofs.«429219_j43319040147615_1_alg».proof.Proof.MemBlock
import proofs.«429219_j43319040147615_1_alg».proof.Proof.EdgeBlock
import Idealize.ShloMosaic.Lib.ValueIdx
import Idealize.ShloMosaic.Lib.Pipeline.Value

noncomputable section

open Idealize.ShloMosaic Idealize.ShloMosaic.TcCoe Idealize.ShloMosaic.ValueIdx Idealize.SL.Sem
open scoped BigOperators

namespace Cert.KernelIdeal.Val

open Cert.KernelIdeal Cert.KernelIdeal.Gen Cert.Spec
open Idealize.ShloMosaic.Pipeline (Dat Cfg Window)

variable (V : (c : Dev nD) → (b : Ref sig .tc) → Buf (Elt Ideal) ((c : Thread nD τ).loc b))

/-- The mapped table at an index depends only on that index's row of the table. -/
private theorem memHead_row {R R' : Nat} (x : Mat R 128) (x' : Mat R' 128) (W1 : Mat 128 128) (b1 : Row 128) (W2 : Mat 128 128)
    (b2 : Row 128) (W3 : Mat 128 128) (b3 : Row 128) (g1 be1 g2 be2 : Row 128)
    (i : (⟨2, ![R, 128]⟩ : Shape).Idx) (i' : (⟨2, ![R', 128]⟩ : Shape).Idx)
    (hrow : rowOf x (i 0) = rowOf x' (i' 0)) (hcol : (i 1).val = (i' 1).val) :
    memHead x W1 b1 W2 b2 W3 b3 g1 be1 g2 be2 i = memHead x' W1 b1 W2 b2 W3 b3 g1 be1 g2 be2 i' := by
  have h1 : (i 1 : Fin 128) = (i' 1 : Fin 128) := Fin.ext hcol
  show memRow (rowOf x (i 0)) W1 b1 W2 b2 W3 b3 g1 be1 g2 be2 (i 1)
    = memRow (rowOf x' (i' 0)) W1 b1 W2 b2 W3 b3 g1 be1 g2 be2 (i' 1)
  rw [hrow]
  exact congrArg _ h1

/-! ## The first kernel: ten blocks of 5000 memory rows -/

/-- The index maps at each of the ten points: the table's window and the output's window sit at block `t` of the rows
    and block zero of the columns. -/
private theorem memIdx : ∀ t : Fin cfg0.N,
    win0_0.index t (0 : Fin 2) = t.val ∧ win0_0.index t (1 : Fin 2) = 0
    ∧ win0_11.index t (0 : Fin 2) = t.val ∧ win0_11.index t (1 : Fin 2) = 0 :=
  (by decide +kernel : ∀ t : Fin grid0.N, _)

/-- Every weight window sits at block zero at every point: its block is its whole array. -/
private theorem memIdxW : ∀ t : Fin cfg0.N,
    (∀ a, win0_1.index t a = 0) ∧ (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) ∧ (∀ a, win0_8.index t a = 0)
    ∧ (∀ a, win0_9.index t a = 0) ∧ (∀ a, win0_10.index t a = 0) :=
  (by decide +kernel : ∀ t : Fin grid0.N, _)

/-- Row `r` of the table's block at point `t` is row `5000 t + r` of the table. -/
private theorem memBlockRow (c : Dev nD) (t : Fin cfg0.N) (r : Fin 5000) (R : Fin 50000) (hR : R.val = t.val * 5000 + r.val) :
    rowOf (R := 5000) (C := 128) (iblk0 V c 0 t) r = rowOf (R := 50000) (C := 128) (V c main_arg1) R := by
  obtain ⟨e0, e1, -⟩ := memIdx t
  funext k
  show iblk0 V c 0 t (ix2 r k) = V c main_arg1 (ix2 R k)
  unfold iblk0
  rw [View.read_apply]
  show V c main_arg1 _ = V c main_arg1 _
  congr 1
  funext a
  apply Fin.ext
  match a with
  | ⟨0, _⟩ => show win0_0.index t (0 : Fin 2) * 5000 + 1 * r.val = R.val; rw [e0, hR]; omega
  | ⟨1, _⟩ => show win0_0.index t (1 : Fin 2) * 128 + 1 * k.val = k.val; rw [e1]; omega

/-- Each weight window's block is its whole array: an element of the block sits in the array at its own coordinates. -/
private theorem memW1 (c : Dev nD) (t : Fin cfg0.N) : iblk0 V c 1 t = V c main_v0 := by
  funext y; unfold iblk0; rw [View.read_apply]
  show V c main_v0 _ = V c main_v0 y
  exact congrArg _ (funext fun a => Fin.ext (Window.rect_emb_val_of_index_zero win0_1 t a ((memIdxW t).1 a) y))

private theorem memW2 (c : Dev nD) (t : Fin cfg0.N) : iblk0 V c 2 t = V c main_arg15 := by
  funext y; unfold iblk0; rw [View.read_apply]
  show V c main_arg15 _ = V c main_arg15 y
  exact congrArg _ (funext fun a => Fin.ext (Window.rect_emb_val_of_index_zero win0_2 t a ((memIdxW t).2.1 a) y))

private theorem memW3 (c : Dev nD) (t : Fin cfg0.N) : iblk0 V c 3 t = V c main_v1 := by
  funext y; unfold iblk0; rw [View.read_apply]
  show V c main_v1 _ = V c main_v1 y
  exact congrArg _ (funext fun a => Fin.ext (Window.rect_emb_val_of_index_zero win0_3 t a ((memIdxW t).2.2.1 a) y))

private theorem memW4 (c : Dev nD) (t : Fin cfg0.N) : iblk0 V c 4 t = V c main_arg17 := by
  funext y; unfold iblk0; rw [View.read_apply]
  show V c main_arg17 _ = V c main_arg17 y
  exact congrArg _ (funext fun a => Fin.ext (Window.rect_emb_val_of_index_zero win0_4 t a ((memIdxW t).2.2.2.1 a) y))

private theorem memW5 (c : Dev nD) (t : Fin cfg0.N) : iblk0 V c 5 t = V c main_v2 := by
  funext y; unfold iblk0; rw [View.read_apply]
  show V c main_v2 _ = V c main_v2 y
  exact congrArg _ (funext fun a => Fin.ext (Window.rect_emb_val_of_index_zero win0_5 t a ((memIdxW t).2.2.2.2.1 a) y))

private theorem memW6 (c : Dev nD) (t : Fin cfg0.N) : iblk0 V c 6 t = V c main_arg19 := by
  funext y; unfold iblk0; rw [View.read_apply]
  show V c main_arg19 _ = V c main_arg19 y
  exact congrArg _ (funext fun a => Fin.ext (Window.rect_emb_val_of_index_zero win0_6 t a ((memIdxW t).2.2.2.2.2.1 a) y))

private theorem memW7 (c : Dev nD) (t : Fin cfg0.N) : iblk0 V c 7 t = V c main_arg20 := by
  funext y; unfold iblk0; rw [View.read_apply]
  show V c main_arg20 _ = V c main_arg20 y
  exact congrArg _ (funext fun a => Fin.ext (Window.rect_emb_val_of_index_zero win0_7 t a ((memIdxW t).2.2.2.2.2.2.1 a) y))

private theorem memW8 (c : Dev nD) (t : Fin cfg0.N) : iblk0 V c 8 t = V c main_arg21 := by
  funext y; unfold iblk0; rw [View.read_apply]
  show V c main_arg21 _ = V c main_arg21 y
  exact congrArg _ (funext fun a => Fin.ext (Window.rect_emb_val_of_index_zero win0_8 t a ((memIdxW t).2.2.2.2.2.2.2.1 a) y))

private theorem memW9 (c : Dev nD) (t : Fin cfg0.N) : iblk0 V c 9 t = V c main_arg22 := by
  funext y; unfold iblk0; rw [View.read_apply]
  show V c main_arg22 _ = V c main_arg22 y
  exact congrArg _ (funext fun a => Fin.ext (Window.rect_emb_val_of_index_zero win0_9 t a ((memIdxW t).2.2.2.2.2.2.2.2.1 a) y))

private theorem memW10 (c : Dev nD) (t : Fin cfg0.N) : iblk0 V c 10 t = V c main_arg23 := by
  funext y; unfold iblk0; rw [View.read_apply]
  show V c main_arg23 _ = V c main_arg23 y
  exact congrArg _ (funext fun a => Fin.ext (Window.rect_emb_val_of_index_zero win0_10 t a ((memIdxW t).2.2.2.2.2.2.2.2.2 a) y))

/-- What a point writes back, over any contents of the windows' blocks: when each row of the table's block at point `t`
    is row `5000 t + r` of an array and each weight block is a weight array, the mapped block, cut to the part the
    write-back moves, is block `t` of the mapped array. -/
private theorem memFlushed_of (t : Fin cfg0.N) (x0 : Vec Ideal S5000x128 .f32) (x1 : Vec Ideal S128x128 .bf16) (x2 : Vec Ideal S128 .f32)
    (x3 : Vec Ideal S128x128 .bf16) (x4 : Vec Ideal S128 .f32) (x5 : Vec Ideal S128x128 .bf16)
    (x6 x7 x8 x9 x10 : Vec Ideal S128 .f32)
    (A0 : Vec Ideal S50000x128 .f32) (A1 : Vec Ideal S128x128 .bf16) (A2 : Vec Ideal S128 .f32)
    (A3 : Vec Ideal S128x128 .bf16) (A4 : Vec Ideal S128 .f32) (A5 : Vec Ideal S128x128 .bf16)
    (A6 A7 A8 A9 A10 : Vec Ideal S128 .f32)
    (h0 : ∀ (r : Fin 5000) (R : Fin 50000), R.val = t.val * 5000 + r.val →
      rowOf (R := 5000) (C := 128) x0 r = rowOf (R := 50000) (C := 128) A0 R)
    (e1 : x1 = A1) (e2 : x2 = A2) (e3 : x3 = A3) (e4 : x4 = A4) (e5 : x5 = A5) (e6 : x6 = A6) (e7 : x7 = A7) (e8 : x8 = A8) (e9 : x9 = A9) (e10 : x10 = A10) :
    (cfg0.win 11).cut (grid0.coords t) (memHead (R := 5000) x0 x1 x2 x3 x4 x5 x6 x7 x8 x9 x10)
      = ((cfg0.win 11).blk t).view.read (Elt Ideal) (memHead (R := 50000) A0 A1 A2 A3 A4 A5 A6 A7 A8 A9 A10) := by
  subst e1 e2 e3 e4 e5 e6 e7 e8 e9 e10
  obtain ⟨-, -, i0, i1⟩ := memIdx t
  funext y
  rw [View.read_apply]
  show memHead (R := 5000) x0 x1 x2 x3 x4 x5 x6 x7 x8 x9 x10 ((cfg0.win 11).xinj (grid0.coords t) y)
    = memHead (R := 50000) A0 x1 x2 x3 x4 x5 x6 x7 x8 x9 x10 (((cfg0.win 11).blk t).view.emb y)
  refine memHead_row (R := 5000) (R' := 50000) x0 A0 x1 x2 x3 x4 x5 x6 x7 x8 x9 x10
    ((cfg0.win 11).xinj (grid0.coords t) y) (((cfg0.win 11).blk t).view.emb y) ?_ ?_
  · refine h0 _ _ ?_
    show win0_11.index t (0 : Fin 2) * 5000 + 1 * (y 0).val = t.val * 5000 + (y 0).val
    rw [i0]; omega
  · show (y 1).val = win0_11.index t (1 : Fin 2) * 128 + 1 * (y 1).val
    rw [i1]; omega

/-- What point `t` writes back is block `t` of the mapped memory table of the whole arrays. -/
private theorem memFlushed (c : Dev nD) (t : Fin cfg0.N) :
    (dat0 (F := Ideal) V c).flushed 11 t
      = ((cfg0.win 11).blk t).view.read (Elt Ideal)
          (memHead (R := 50000) (V c main_arg1) (V c main_v0) (V c main_arg15) (V c main_v1) (V c main_arg17) (V c main_v2)
          (V c main_arg19) (V c main_arg20) (V c main_arg21) (V c main_arg22) (V c main_arg23)) := by
  show (cfg0.win 11).cut (grid0.coords t) ((dat0 (F := Ideal) V c).after 11 t) = _
  rw [after0_11, out0_eq]
  exact memFlushed_of t (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t)
    (V c main_arg1) (V c main_v0) (V c main_arg15) (V c main_v1) (V c main_arg17) (V c main_v2)
          (V c main_arg19) (V c main_arg20) (V c main_arg21) (V c main_arg22) (V c main_arg23)
    (fun r R h => memBlockRow V c t r R h)
    (memW1 V c t) (memW2 V c t) (memW3 V c t) (memW4 V c t) (memW5 V c t) (memW6 V c t) (memW7 V c t) (memW8 V c t) (memW9 V c t) (memW10 V c t)

/-- An index of the output array is in point `t`'s block iff each coordinate is in the block's range on its axis. -/
private theorem memMemBlk (t : Fin cfg0.N) (i : S50000x128.Idx) :
    i ∈ ((cfg0.win 11).blk t).view.set
      ↔ ∀ a : Fin 2, win0_11.index t a * S5000x128.size a ≤ (i a).val
          ∧ (i a).val < win0_11.index t a * S5000x128.size a + S5000x128.size a := by
  show i ∈ ((View.whole main_v3).slice (win0_11.rect t)).set ↔ _
  rw [View.set_slice_whole, Rect.mem_set_unit]
  exact Iff.rfl

/-- The ten blocks cover the output array: row `r` is in the block of point `r / 5000`. -/
private theorem memCover (i : S50000x128.Idx) :
    ∃ t : Fin cfg0.N, (cfg0.win 11).flush t = true ∧ i ∈ ((cfg0.win 11).blk t).view.set := by
  have hi0 : (i 0).val < 50000 := idx2_lt0 i
  have hi1 : (i 1).val < 128 := idx2_lt1 i
  have hN : (i 0).val / 5000 < cfg0.N := by rw [show cfg0.N = 10 from N_0]; omega
  obtain ⟨-, -, e2, e3⟩ := memIdx ⟨(i 0).val / 5000, hN⟩
  have e2' : win0_11.index ⟨(i 0).val / 5000, hN⟩ (0 : Fin 2) = (i 0).val / 5000 := e2
  refine ⟨⟨(i 0).val / 5000, hN⟩, flush0_11 _, ?_⟩
  rw [memMemBlk]
  intro a
  match a with
  | ⟨0, _⟩ =>
    show win0_11.index ⟨(i 0).val / 5000, hN⟩ (0 : Fin 2) * 5000 ≤ (i 0).val
      ∧ (i 0).val < win0_11.index ⟨(i 0).val / 5000, hN⟩ (0 : Fin 2) * 5000 + 5000
    rw [e2']; omega
  | ⟨1, _⟩ =>
    show win0_11.index ⟨(i 0).val / 5000, hN⟩ (1 : Fin 2) * 128 ≤ (i 1).val
      ∧ (i 1).val < win0_11.index ⟨(i 0).val / 5000, hN⟩ (1 : Fin 2) * 128 + 128
    rw [e3]; omega

/-- The messages at an index depend only on that index's row of the three edge arrays. -/
private theorem edgeVal_row {R R' : Nat} (q m mh : Mat R 128) (q' m' mh' : Mat R' 128) (W1a W1b : Mat 128 128) (b1 : Row 128)
    (W2 : Mat 128 128) (b2 : Row 128) (W3 : Mat 128 1) (b3 : Row 1) (g1 be1 g2 be2 : Row 128)
    (i : (⟨2, ![R, 128]⟩ : Shape).Idx) (i' : (⟨2, ![R', 128]⟩ : Shape).Idx)
    (hq : rowOf q (i 0) = rowOf q' (i' 0)) (hm : rowOf m (i 0) = rowOf m' (i' 0))
    (hh : rowOf mh (i 0) = rowOf mh' (i' 0)) (hcol : (i 1).val = (i' 1).val) :
    edgeVal q m mh W1a W1b b1 W2 b2 W3 b3 g1 be1 g2 be2 i = edgeVal q' m' mh' W1a W1b b1 W2 b2 W3 b3 g1 be1 g2 be2 i' := by
  have h1 : (i 1 : Fin 128) = (i' 1 : Fin 128) := Fin.ext hcol
  have e : mh i = mh' i' :=
    (congrArg mh (eq_ix2 i)).trans ((congrFun hh (i 1)).trans
      ((congrArg (rowOf mh' (i' 0)) h1).trans (congrArg mh' (eq_ix2 i')).symm))
  show gate (rowOf q (i 0)) (rowOf m (i 0)) W1a W1b b1 W2 b2 W3 b3 g1 be1 g2 be2 * mh i
    = gate (rowOf q' (i' 0)) (rowOf m' (i' 0)) W1a W1b b1 W2 b2 W3 b3 g1 be1 g2 be2 * mh' i'
  rw [hq, hm, e]

/-! ## The second kernel: 250 blocks of 3200 edges -/

/-- The index maps at each of the 250 points: the three edge windows and the output's window sit at block `t` of the
    rows and block zero of the columns. -/
private theorem edgeIdx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_14.index t (0 : Fin 2) = t.val ∧ win1_14.index t (1 : Fin 2) = 0 :=
  (by decide +kernel : ∀ t : Fin grid1.N, _)

/-- Every weight window sits at block zero at every point: its block is its whole array. -/
private theorem edgeIdxW : ∀ t : Fin cfg1.N,
    (∀ a, win1_3.index t a = 0) ∧ (∀ a, win1_4.index t a = 0) ∧ (∀ a, win1_5.index t a = 0) ∧ (∀ a, win1_6.index t a = 0)
    ∧ (∀ a, win1_7.index t a = 0) ∧ (∀ a, win1_8.index t a = 0) ∧ (∀ a, win1_9.index t a = 0) ∧ (∀ a, win1_10.index t a = 0)
    ∧ (∀ a, win1_11.index t a = 0) ∧ (∀ a, win1_12.index t a = 0) ∧ (∀ a, win1_13.index t a = 0) :=
  (by decide +kernel : ∀ t : Fin grid1.N, _)

/-- Row `r` of an edge window's block at point `t` is row `3200 t + r` of its array. -/
private theorem edgeBlockRow0 (c : Dev nD) (t : Fin cfg1.N) (r : Fin 3200) (R : Fin 800000) (hR : R.val = t.val * 3200 + r.val) :
    rowOf (R := 3200) (C := 128) (iblk1 V c 0 t) r = rowOf (R := 800000) (C := 128) (V c main_v4) R := by
  have e0 : win1_0.index t (0 : Fin 2) = t.val := (edgeIdx t).1
  have e1 : win1_0.index t (1 : Fin 2) = 0 := (edgeIdx t).2.1
  funext k
  show iblk1 V c 0 t (ix2 r k) = V c main_v4 (ix2 R k)
  unfold iblk1
  rw [View.read_apply]
  show V c main_v4 _ = V c main_v4 _
  congr 1
  funext a
  apply Fin.ext
  match a with
  | ⟨0, _⟩ => show win1_0.index t (0 : Fin 2) * 3200 + 1 * r.val = R.val; rw [e0, hR]; omega
  | ⟨1, _⟩ => show win1_0.index t (1 : Fin 2) * 128 + 1 * k.val = k.val; rw [e1]; omega

private theorem edgeBlockRow1 (c : Dev nD) (t : Fin cfg1.N) (r : Fin 3200) (R : Fin 800000) (hR : R.val = t.val * 3200 + r.val) :
    rowOf (R := 3200) (C := 128) (iblk1 V c 1 t) r = rowOf (R := 800000) (C := 128) (V c main_v5) R := by
  have e0 : win1_1.index t (0 : Fin 2) = t.val := (edgeIdx t).2.2.1
  have e1 : win1_1.index t (1 : Fin 2) = 0 := (edgeIdx t).2.2.2.1
  funext k
  show iblk1 V c 1 t (ix2 r k) = V c main_v5 (ix2 R k)
  unfold iblk1
  rw [View.read_apply]
  show V c main_v5 _ = V c main_v5 _
  congr 1
  funext a
  apply Fin.ext
  match a with
  | ⟨0, _⟩ => show win1_1.index t (0 : Fin 2) * 3200 + 1 * r.val = R.val; rw [e0, hR]; omega
  | ⟨1, _⟩ => show win1_1.index t (1 : Fin 2) * 128 + 1 * k.val = k.val; rw [e1]; omega

private theorem edgeBlockRow2 (c : Dev nD) (t : Fin cfg1.N) (r : Fin 3200) (R : Fin 800000) (hR : R.val = t.val * 3200 + r.val) :
    rowOf (R := 3200) (C := 128) (iblk1 V c 2 t) r = rowOf (R := 800000) (C := 128) (V c main_v6) R := by
  have e0 : win1_2.index t (0 : Fin 2) = t.val := (edgeIdx t).2.2.2.2.1
  have e1 : win1_2.index t (1 : Fin 2) = 0 := (edgeIdx t).2.2.2.2.2.1
  funext k
  show iblk1 V c 2 t (ix2 r k) = V c main_v6 (ix2 R k)
  unfold iblk1
  rw [View.read_apply]
  show V c main_v6 _ = V c main_v6 _
  congr 1
  funext a
  apply Fin.ext
  match a with
  | ⟨0, _⟩ => show win1_2.index t (0 : Fin 2) * 3200 + 1 * r.val = R.val; rw [e0, hR]; omega
  | ⟨1, _⟩ => show win1_2.index t (1 : Fin 2) * 128 + 1 * k.val = k.val; rw [e1]; omega

/-- Each weight window's block is its whole array: an element of the block sits in the array at its own coordinates. -/
private theorem edgeW3 (c : Dev nD) (t : Fin cfg1.N) : iblk1 V c 3 t = V c main_v8 := by
  funext y; unfold iblk1; rw [View.read_apply]
  show V c main_v8 _ = V c main_v8 y
  exact congrArg _ (funext fun a => Fin.ext (Window.rect_emb_val_of_index_zero win1_3 t a ((edgeIdxW t).1 a) y))

private theorem edgeW4 (c : Dev nD) (t : Fin cfg1.N) : iblk1 V c 4 t = V c main_v10 := by
  funext y; unfold iblk1; rw [View.read_apply]
  show V c main_v10 _ = V c main_v10 y
  exact congrArg _ (funext fun a => Fin.ext (Window.rect_emb_val_of_index_zero win1_4 t a ((edgeIdxW t).2.1 a) y))

private theorem edgeW5 (c : Dev nD) (t : Fin cfg1.N) : iblk1 V c 5 t = V c main_arg5 := by
  funext y; unfold iblk1; rw [View.read_apply]
  show V c main_arg5 _ = V c main_arg5 y
  exact congrArg _ (funext fun a => Fin.ext (Window.rect_emb_val_of_index_zero win1_5 t a ((edgeIdxW t).2.2.1 a) y))

private theorem edgeW6 (c : Dev nD) (t : Fin cfg1.N) : iblk1 V c 6 t = V c main_v11 := by
  funext y; unfold iblk1; rw [View.read_apply]
  show V c main_v11 _ = V c main_v11 y
  exact congrArg _ (funext fun a => Fin.ext (Window.rect_emb_val_of_index_zero win1_6 t a ((edgeIdxW t).2.2.2.1 a) y))

private theorem edgeW7 (c : Dev nD) (t : Fin cfg1.N) : iblk1 V c 7 t = V c main_arg7 := by
  funext y; unfold iblk1; rw [View.read_apply]
  show V c main_arg7 _ = V c main_arg7 y
  exact congrArg _ (funext fun a => Fin.ext (Window.rect_emb_val_of_index_zero win1_7 t a ((edgeIdxW t).2.2.2.2.1 a) y))

private theorem edgeW8 (c : Dev nD) (t : Fin cfg1.N) : iblk1 V c 8 t = V c main_v12 := by
  funext y; unfold iblk1; rw [View.read_apply]
  show V c main_v12 _ = V c main_v12 y
  exact congrArg _ (funext fun a => Fin.ext (Window.rect_emb_val_of_index_zero win1_8 t a ((edgeIdxW t).2.2.2.2.2.1 a) y))

private theorem edgeW9 (c : Dev nD) (t : Fin cfg1.N) : iblk1 V c 9 t = V c main_arg9 := by
  funext y; unfold iblk1; rw [View.read_apply]
  show V c main_arg9 _ = V c main_arg9 y
  exact congrArg _ (funext fun a => Fin.ext (Window.rect_emb_val_of_index_zero win1_9 t a ((edgeIdxW t).2.2.2.2.2.2.1 a) y))

private theorem edgeW10 (c : Dev nD) (t : Fin cfg1.N) : iblk1 V c 10 t = V c main_arg10 := by
  funext y; unfold iblk1; rw [View.read_apply]
  show V c main_arg10 _ = V c main_arg10 y
  exact congrArg _ (funext fun a => Fin.ext (Window.rect_emb_val_of_index_zero win1_10 t a ((edgeIdxW t).2.2.2.2.2.2.2.1 a) y))

private theorem edgeW11 (c : Dev nD) (t : Fin cfg1.N) : iblk1 V c 11 t = V c main_arg11 := by
  funext y; unfold iblk1; rw [View.read_apply]
  show V c main_arg11 _ = V c main_arg11 y
  exact congrArg _ (funext fun a => Fin.ext (Window.rect_emb_val_of_index_zero win1_11 t a ((edgeIdxW t).2.2.2.2.2.2.2.2.1 a) y))

private theorem edgeW12 (c : Dev nD) (t : Fin cfg1.N) : iblk1 V c 12 t = V c main_arg12 := by
  funext y; unfold iblk1; rw [View.read_apply]
  show V c main_arg12 _ = V c main_arg12 y
  exact congrArg _ (funext fun a => Fin.ext (Window.rect_emb_val_of_index_zero win1_12 t a ((edgeIdxW t).2.2.2.2.2.2.2.2.2.1 a) y))

private theorem edgeW13 (c : Dev nD) (t : Fin cfg1.N) : iblk1 V c 13 t = V c main_arg13 := by
  funext y; unfold iblk1; rw [View.read_apply]
  show V c main_arg13 _ = V c main_arg13 y
  exact congrArg _ (funext fun a => Fin.ext (Window.rect_emb_val_of_index_zero win1_13 t a ((edgeIdxW t).2.2.2.2.2.2.2.2.2.2 a) y))

/-- What a point writes back, over any contents of the windows' blocks: when each row of the three edge blocks at point
    `t` is row `3200 t + r` of an array and each weight block is a weight array, the block of messages, cut to the part
    the write-back moves, is block `t` of the arrays' messages. -/
private theorem edgeFlushed_of (t : Fin cfg1.N) (x0 x1 x2 : Vec Ideal S3200x128 .f32) (x3 x4 : Vec Ideal S128x128 .bf16) (x5 : Vec Ideal S128 .f32)
    (x6 : Vec Ideal S128x128 .bf16) (x7 : Vec Ideal S128 .f32) (x8 : Vec Ideal S128x1 .bf16) (x9 : Vec Ideal S1 .f32)
    (x10 x11 x12 x13 : Vec Ideal S128 .f32)
    (A0 A1 A2 : Vec Ideal S800000x128 .f32) (A3 A4 : Vec Ideal S128x128 .bf16) (A5 : Vec Ideal S128 .f32)
    (A6 : Vec Ideal S128x128 .bf16) (A7 : Vec Ideal S128 .f32) (A8 : Vec Ideal S128x1 .bf16) (A9 : Vec Ideal S1 .f32)
    (A10 A11 A12 A13 : Vec Ideal S128 .f32)
    (h0 : ∀ (r : Fin 3200) (R : Fin 800000), R.val = t.val * 3200 + r.val →
      rowOf (R := 3200) (C := 128) x0 r = rowOf (R := 800000) (C := 128) A0 R)
    (h1 : ∀ (r : Fin 3200) (R : Fin 800000), R.val = t.val * 3200 + r.val →
      rowOf (R := 3200) (C := 128) x1 r = rowOf (R := 800000) (C := 128) A1 R)
    (h2 : ∀ (r : Fin 3200) (R : Fin 800000), R.val = t.val * 3200 + r.val →
      rowOf (R := 3200) (C := 128) x2 r = rowOf (R := 800000) (C := 128) A2 R)
    (e3 : x3 = A3) (e4 : x4 = A4) (e5 : x5 = A5) (e6 : x6 = A6) (e7 : x7 = A7) (e8 : x8 = A8) (e9 : x9 = A9) (e10 : x10 = A10) (e11 : x11 = A11) (e12 : x12 = A12) (e13 : x13 = A13) :
    (cfg1.win 14).cut (grid1.coords t) (edgeVal (R := 3200) x0 x1 x2 x3 x4 x5 x6 x7 x8 x9 x10 x11 x12 x13)
      = ((cfg1.win 14).blk t).view.read (Elt Ideal) (edgeVal (R := 800000) A0 A1 A2 A3 A4 A5 A6 A7 A8 A9 A10 A11 A12 A13) := by
  subst e3 e4 e5 e6 e7 e8 e9 e10 e11 e12 e13
  have i0 : win1_14.index t (0 : Fin 2) = t.val := (edgeIdx t).2.2.2.2.2.2.1
  have i1 : win1_14.index t (1 : Fin 2) = 0 := (edgeIdx t).2.2.2.2.2.2.2
  funext y
  rw [View.read_apply]
  show edgeVal (R := 3200) x0 x1 x2 x3 x4 x5 x6 x7 x8 x9 x10 x11 x12 x13 ((cfg1.win 14).xinj (grid1.coords t) y)
    = edgeVal (R := 800000) A0 A1 A2 x3 x4 x5 x6 x7 x8 x9 x10 x11 x12 x13 (((cfg1.win 14).blk t).view.emb y)
  have hR : (((cfg1.win 14).blk t).view.emb y 0).val
      = t.val * 3200 + ((cfg1.win 14).xinj (grid1.coords t) y 0).val := by
    show win1_14.index t (0 : Fin 2) * 3200 + 1 * (y 0).val = t.val * 3200 + (y 0).val
    rw [i0]; omega
  refine edgeVal_row (R := 3200) (R' := 800000) x0 x1 x2 A0 A1 A2 x3 x4 x5 x6 x7 x8 x9 x10 x11 x12 x13
    ((cfg1.win 14).xinj (grid1.coords t) y) (((cfg1.win 14).blk t).view.emb y)
    (h0 _ _ hR) (h1 _ _ hR) (h2 _ _ hR) ?_
  show (y 1).val = win1_14.index t (1 : Fin 2) * 128 + 1 * (y 1).val
  rw [i1]; omega

/-- What point `t` writes back is block `t` of the messages of the whole arrays. -/
private theorem edgeFlushed (c : Dev nD) (t : Fin cfg1.N) :
    (dat1 (F := Ideal) V c).flushed 14 t
      = ((cfg1.win 14).blk t).view.read (Elt Ideal)
          (edgeVal (R := 800000) (V c main_v4) (V c main_v5) (V c main_v6) (V c main_v8) (V c main_v10) (V c main_arg5)
      (V c main_v11) (V c main_arg7) (V c main_v12) (V c main_arg9) (V c main_arg10) (V c main_arg11) (V c main_arg12)
      (V c main_arg13)) := by
  show (cfg1.win 14).cut (grid1.coords t) ((dat1 (F := Ideal) V c).after 14 t) = _
  rw [after1_14, out1_eq]
  exact edgeFlushed_of t (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) (iblk1 V c 12 t)
    (iblk1 V c 13 t)
    (V c main_v4) (V c main_v5) (V c main_v6) (V c main_v8) (V c main_v10) (V c main_arg5)
      (V c main_v11) (V c main_arg7) (V c main_v12) (V c main_arg9) (V c main_arg10) (V c main_arg11) (V c main_arg12)
      (V c main_arg13)
    (fun r R h => edgeBlockRow0 V c t r R h) (fun r R h => edgeBlockRow1 V c t r R h)
    (fun r R h => edgeBlockRow2 V c t r R h)
    (edgeW3 V c t) (edgeW4 V c t) (edgeW5 V c t) (edgeW6 V c t) (edgeW7 V c t) (edgeW8 V c t) (edgeW9 V c t) (edgeW10 V c t) (edgeW11 V c t) (edgeW12 V c t) (edgeW13 V c t)

/-- An index of the output array is in point `t`'s block iff each coordinate is in the block's range on its axis. -/
private theorem edgeMemBlk (t : Fin cfg1.N) (i : S800000x128.Idx) :
    i ∈ ((cfg1.win 14).blk t).view.set
      ↔ ∀ a : Fin 2, win1_14.index t a * S3200x128.size a ≤ (i a).val
          ∧ (i a).val < win1_14.index t a * S3200x128.size a + S3200x128.size a := by
  show i ∈ ((View.whole main_v13).slice (win1_14.rect t)).set ↔ _
  rw [View.set_slice_whole, Rect.mem_set_unit]
  exact Iff.rfl

/-- The 250 blocks cover the output array: edge `r` is in the block of point `r / 3200`. -/
private theorem edgeCover (i : S800000x128.Idx) :
    ∃ t : Fin cfg1.N, (cfg1.win 14).flush t = true ∧ i ∈ ((cfg1.win 14).blk t).view.set := by
  have hi0 : (i 0).val < 800000 := idx2_lt0 i
  have hi1 : (i 1).val < 128 := idx2_lt1 i
  have hN : (i 0).val / 3200 < cfg1.N := by rw [show cfg1.N = 250 from N_1]; omega
  have e2 : win1_14.index ⟨(i 0).val / 3200, hN⟩ (0 : Fin 2) = (i 0).val / 3200 := (edgeIdx ⟨(i 0).val / 3200, hN⟩).2.2.2.2.2.2.1
  have e3 : win1_14.index ⟨(i 0).val / 3200, hN⟩ (1 : Fin 2) = 0 := (edgeIdx ⟨(i 0).val / 3200, hN⟩).2.2.2.2.2.2.2
  refine ⟨⟨(i 0).val / 3200, hN⟩, flush1_14 _, ?_⟩
  rw [edgeMemBlk]
  intro a
  match a with
  | ⟨0, _⟩ =>
    show win1_14.index ⟨(i 0).val / 3200, hN⟩ (0 : Fin 2) * 3200 ≤ (i 0).val
      ∧ (i 0).val < win1_14.index ⟨(i 0).val / 3200, hN⟩ (0 : Fin 2) * 3200 + 3200
    rw [e2]; omega
  | ⟨1, _⟩ =>
    show win1_14.index ⟨(i 0).val / 3200, hN⟩ (1 : Fin 2) * 128 ≤ (i 1).val
      ∧ (i 1).val < win1_14.index ⟨(i 0).val / 3200, hN⟩ (1 : Fin 2) * 128 + 128
    rw [e3]; omega

/-! ## The arrays the two kernels leave -/

/-- The array the first kernel leaves: the mapped memory table of the arrays it found. -/
theorem memArr (c : Dev nD) :
    (dat0 (F := Ideal) V c).arrAt 11 cfg0.N
      = memHead (R := 50000) (V c main_arg1) (V c main_v0) (V c main_arg15) (V c main_v1) (V c main_arg17) (V c main_v2)
          (V c main_arg19) (V c main_arg20) (V c main_arg21) (V c main_arg22) (V c main_arg23) := by
  exact (dat0 (F := Ideal) V c).arrAt_eq_of_cover 11 _ (fun t _ => memFlushed V c t) memCover

/-- The array the second kernel leaves: the messages of the arrays it found. -/
theorem edgeArr (c : Dev nD) :
    (dat1 (F := Ideal) V c).arrAt 14 cfg1.N
      = edgeVal (R := 800000) (V c main_v4) (V c main_v5) (V c main_v6) (V c main_v8) (V c main_v10) (V c main_arg5)
          (V c main_v11) (V c main_arg7) (V c main_v12) (V c main_arg9) (V c main_arg10) (V c main_arg11) (V c main_arg12)
          (V c main_arg13) := by
  exact (dat1 (F := Ideal) V c).arrAt_eq_of_cover 14 _ (fun t _ => edgeFlushed V c t) edgeCover

end Cert.KernelIdeal.Val

end
-- ==== Proof.Index.lean ====
/-
  The integer side: which rows a table read keeps, and which updates a scatter-add lands.

  Both programs move a negative index up by the table length (50000) before they gather. The kernel then keeps a
  gathered row only where the moved index lies in `[0, 49999]` and writes a fill word elsewhere; the reference gathers
  at the same moved index with no fill. For an index word that, read signed, lies in `[0, 50000)`, the moved index is
  the word itself and the row is kept, so the two reads agree on that row.
  A scatter-add lands update row `e` only if the raw index word of row `e`, read signed, lies in `[0, 50000)`: two
  update arrays that agree on those rows scatter to the same sums.
-/
import proofs.«429219_j43319040147615_1_alg».proof.Defs
import proofs.«429219_j43319040147615_1_alg».proof.Proof.Gen.KernelIdeal
import proofs.«429219_j43319040147615_1_alg».proof.Proof.Gen.Pre_finite_inputs
import proofs.«429219_j43319040147615_1_alg».proof.Proof.Spec
import Idealize.ShloMosaic.Lib.ValueIdx
import Idealize.ShloMosaic.Lib.ReduceAll
import Idealize.ShloMosaic.Lib.StableHlo.Predicate

noncomputable section

open Idealize.ShloMosaic Idealize.ShloMosaic.ValueIdx Idealize.SL.Sem
open scoped BigOperators

namespace Cert.KernelIdeal.Val

open Cert.KernelIdeal Cert.Spec
open Cert.KernelIdeal.Facts₀ Cert.KernelIdeal.Facts

/-- An index word that, read as a signed integer, is a row of the 50000-row tables. -/
def InTable (w : BitVec 32) : Prop := 0 ≤ w.toInt ∧ w.toInt < 50000

/-- The start indices both programs gather at: a negative word moved up by the table length, as a column. -/
def wrapIdx (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The rows the kernel's table read keeps: the moved index in `[0, 49999]`. -/
def keepRows (idx : IVec S800000 32) : IVec S800000 1 :=
  Host.reduce IntOp.andi
    (andi (cmpi .sge (wrapIdx idx) (broadcastInDim S800000x1 ![] bcast_S_S800000x1 (constantI S_ 32 0#32)))
      (cmpi .sle (wrapIdx idx)
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The plain table read: the gather at the moved indices. -/
def takeRows (x : FVec Ideal S50000x128 .f32) (idx : IVec S800000 32) : FVec Ideal S800000x128 .f32 :=
  Host.gather gather_S50000x128_S800000x1_S800000x128_1_0_n_n_0_1_1128 x (wrapIdx idx)

/-- The kernel's table read: the gathered row where kept, the fill word elsewhere. -/
def takeFill (x : FVec Ideal S50000x128 .f32) (idx : IVec S800000 32) : FVec Ideal S800000x128 .f32 :=
  select (broadcastInDim S800000x128 ![0] bcast_S800000_S800000x128_0 (keepRows idx)) (takeRows x idx)
    (broadcastInDim S800000x128 ![] bcast_S_S800000x128 (constant (F := Ideal) S_ .f32 0x7FC00000#32))

/-! ### Words: an index word that is a row of the table, read signed -/

private theorem toInt_w0 : (0#32 : BitVec 32).toInt = 0 := by decide
private theorem toInt_w49999 : (49999#32 : BitVec 32).toInt = 49999 := by decide
private theorem toInt_w50000 : (50000#32 : BitVec 32).toInt = 50000 := by decide

/-- The two signed range tests, both passed, say the word is a row of the table. -/
private theorem inTable_of_cmpi {w : BitVec 32} (h0 : IntOp.cmpi .sge w 0#32 = 1#1)
    (h1 : IntOp.cmpi .slt w 50000#32 = 1#1) : InTable w := by
  rw [IntOp.cmpi_sge, toInt_w0] at h0
  rw [IntOp.cmpi_slt, toInt_w50000] at h1
  exact ⟨h0, h1⟩

/-- A row of the table is not negative: the sign test is clear … -/
private theorem slt_zero_of_inTable {w : BitVec 32} (h : InTable w) : IntOp.cmpi .slt w 0#32 = 0#1 := by
  obtain ⟨h0, _⟩ := h
  apply eq_zero_of_ne_one
  rw [IntOp.cmpi_slt, toInt_w0]
  omega

/-- … it is at least zero … -/
private theorem sge_zero_of_inTable {w : BitVec 32} (h : InTable w) : IntOp.cmpi .sge w 0#32 = 1#1 := by
  obtain ⟨h0, _⟩ := h
  rw [IntOp.cmpi_sge, toInt_w0]
  exact h0

/-- … and at most the last row. -/
private theorem sle_last_of_inTable {w : BitVec 32} (h : InTable w) : IntOp.cmpi .sle w 49999#32 = 1#1 := by
  obtain ⟨_, h1⟩ := h
  rw [IntOp.cmpi_sle, toInt_w49999]
  omega

/-! ### Reads: a vector laid along the rows of a rectangle, and a conjunction over a list -/

/-- A vector broadcast along the first axis of an [n × m] rectangle reads, at (p, q), the vector at p. -/
private theorem bcast_rows_read {α : Type} {n m : Nat} (hb : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] hb v (ix2 p q) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-- A left fold of "and" from 1 over bits that are all 1 is 1. -/
private theorem foldl_andi_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, h => by
    rw [List.foldl_cons]
    refine foldl_andi_one f l _ ?_ (fun n hn => h n (List.mem_cons_of_mem _ hn))
    rw [hi, h a List.mem_cons_self]
    rfl

/-- The moved index word of row `e`: the word plus the table length where it is negative, the word itself elsewhere. -/
private theorem wrapIdx_apply (idx : IVec S800000 32) (e : Fin 800000) :
    wrapIdx idx (ix2 e 0)
      = Scalar.select (IntOp.cmpi .slt (idx (ix1 e)) 0#32) (IntOp.addi (idx (ix1 e)) 50000#32) (idx (ix1 e)) := by
  unfold wrapIdx
  rw [bcast_rows_read]
  rfl

/-- For a row of the table the moved index is the word itself. -/
private theorem wrapIdx_of_inTable (idx : IVec S800000 32) (e : Fin 800000) (h : InTable (idx (ix1 e))) :
    wrapIdx idx (ix2 e 0) = idx (ix1 e) := by
  rw [wrapIdx_apply, slt_zero_of_inTable h, select_zero]

/-- For a row of the table the kernel keeps the gathered row: both range tests hold at the one column. -/
private theorem keepRows_of_inTable (idx : IVec S800000 32) (e : Fin 800000) (h : InTable (idx (ix1 e))) :
    keepRows idx (ix1 e) = 1#1 := by
  unfold keepRows
  rw [Host.reduce_eq_foldl]
  refine foldl_andi_one _ _ _ rfl (fun i hi => ?_)
  have hd : reducesTo_S800000x1_S800000_d1.drop i = ix1 e := by simpa using (List.mem_filter.1 hi).2
  have hv : (reducesTo_S800000x1_S800000_d1.drop i 0 : Nat) = i 0 :=
    Shape.ReducesTo.drop_apply_val reducesTo_S800000x1_S800000_d1 i 0
  rw [hd] at hv
  have hi' : i = ix2 e 0 := by
    funext a
    match a with
    | ⟨0, _⟩ => exact Fin.ext hv.symm
    | ⟨1, _⟩ =>
      exact Fin.ext (Nat.lt_one_iff.mp (idx2_lt1 i))
  rw [hi']
  show IntOp.andi (IntOp.cmpi .sge (wrapIdx idx (ix2 e 0)) 0#32) (IntOp.cmpi .sle (wrapIdx idx (ix2 e 0)) 49999#32) = 1#1
  rw [wrapIdx_of_inTable idx e h, sge_zero_of_inTable h, sle_last_of_inTable h]
  rfl

/-- On a row whose index word is a row of the table, the kernel's read is the plain gather. -/
theorem takeFill_apply_of_inTable (x : FVec Ideal S50000x128 .f32) (idx : IVec S800000 32) (e : Fin 800000) (k : Fin 128)
    (h : InTable (idx (ix1 e))) : takeFill x idx (ix2 e k) = takeRows x idx (ix2 e k) := by
  unfold takeFill
  rw [select_apply, bcast_rows_read, keepRows_of_inTable idx e h, select_one]

/-- The index column of the scatter at row `e` is the index word of row `e`. -/
theorem col_apply (idx : IVec S800000 32) (e : Fin 800000) :
    broadcastInDim S800000x1 ![0] bcast_S800000_S800000x1_0 idx (ix2 e 0) = idx (ix1 e) :=
  bcast_rows_read _ idx e 0

/-! ### The scatter's landing row: axis 0 of the table is the indexed axis and carries no window -/

/-- The index column entry update row `j` reads: row `j 0`, the one column. -/
private theorem scatter_siIdx (j : S800000x128.Idx)
    (c : Fin scatter_S50000x128_S800000x1_S800000x128_1_0_0_1.scatterDimsToOperandDims.length) :
    scatter_S50000x128_S800000x1_S800000x128_1_0_0_1.siIdx j c = ix2 ⟨(j 0).val, idx2_lt0 j⟩ 0 := by
  funext b
  refine Fin.ext ?_
  match b with
  | ⟨0, _⟩ => rfl
  | ⟨1, _⟩ =>
    have hc : c.val < 1 := c.isLt
    show c.val = 0
    omega

/-- On axis 0 the window starts at the row's index word, read signed … -/
private theorem scatter_start_zero (j : S800000x128.Idx) (idx : IVec S800000x1 32) :
    scatter_S50000x128_S800000x1_S800000x128_1_0_0_1.start j idx (0 : Fin 2)
      = (idx (ix2 ⟨(j 0).val, idx2_lt0 j⟩ 0)).toInt := by
  unfold ScatterDims.start
  rw [dif_pos (show (0 : Fin 2) ∈ scatter_S50000x128_S800000x1_S800000x128_1_0_0_1.scatterDimsToOperandDims from
    List.mem_singleton.mpr rfl), scatter_siIdx]

/-- … and has no extent there. -/
private theorem scatter_window_zero (j : S800000x128.Idx) :
    scatter_S50000x128_S800000x1_S800000x128_1_0_0_1.window j (0 : Fin 2) = 0 := by
  unfold ScatterDims.window
  exact dif_neg (by decide)

/-- An update the scatter-add lands somewhere has its row's index word in the table. -/
theorem lands_inTable (idx : IVec S800000x1 32) (j : S800000x128.Idx) (i : S50000x128.Idx)
    (h : scatter_S50000x128_S800000x1_S800000x128_1_0_0_1.resultIdx? j idx = some i) :
    InTable (idx (ix2 ⟨(j 0).val, idx2_lt0 j⟩ 0)) := by
  unfold ScatterDims.resultIdx? at h
  split at h
  · next hall =>
    have h0 := hall (0 : Fin 2)
    rw [scatter_start_zero, scatter_window_zero] at h0
    exact ⟨by omega, by have hs : S50000x128.size (0 : Fin 2) = 50000 := rfl; omega⟩
  · exact absurd h (by simp)

/-- Two update arrays that agree on every row whose index word is in the table scatter to the same sums. -/
theorem scatterAdd_congr (x : FVec Ideal S50000x128 .f32) (idx : IVec S800000x1 32) (u u' : FVec Ideal S800000x128 .f32)
    (h : ∀ (e : Fin 800000) (k : Fin 128), InTable (idx (ix2 e 0)) → u (ix2 e k) = u' (ix2 e k)) :
    Host.scatterAdd scatter_S50000x128_S800000x1_S800000x128_1_0_0_1 x idx u
      = Host.scatterAdd scatter_S50000x128_S800000x1_S800000x128_1_0_0_1 x idx u' := by
  funext i
  show Ideal.hostScatterAdd scatter_S50000x128_S800000x1_S800000x128_1_0_0_1 x idx u i
    = Ideal.hostScatterAdd scatter_S50000x128_S800000x1_S800000x128_1_0_0_1 x idx u' i
  unfold Ideal.hostScatterAdd
  refine congrArg (x i + ·) (Finset.sum_congr rfl (fun j hj => ?_))
  have hl := lands_inTable idx j i (Finset.mem_filter.1 hj).2
  exact (congrArg u (eq_ix2 j)).trans ((h (j 0) (j 1) hl).trans (congrArg u' (eq_ix2 j)).symm)

/-- The precondition decoded at edge `e`: the source-node index word is a row of the table. -/
theorem col_inTable (m : (ℓ : Loc nD τ sig) → Buf (Elt Ideal) ℓ) (h : Cert.Pre_KernelIdeal m) (c : Dev nD) (e : Fin 800000) :
    InTable ((m ((c.tc : Thread nD τ).loc main_arg3) : IVec S800000 32) (ix1 e)) := by
  have e0 := congrFun (h c) ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5
    Cert.Pre_finite_inputs.fn_part6 at e0
  dsimp only at e0
  have e1 := (IntOp.andi_eq_one.1 e0).2
  haveI : Subsingleton Cert.Pre_finite_inputs.S_.Idx := ⟨fun a b => funext fun d => d.elim0⟩
  have e2 := Host.reduce_andi_all _ _ _ _ _ e1 (ix1 e)
  obtain ⟨e3, e4⟩ := IntOp.andi_eq_one.1 e2
  exact inTable_of_cmpi e3 e4

/-- The query half and the memory half of the first-layer matrix, as the kernel slices and narrows them. -/
theorem slice_lo (W : FVec Ideal S256x128 .f32) :
    (truncf .bf16 (extractStridedSlice S128x128 ![0, 0] W slices_S256x128_S128x128_0_0) bitsLt_bf16_f32 : FVec Ideal S128x128 .bf16)
      = loHalf W := by
  funext i
  unfold loHalf
  rw [truncf_apply]
  unfold extractStridedSlice
  refine congrArg W (funext fun a => Fin.ext ?_)
  match a with
  | ⟨0, _⟩ => exact Nat.zero_add _
  | ⟨1, _⟩ => exact Nat.zero_add _
theorem slice_hi (W : FVec Ideal S256x128 .f32) :
    (truncf .bf16 (extractStridedSlice S128x128 ![128, 0] W slices_S256x128_S128x128_128_0) bitsLt_bf16_f32 : FVec Ideal S128x128 .bf16)
      = hiHalf W := by
  funext i
  unfold hiHalf
  rw [truncf_apply]
  unfold extractStridedSlice
  refine congrArg W (funext fun a => Fin.ext ?_)
  match a with
  | ⟨0, _⟩ => rfl
  | ⟨1, _⟩ => exact Nat.zero_add _

end Cert.KernelIdeal.Val

end
-- ==== Proof.Entry.lean ====
/-
  What the host operations around the two kernels leave in the buffers, as functions of the launch memory.

  Before the first kernel the host narrows the three memory-perceptron matrices; every other array the first kernel
  reads is an argument as launched. Between the kernels the host gathers the query rows at the target indices, the
  memory rows and the mapped-memory rows at the source indices (each gather with the kernel's keep-or-fill), cuts the
  256 × 128 matrix into its two halves and narrows the edge-perceptron matrices. After the second kernel the host
  scatter-adds the messages into a zero table at the raw target indices. No host operation and no kernel writes an
  argument, and a kernel writes only its own output array.
-/
import proofs.«429219_j43319040147615_1_alg».proof.Proof.Gen.KernelIdeal.Frame
import proofs.«429219_j43319040147615_1_alg».proof.Proof.Index
import Idealize.ShloMosaic.Lib.StableHlo.Run

noncomputable section

open Idealize.ShloMosaic Idealize.ShloMosaic.ValueIdx Idealize.SL.Sem Idealize.ShloMosaic.StableHlo
open scoped BigOperators

namespace Cert.KernelIdeal.Val

open Cert.KernelIdeal Cert.Spec
open Cert.KernelIdeal.Gen hiding bitsLt_bf16_f32 slices_S256x128_S128x128_0_0 slices_S256x128_S128x128_128_0 bcast_S_S50000x128 bcast_S800000_S800000x1_0
open Cert.KernelIdeal.Facts₀ Cert.KernelIdeal.Facts

variable (m : (ℓ : Loc nD τ sig) → Buf (Elt Ideal) ℓ) (ρ : Dev nD → PrngReg) (c : Dev nD)

/-- An argument array as launched, on core `c`. -/
abbrev arg (b : Ref sig .tc) : Buf (Elt Ideal) ((c.tc : Thread nD τ).loc b) := m ((c.tc : Thread nD τ).loc b)

/-! ## A buffer that a host stretch does not write

  Each host operation writes one buffer, its result's. A buffer that is the result of no operation of a stretch holds
  after the stretch what it held before it: the stretch's contents at that buffer are the contents one stretch back. -/

/-- One stretch back, at a buffer the stretch does not write: the goal `(contents after the stretch) b = x` becomes
    `(contents before the stretch) b = x`. -/
local macro "step_back" : tactic => `(tactic| (
  refine Eq.trans (StableHlo.after_of_forall_not_mem _ _ (List.forall_iff_forall_mem.mp ?_)) ?_
  · simp only [hostOps0, hostOps1, hostOps1_1, hostOps1_2, hostOps1_3, hostOps2, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-- Contents moved to a buffer's own type and back are the contents. -/
theorem ofBuf_toBuf {T : BufTy} (x : StableHlo.TRef sig T) (v : T.Contents (Elt Ideal)) : x.ofBuf (x.toBuf v) = v := by
  obtain ⟨r, h, _, _⟩ := x
  subst h
  rfl

/-! ## What the first kernel finds -/

/-- The first host stretch writes only the three narrowed matrices: any other buffer is as launched. -/
theorem W1_keep (b : Ref sig .tc) (h0 : b ≠ main_v0) (h1 : b ≠ main_v1) (h2 : b ≠ main_v2) :
    W1 (F := Ideal) m ρ c (Proc.devRef .tc b) = m ((c.tc : Thread nD τ).loc b) := by
  show StableHlo.after hostOps0 (W0 m ρ c) (Proc.devRef .tc b) = _
  simp only [StableHlo.after_cons, StableHlo.after_nil]
  rw [StableHlo.unary_result_ne _ _ _ _ _ _ h2, StableHlo.unary_result_ne _ _ _ _ _ _ h1, StableHlo.unary_result_ne _ _ _ _ _ _ h0]

theorem V1_mem : V1 (F := Ideal) m ρ c main_arg1 = arg m c main_arg1 := W1_keep m ρ c main_arg1 (by decide) (by decide) (by decide)
theorem V1_W1 : V1 (F := Ideal) m ρ c main_v0 = (truncf .bf16 (arg m c main_arg14 : FVec Ideal S128x128 .f32) bitsLt_bf16_f32 : FVec Ideal S128x128 .bf16) := by
  show StableHlo.after hostOps0 (W0 m ρ c) (Proc.devRef .tc main_v0) = _
  after_results
theorem V1_b1 : V1 (F := Ideal) m ρ c main_arg15 = arg m c main_arg15 := W1_keep m ρ c main_arg15 (by decide) (by decide) (by decide)
theorem V1_W2 : V1 (F := Ideal) m ρ c main_v1 = (truncf .bf16 (arg m c main_arg16 : FVec Ideal S128x128 .f32) bitsLt_bf16_f32 : FVec Ideal S128x128 .bf16) := by
  show StableHlo.after hostOps0 (W0 m ρ c) (Proc.devRef .tc main_v1) = _
  after_results
theorem V1_b2 : V1 (F := Ideal) m ρ c main_arg17 = arg m c main_arg17 := W1_keep m ρ c main_arg17 (by decide) (by decide) (by decide)
theorem V1_W3 : V1 (F := Ideal) m ρ c main_v2 = (truncf .bf16 (arg m c main_arg18 : FVec Ideal S128x128 .f32) bitsLt_bf16_f32 : FVec Ideal S128x128 .bf16) := by
  show StableHlo.after hostOps0 (W0 m ρ c) (Proc.devRef .tc main_v2) = _
  after_results
theorem V1_b3 : V1 (F := Ideal) m ρ c main_arg19 = arg m c main_arg19 := W1_keep m ρ c main_arg19 (by decide) (by decide) (by decide)
theorem V1_g1 : V1 (F := Ideal) m ρ c main_arg20 = arg m c main_arg20 := W1_keep m ρ c main_arg20 (by decide) (by decide) (by decide)
theorem V1_be1 : V1 (F := Ideal) m ρ c main_arg21 = arg m c main_arg21 := W1_keep m ρ c main_arg21 (by decide) (by decide) (by decide)
theorem V1_g2 : V1 (F := Ideal) m ρ c main_arg22 = arg m c main_arg22 := W1_keep m ρ c main_arg22 (by decide) (by decide) (by decide)
theorem V1_be2 : V1 (F := Ideal) m ρ c main_arg23 = arg m c main_arg23 := W1_keep m ρ c main_arg23 (by decide) (by decide) (by decide)

/-! ## At the first kernel's exit

  The first kernel writes only its output array. An array it reads holds at its exit what it held at its entry, and a
  buffer that is none of its arrays is untouched. -/

/-- A buffer that is no array of the first kernel and no narrowed matrix is as launched at the first kernel's exit. -/
theorem W2_launched (b : Ref sig .tc) (hb : ∀ w, Pipeline.arrRef spec0 w ≠ b) (h0 : b ≠ main_v0) (h1 : b ≠ main_v1) (h2 : b ≠ main_v2) :
    W2 (F := Ideal) m ρ c (Proc.devRef .tc b) = m ((c.tc : Thread nD τ).loc b) :=
  (W2_of_ne m ρ c b hb).trans (W1_keep m ρ c b h0 h1 h2)

/-- The memory table, the first kernel's first input array, at its exit. -/
theorem W2_arg1 : W2 (F := Ideal) m ρ c (Proc.devRef .tc main_arg1) = arg m c main_arg1 :=
  ((W2_arr m ρ c 0).trans (((dat0 (V1 m ρ) c).arrAt_in 0 rfl _).trans (A_eq0 (V1 m ρ) c 0))).trans (V1_mem m ρ c)
/-- The first kernel's output array at its exit. -/
theorem W2_v3 : W2 (F := Ideal) m ρ c (Proc.devRef .tc main_v3) = (dat0 (F := Ideal) (V1 m ρ) c).arrAt 11 cfg0.N :=
  W2_arr m ρ c 11

/-! ## The three table reads

  Each read is the same 23 operations over its own buffers: the index words moved up where negative, the row kept
  where the moved index is in range, the gather at the moved indices, and the choice between the gathered row and the
  fill word. Composed, they are the keep-or-fill read of the table at the index words. -/

set_option maxRecDepth 8192 in
theorem take_q (V : Valuation τ sig (Elt Ideal)) :
    StableHlo.after hostOps1 V (Proc.devRef .tc main_v4)
      = takeFill (V (Proc.devRef .tc main_arg0)) (V (Proc.devRef .tc main_arg2)) := by
  after_results_simp
  simp only [ofBuf_toBuf]
  refine eq_of_heq ((cast_heq _ _).trans (heq_of_eq ?_))
  unfold takeFill takeRows keepRows wrapIdx
  rfl
set_option maxRecDepth 8192 in
theorem take_m (V : Valuation τ sig (Elt Ideal)) :
    StableHlo.after hostOps1_1 V (Proc.devRef .tc main_v5)
      = takeFill (V (Proc.devRef .tc main_arg1)) (V (Proc.devRef .tc main_arg3)) := by
  after_results_simp
  simp only [ofBuf_toBuf]
  refine eq_of_heq ((cast_heq _ _).trans (heq_of_eq ?_))
  unfold takeFill takeRows keepRows wrapIdx
  rfl
set_option maxRecDepth 8192 in
theorem take_mh (V : Valuation τ sig (Elt Ideal)) :
    StableHlo.after hostOps1_2 V (Proc.devRef .tc main_v6)
      = takeFill (V (Proc.devRef .tc main_v3)) (V (Proc.devRef .tc main_arg3)) := by
  after_results_simp
  simp only [ofBuf_toBuf]
  refine eq_of_heq ((cast_heq _ _).trans (heq_of_eq ?_))
  unfold takeFill takeRows keepRows wrapIdx
  rfl

/-- The halves of the first-layer matrix and the two other edge matrices, sliced and narrowed. -/
theorem cut_a (V : Valuation τ sig (Elt Ideal)) :
    StableHlo.after hostOps1_3 V (Proc.devRef .tc main_v8)
      = (truncf .bf16 (extractStridedSlice S128x128 ![0, 0] (V (Proc.devRef .tc main_arg4) : FVec Ideal S256x128 .f32) slices_S256x128_S128x128_0_0) bitsLt_bf16_f32 : FVec Ideal S128x128 .bf16) := by
  after_results
theorem cut_b (V : Valuation τ sig (Elt Ideal)) :
    StableHlo.after hostOps1_3 V (Proc.devRef .tc main_v10)
      = (truncf .bf16 (extractStridedSlice S128x128 ![128, 0] (V (Proc.devRef .tc main_arg4) : FVec Ideal S256x128 .f32) slices_S256x128_S128x128_128_0) bitsLt_bf16_f32 : FVec Ideal S128x128 .bf16) := by
  after_results
theorem narrow_2 (V : Valuation τ sig (Elt Ideal)) :
    StableHlo.after hostOps1_3 V (Proc.devRef .tc main_v11)
      = (truncf .bf16 (V (Proc.devRef .tc main_arg6) : FVec Ideal S128x128 .f32) bitsLt_bf16_f32 : FVec Ideal S128x128 .bf16) := by
  after_results
theorem narrow_3 (V : Valuation τ sig (Elt Ideal)) :
    StableHlo.after hostOps1_3 V (Proc.devRef .tc main_v12)
      = (truncf .bf16 (V (Proc.devRef .tc main_arg8) : FVec Ideal S128x1 .f32) bitsLt_bf16_f32 : FVec Ideal S128x1 .bf16) := by
  after_results

/-! ## What the second kernel finds -/

theorem V6_q : V6 (F := Ideal) m ρ c main_v4 = takeFill (arg m c main_arg0) (arg m c main_arg2) := by
  step_back; step_back; step_back
  refine (take_q _).trans ?_
  rw [W2_launched m ρ c main_arg0 (by decide) (by decide) (by decide) (by decide),
    W2_launched m ρ c main_arg2 (by decide) (by decide) (by decide) (by decide)]
theorem V6_m : V6 (F := Ideal) m ρ c main_v5 = takeFill (arg m c main_arg1) (arg m c main_arg3) := by
  step_back; step_back
  refine (take_m _).trans ?_
  have e1 : W3 (F := Ideal) m ρ c (Proc.devRef .tc main_arg1) = arg m c main_arg1 := by
    step_back; exact W2_arg1 m ρ c
  have e3 : W3 (F := Ideal) m ρ c (Proc.devRef .tc main_arg3) = arg m c main_arg3 := by
    step_back; exact W2_launched m ρ c main_arg3 (by decide) (by decide) (by decide) (by decide)
  rw [e1, e3]
theorem V6_mh : V6 (F := Ideal) m ρ c main_v6 = takeFill ((dat0 (F := Ideal) (V1 m ρ) c).arrAt 11 cfg0.N) (arg m c main_arg3) := by
  step_back
  refine (take_mh _).trans ?_
  have e1 : W4 (F := Ideal) m ρ c (Proc.devRef .tc main_v3) = (dat0 (F := Ideal) (V1 m ρ) c).arrAt 11 cfg0.N := by
    step_back; step_back; exact W2_v3 m ρ c
  have e3 : W4 (F := Ideal) m ρ c (Proc.devRef .tc main_arg3) = arg m c main_arg3 := by
    step_back; step_back; exact W2_launched m ρ c main_arg3 (by decide) (by decide) (by decide) (by decide)
  rw [e1, e3]
theorem V6_W1a : V6 (F := Ideal) m ρ c main_v8 = (truncf .bf16 (extractStridedSlice S128x128 ![0, 0] (arg m c main_arg4 : FVec Ideal S256x128 .f32) slices_S256x128_S128x128_0_0) bitsLt_bf16_f32 : FVec Ideal S128x128 .bf16) := by
  refine (cut_a _).trans ?_
  have e : W5 (F := Ideal) m ρ c (Proc.devRef .tc main_arg4) = arg m c main_arg4 := by
    step_back; step_back; step_back; exact W2_launched m ρ c main_arg4 (by decide) (by decide) (by decide) (by decide)
  rw [e]
theorem V6_W1b : V6 (F := Ideal) m ρ c main_v10 = (truncf .bf16 (extractStridedSlice S128x128 ![128, 0] (arg m c main_arg4 : FVec Ideal S256x128 .f32) slices_S256x128_S128x128_128_0) bitsLt_bf16_f32 : FVec Ideal S128x128 .bf16) := by
  refine (cut_b _).trans ?_
  have e : W5 (F := Ideal) m ρ c (Proc.devRef .tc main_arg4) = arg m c main_arg4 := by
    step_back; step_back; step_back; exact W2_launched m ρ c main_arg4 (by decide) (by decide) (by decide) (by decide)
  rw [e]
theorem V6_b1 : V6 (F := Ideal) m ρ c main_arg5 = arg m c main_arg5 := by
  step_back; step_back; step_back; step_back
  exact W2_launched m ρ c main_arg5 (by decide) (by decide) (by decide) (by decide)
theorem V6_W2 : V6 (F := Ideal) m ρ c main_v11 = (truncf .bf16 (arg m c main_arg6 : FVec Ideal S128x128 .f32) bitsLt_bf16_f32 : FVec Ideal S128x128 .bf16) := by
  refine (narrow_2 _).trans ?_
  have e : W5 (F := Ideal) m ρ c (Proc.devRef .tc main_arg6) = arg m c main_arg6 := by
    step_back; step_back; step_back; exact W2_launched m ρ c main_arg6 (by decide) (by decide) (by decide) (by decide)
  rw [e]
theorem V6_b2 : V6 (F := Ideal) m ρ c main_arg7 = arg m c main_arg7 := by
  step_back; step_back; step_back; step_back
  exact W2_launched m ρ c main_arg7 (by decide) (by decide) (by decide) (by decide)
theorem V6_W3 : V6 (F := Ideal) m ρ c main_v12 = (truncf .bf16 (arg m c main_arg8 : FVec Ideal S128x1 .f32) bitsLt_bf16_f32 : FVec Ideal S128x1 .bf16) := by
  refine (narrow_3 _).trans ?_
  have e : W5 (F := Ideal) m ρ c (Proc.devRef .tc main_arg8) = arg m c main_arg8 := by
    step_back; step_back; step_back; exact W2_launched m ρ c main_arg8 (by decide) (by decide) (by decide) (by decide)
  rw [e]
theorem V6_b3 : V6 (F := Ideal) m ρ c main_arg9 = arg m c main_arg9 := by
  step_back; step_back; step_back; step_back
  exact W2_launched m ρ c main_arg9 (by decide) (by decide) (by decide) (by decide)
theorem V6_g1 : V6 (F := Ideal) m ρ c main_arg10 = arg m c main_arg10 := by
  step_back; step_back; step_back; step_back
  exact W2_launched m ρ c main_arg10 (by decide) (by decide) (by decide) (by decide)
theorem V6_be1 : V6 (F := Ideal) m ρ c main_arg11 = arg m c main_arg11 := by
  step_back; step_back; step_back; step_back
  exact W2_launched m ρ c main_arg11 (by decide) (by decide) (by decide) (by decide)
theorem V6_g2 : V6 (F := Ideal) m ρ c main_arg12 = arg m c main_arg12 := by
  step_back; step_back; step_back; step_back
  exact W2_launched m ρ c main_arg12 (by decide) (by decide) (by decide) (by decide)
theorem V6_be2 : V6 (F := Ideal) m ρ c main_arg13 = arg m c main_arg13 := by
  step_back; step_back; step_back; step_back
  exact W2_launched m ρ c main_arg13 (by decide) (by decide) (by decide) (by decide)

/-! ## The result -/

/-- The last host stretch: a zero table, the raw target indices as a column, and the scatter-add of the third operand. -/
theorem scatter_out (V : Valuation τ sig (Elt Ideal)) :
    StableHlo.after hostOps2 V (Proc.devRef .tc main_v16)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (V (Proc.devRef .tc main_arg2) : IVec S800000 32))
          (V (Proc.devRef .tc main_v13)) := by
  after_results

/-- The result buffer after the last host stretch: the messages scatter-added into zeros at the raw target indices. -/
theorem W8_out :
    W8 (F := Ideal) m ρ c (Proc.devRef .tc main_v16)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (arg m c main_arg2 : IVec S800000 32))
          ((dat1 (F := Ideal) (V6 m ρ) c).arrAt 14 cfg1.N) := by
  refine (scatter_out _).trans ?_
  have e2 : W7 (F := Ideal) m ρ c (Proc.devRef .tc main_arg2) = arg m c main_arg2 := by
    refine (W7_of_ne m ρ c main_arg2 (by decide)).trans ?_
    step_back; step_back; step_back; step_back
    exact W2_launched m ρ c main_arg2 (by decide) (by decide) (by decide) (by decide)
  have e13 : W7 (F := Ideal) m ρ c (Proc.devRef .tc main_v13) = (dat1 (F := Ideal) (V6 m ρ) c).arrAt 14 cfg1.N :=
    W7_arr m ρ c 14
  rw [e2, e13]

end Cert.KernelIdeal.Val

end
-- ==== Proof.RefMem.lean ====
/-
  The reference's mapped memory table.

  The reference applies the three-layer perceptron to the whole 50000 × 128 memory table with whole-array operations:
  a matrix product, a broadcast bias, the clip at zero, two row sums divided by 128 for the mean and the variance, the
  inverse square root, the broadcast scale and shift, twice, then the output map. Read at an index `(n, j)` every step
  touches only row `n`, so the table is the row-by-row map.
-/
import proofs.«429219_j43319040147615_1_alg».proof.Proof.Gen.ReferenceIdeal.Read
import proofs.«429219_j43319040147615_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.SL.Sem
open scoped BigOperators

namespace Cert.ReferenceIdeal.Val

open Cert.ReferenceIdeal Cert.ReferenceIdeal.Read Cert.Spec

/-! ### The first pre-activation

Entry `(n, j)` of the matrix product is the sum over `k` of entry `(n, k)` of the table times entry `(k, j)` of the
weights; the bias is repeated along the rows. -/

theorem v82_at (x1 : FVec Ideal S50000x128 .f32) (x14 : FVec Ideal S128x128 .f32) (x15 : FVec Ideal S128 .f32) (r : Fin 50000) (j : Fin 128) :
    val_main_v82 (F := Ideal) x1 x14 x15 (ix2 r j) = affine (rowOf x1 r) (mat x14) (vec x15) j := by
  rw [val_main_v82_apply, val_main_v79_apply, val_main_v81_apply, val_main_v80_apply]
  have el : ∀ k : Fin 128, lidx_main_v79 (ix2 r j) k = ix2 r k := fun k => funext fun a => Fin.ext (by match a with | ⟨0, _⟩ => rfl | ⟨1, _⟩ => rfl)
  have er : ∀ k : Fin 128, ridx_main_v79 (ix2 r j) k = ix2 k j := fun k => funext fun a => Fin.ext (by match a with | ⟨0, _⟩ => rfl | ⟨1, _⟩ => rfl)
  have eb : idx_main_v80 (idx_main_v81 (ix2 r j)) = ix1 j := funext fun a => Fin.ext (by match a with | ⟨0, _⟩ => rfl)
  simp only [el, er, eb]
  rfl

/-! ### The first hidden layer -/

/-- The clipped row. -/
theorem v83_at (x1 : FVec Ideal S50000x128 .f32) (x14 : FVec Ideal S128x128 .f32) (x15 : FVec Ideal S128 .f32) (r : Fin 50000) (k : Fin 128) :
    val_main_v83 (F := Ideal) x1 x14 x15 (ix2 r k) = relu (affine (rowOf x1 r) (mat x14) (vec x15)) k := by
  rw [val_main_v83_apply, v82_at, val_main_call2_v0_apply, val_main_call2_cst_apply]
  rfl

/-- The row sum over the 128 coordinates divided by the width: the mean of the clipped row. -/
theorem v87_at (x1 : FVec Ideal S50000x128 .f32) (x14 : FVec Ideal S128x128 .f32) (x15 : FVec Ideal S128 .f32) (r : Fin 50000) :
    val_main_v87 (F := Ideal) x1 x14 x15 (ix2 r (0 : Fin 1)) = rowMean (relu (affine (rowOf x1 r) (mat x14) (vec x15))) := by
  rw [val_main_v87_apply, val_main_v85_apply, val_main_v84_apply, val_main_v86_apply,
    val_main_cst_13_apply, val_main_cst_12_apply]
  have e : ∀ k : Fin 128, idx_main_v84 (idx_main_v85 (ix2 r (0 : Fin 1))) k = ix2 r k :=
    fun k => funext fun a => Fin.ext (by match a with | ⟨0, _⟩ => rfl | ⟨1, _⟩ => rfl)
  simp only [e, v83_at, Ideal.ofBits_def, Ideal.ofBits_zero_f32, zero_add, Ideal.hostDivf_def]
  rfl

/-- The mean, repeated along the row. -/
theorem v88_at (x1 : FVec Ideal S50000x128 .f32) (x14 : FVec Ideal S128x128 .f32) (x15 : FVec Ideal S128 .f32) (r : Fin 50000) (k : Fin 128) :
    val_main_v88 (F := Ideal) x1 x14 x15 (ix2 r k) = rowMean (relu (affine (rowOf x1 r) (mat x14) (vec x15))) := by
  rw [val_main_v88_apply]
  have e : idx_main_v88 (ix2 r k) = ix2 r (0 : Fin 1) := funext fun a => Fin.ext (by match a with | ⟨0, _⟩ => rfl | ⟨1, _⟩ => rfl)
  rw [e, v87_at]

theorem v95_at (x1 : FVec Ideal S50000x128 .f32) (x14 : FVec Ideal S128x128 .f32) (x15 : FVec Ideal S128 .f32) (r : Fin 50000) (k : Fin 128) :
    val_main_v95 (F := Ideal) x1 x14 x15 (ix2 r k) = rowMean (relu (affine (rowOf x1 r) (mat x14) (vec x15))) := by
  rw [val_main_v95_apply]
  have e : idx_main_v95 (ix2 r k) = ix2 r (0 : Fin 1) := funext fun a => Fin.ext (by match a with | ⟨0, _⟩ => rfl | ⟨1, _⟩ => rfl)
  rw [e, v87_at]

/-- The clipped row minus its mean (computed twice by the program). -/
theorem v89_at (x1 : FVec Ideal S50000x128 .f32) (x14 : FVec Ideal S128x128 .f32) (x15 : FVec Ideal S128 .f32) (r : Fin 50000) (k : Fin 128) :
    val_main_v89 (F := Ideal) x1 x14 x15 (ix2 r k) = centred (relu (affine (rowOf x1 r) (mat x14) (vec x15))) k := by
  rw [val_main_v89_apply, v83_at, v88_at]
  rfl

theorem v96_at (x1 : FVec Ideal S50000x128 .f32) (x14 : FVec Ideal S128x128 .f32) (x15 : FVec Ideal S128 .f32) (r : Fin 50000) (k : Fin 128) :
    val_main_v96 (F := Ideal) x1 x14 x15 (ix2 r k) = centred (relu (affine (rowOf x1 r) (mat x14) (vec x15))) k := by
  rw [val_main_v96_apply, v83_at, v95_at]
  rfl

/-- The squared deviation. -/
theorem v90_at (x1 : FVec Ideal S50000x128 .f32) (x14 : FVec Ideal S128x128 .f32) (x15 : FVec Ideal S128 .f32) (r : Fin 50000) (k : Fin 128) :
    val_main_v90 (F := Ideal) x1 x14 x15 (ix2 r k) = centred (relu (affine (rowOf x1 r) (mat x14) (vec x15))) k * centred (relu (affine (rowOf x1 r) (mat x14) (vec x15))) k := by
  rw [val_main_v90_apply, v89_at]
  rfl

/-- The mean of the squared deviations: the variance of the clipped row. -/
theorem v94_at (x1 : FVec Ideal S50000x128 .f32) (x14 : FVec Ideal S128x128 .f32) (x15 : FVec Ideal S128 .f32) (r : Fin 50000) :
    val_main_v94 (F := Ideal) x1 x14 x15 (ix2 r (0 : Fin 1)) = rowMean (fun k => centred (relu (affine (rowOf x1 r) (mat x14) (vec x15))) k * centred (relu (affine (rowOf x1 r) (mat x14) (vec x15))) k) := by
  rw [val_main_v94_apply, val_main_v92_apply, val_main_v91_apply, val_main_v93_apply,
    val_main_cst_15_apply, val_main_cst_14_apply]
  have e : ∀ k : Fin 128, idx_main_v91 (idx_main_v92 (ix2 r (0 : Fin 1))) k = ix2 r k :=
    fun k => funext fun a => Fin.ext (by match a with | ⟨0, _⟩ => rfl | ⟨1, _⟩ => rfl)
  simp only [e, v90_at, Ideal.ofBits_def, Ideal.ofBits_zero_f32, zero_add, Ideal.hostDivf_def]
  rfl

/-- The inverse square root of the variance plus the offset, repeated along the row. -/
theorem v100_at (x1 : FVec Ideal S50000x128 .f32) (x14 : FVec Ideal S128x128 .f32) (x15 : FVec Ideal S128 .f32) (r : Fin 50000) (k : Fin 128) :
    val_main_v100 (F := Ideal) x1 x14 x15 (ix2 r k) = Ideal.rsqrt (rowMean (fun k => centred (relu (affine (rowOf x1 r) (mat x14) (vec x15))) k * centred (relu (affine (rowOf x1 r) (mat x14) (vec x15))) k) + eps) := by
  rw [val_main_v100_apply]
  have e : idx_main_v100 (ix2 r k) = ix2 r (0 : Fin 1) := funext fun a => Fin.ext (by match a with | ⟨0, _⟩ => rfl | ⟨1, _⟩ => rfl)
  rw [e, val_main_v99_apply, val_main_v98_apply, v94_at, val_main_v97_apply, val_main_cst_16_apply]
  rfl

/-- The layer's output: the normalised clipped row, scaled and shifted coordinatewise. -/
theorem v107_at (x1 : FVec Ideal S50000x128 .f32) (x14 : FVec Ideal S128x128 .f32) (x15 x20 x21 : FVec Ideal S128 .f32) (r : Fin 50000) (j : Fin 128) :
    val_main_v107 (F := Ideal) x1 x14 x15 x20 x21 (ix2 r j) = hidden (affine (rowOf x1 r) (mat x14) (vec x15)) (vec x20) (vec x21) j := by
  rw [val_main_v107_apply, val_main_v104_apply, val_main_v101_apply, v96_at, v100_at,
    val_main_v103_apply, val_main_v102_apply, val_main_v106_apply, val_main_v105_apply]
  have eg : idx_main_v102 (idx_main_v103 (ix2 r j)) = ix1 j := funext fun a => Fin.ext (by match a with | ⟨0, _⟩ => rfl)
  have eb : idx_main_v105 (idx_main_v106 (ix2 r j)) = ix1 j := funext fun a => Fin.ext (by match a with | ⟨0, _⟩ => rfl)
  rw [eg, eb]
  rfl

/-! ### The second pre-activation

The same matrix product and bias, applied to the first layer's output row. -/

theorem v111_at (x1 : FVec Ideal S50000x128 .f32) (x14 : FVec Ideal S128x128 .f32) (x15 : FVec Ideal S128 .f32) (x16 : FVec Ideal S128x128 .f32) (x17 x20 x21 : FVec Ideal S128 .f32) (r : Fin 50000) (j : Fin 128) :
    val_main_v111 (F := Ideal) x1 x14 x15 x16 x17 x20 x21 (ix2 r j)
      = affine (hidden (affine (rowOf x1 r) (mat x14) (vec x15)) (vec x20) (vec x21)) (mat x16) (vec x17) j := by
  rw [val_main_v111_apply, val_main_v108_apply, val_main_v110_apply, val_main_v109_apply]
  have el : ∀ k : Fin 128, lidx_main_v108 (ix2 r j) k = ix2 r k := fun k => funext fun a => Fin.ext (by match a with | ⟨0, _⟩ => rfl | ⟨1, _⟩ => rfl)
  have er : ∀ k : Fin 128, ridx_main_v108 (ix2 r j) k = ix2 k j := fun k => funext fun a => Fin.ext (by match a with | ⟨0, _⟩ => rfl | ⟨1, _⟩ => rfl)
  have eb : idx_main_v109 (idx_main_v110 (ix2 r j)) = ix1 j := funext fun a => Fin.ext (by match a with | ⟨0, _⟩ => rfl)
  simp only [el, er, eb, v107_at]
  rfl

/-! ### The second hidden layer -/

/-- The clipped row. -/
theorem v112_at (x1 : FVec Ideal S50000x128 .f32) (x14 : FVec Ideal S128x128 .f32) (x15 : FVec Ideal S128 .f32) (x16 : FVec Ideal S128x128 .f32) (x17 x20 x21 : FVec Ideal S128 .f32) (r : Fin 50000) (k : Fin 128) :
    val_main_v112 (F := Ideal) x1 x14 x15 x16 x17 x20 x21 (ix2 r k) = relu (affine (hidden (affine (rowOf x1 r) (mat x14) (vec x15)) (vec x20) (vec x21)) (mat x16) (vec x17)) k := by
  rw [val_main_v112_apply, v111_at, val_main_call3_v0_apply, val_main_call3_cst_apply]
  rfl

/-- The row sum over the 128 coordinates divided by the width: the mean of the clipped row. -/
theorem v116_at (x1 : FVec Ideal S50000x128 .f32) (x14 : FVec Ideal S128x128 .f32) (x15 : FVec Ideal S128 .f32) (x16 : FVec Ideal S128x128 .f32) (x17 x20 x21 : FVec Ideal S128 .f32) (r : Fin 50000) :
    val_main_v116 (F := Ideal) x1 x14 x15 x16 x17 x20 x21 (ix2 r (0 : Fin 1)) = rowMean (relu (affine (hidden (affine (rowOf x1 r) (mat x14) (vec x15)) (vec x20) (vec x21)) (mat x16) (vec x17))) := by
  rw [val_main_v116_apply, val_main_v114_apply, val_main_v113_apply, val_main_v115_apply,
    val_main_cst_18_apply, val_main_cst_17_apply]
  have e : ∀ k : Fin 128, idx_main_v113 (idx_main_v114 (ix2 r (0 : Fin 1))) k = ix2 r k :=
    fun k => funext fun a => Fin.ext (by match a with | ⟨0, _⟩ => rfl | ⟨1, _⟩ => rfl)
  simp only [e, v112_at, Ideal.ofBits_def, Ideal.ofBits_zero_f32, zero_add, Ideal.hostDivf_def]
  rfl

/-- The mean, repeated along the row. -/
theorem v117_at (x1 : FVec Ideal S50000x128 .f32) (x14 : FVec Ideal S128x128 .f32) (x15 : FVec Ideal S128 .f32) (x16 : FVec Ideal S128x128 .f32) (x17 x20 x21 : FVec Ideal S128 .f32) (r : Fin 50000) (k : Fin 128) :
    val_main_v117 (F := Ideal) x1 x14 x15 x16 x17 x20 x21 (ix2 r k) = rowMean (relu (affine (hidden (affine (rowOf x1 r) (mat x14) (vec x15)) (vec x20) (vec x21)) (mat x16) (vec x17))) := by
  rw [val_main_v117_apply]
  have e : idx_main_v117 (ix2 r k) = ix2 r (0 : Fin 1) := funext fun a => Fin.ext (by match a with | ⟨0, _⟩ => rfl | ⟨1, _⟩ => rfl)
  rw [e, v116_at]

theorem v124_at (x1 : FVec Ideal S50000x128 .f32) (x14 : FVec Ideal S128x128 .f32) (x15 : FVec Ideal S128 .f32) (x16 : FVec Ideal S128x128 .f32) (x17 x20 x21 : FVec Ideal S128 .f32) (r : Fin 50000) (k : Fin 128) :
    val_main_v124 (F := Ideal) x1 x14 x15 x16 x17 x20 x21 (ix2 r k) = rowMean (relu (affine (hidden (affine (rowOf x1 r) (mat x14) (vec x15)) (vec x20) (vec x21)) (mat x16) (vec x17))) := by
  rw [val_main_v124_apply]
  have e : idx_main_v124 (ix2 r k) = ix2 r (0 : Fin 1) := funext fun a => Fin.ext (by match a with | ⟨0, _⟩ => rfl | ⟨1, _⟩ => rfl)
  rw [e, v116_at]

/-- The clipped row minus its mean (computed twice by the program). -/
theorem v118_at (x1 : FVec Ideal S50000x128 .f32) (x14 : FVec Ideal S128x128 .f32) (x15 : FVec Ideal S128 .f32) (x16 : FVec Ideal S128x128 .f32) (x17 x20 x21 : FVec Ideal S128 .f32) (r : Fin 50000) (k : Fin 128) :
    val_main_v118 (F := Ideal) x1 x14 x15 x16 x17 x20 x21 (ix2 r k) = centred (relu (affine (hidden (affine (rowOf x1 r) (mat x14) (vec x15)) (vec x20) (vec x21)) (mat x16) (vec x17))) k := by
  rw [val_main_v118_apply, v112_at, v117_at]
  rfl

theorem v125_at (x1 : FVec Ideal S50000x128 .f32) (x14 : FVec Ideal S128x128 .f32) (x15 : FVec Ideal S128 .f32) (x16 : FVec Ideal S128x128 .f32) (x17 x20 x21 : FVec Ideal S128 .f32) (r : Fin 50000) (k : Fin 128) :
    val_main_v125 (F := Ideal) x1 x14 x15 x16 x17 x20 x21 (ix2 r k) = centred (relu (affine (hidden (affine (rowOf x1 r) (mat x14) (vec x15)) (vec x20) (vec x21)) (mat x16) (vec x17))) k := by
  rw [val_main_v125_apply, v112_at, v124_at]
  rfl

/-- The squared deviation. -/
theorem v119_at (x1 : FVec Ideal S50000x128 .f32) (x14 : FVec Ideal S128x128 .f32) (x15 : FVec Ideal S128 .f32) (x16 : FVec Ideal S128x128 .f32) (x17 x20 x21 : FVec Ideal S128 .f32) (r : Fin 50000) (k : Fin 128) :
    val_main_v119 (F := Ideal) x1 x14 x15 x16 x17 x20 x21 (ix2 r k) = centred (relu (affine (hidden (affine (rowOf x1 r) (mat x14) (vec x15)) (vec x20) (vec x21)) (mat x16) (vec x17))) k * centred (relu (affine (hidden (affine (rowOf x1 r) (mat x14) (vec x15)) (vec x20) (vec x21)) (mat x16) (vec x17))) k := by
  rw [val_main_v119_apply, v118_at]
  rfl

/-- The mean of the squared deviations: the variance of the clipped row. -/
theorem v123_at (x1 : FVec Ideal S50000x128 .f32) (x14 : FVec Ideal S128x128 .f32) (x15 : FVec Ideal S128 .f32) (x16 : FVec Ideal S128x128 .f32) (x17 x20 x21 : FVec Ideal S128 .f32) (r : Fin 50000) :
    val_main_v123 (F := Ideal) x1 x14 x15 x16 x17 x20 x21 (ix2 r (0 : Fin 1)) = rowMean (fun k => centred (relu (affine (hidden (affine (rowOf x1 r) (mat x14) (vec x15)) (vec x20) (vec x21)) (mat x16) (vec x17))) k * centred (relu (affine (hidden (affine (rowOf x1 r) (mat x14) (vec x15)) (vec x20) (vec x21)) (mat x16) (vec x17))) k) := by
  rw [val_main_v123_apply, val_main_v121_apply, val_main_v120_apply, val_main_v122_apply,
    val_main_cst_20_apply, val_main_cst_19_apply]
  have e : ∀ k : Fin 128, idx_main_v120 (idx_main_v121 (ix2 r (0 : Fin 1))) k = ix2 r k :=
    fun k => funext fun a => Fin.ext (by match a with | ⟨0, _⟩ => rfl | ⟨1, _⟩ => rfl)
  simp only [e, v119_at, Ideal.ofBits_def, Ideal.ofBits_zero_f32, zero_add, Ideal.hostDivf_def]
  rfl

/-- The inverse square root of the variance plus the offset, repeated along the row. -/
theorem v129_at (x1 : FVec Ideal S50000x128 .f32) (x14 : FVec Ideal S128x128 .f32) (x15 : FVec Ideal S128 .f32) (x16 : FVec Ideal S128x128 .f32) (x17 x20 x21 : FVec Ideal S128 .f32) (r : Fin 50000) (k : Fin 128) :
    val_main_v129 (F := Ideal) x1 x14 x15 x16 x17 x20 x21 (ix2 r k) = Ideal.rsqrt (rowMean (fun k => centred (relu (affine (hidden (affine (rowOf x1 r) (mat x14) (vec x15)) (vec x20) (vec x21)) (mat x16) (vec x17))) k * centred (relu (affine (hidden (affine (rowOf x1 r) (mat x14) (vec x15)) (vec x20) (vec x21)) (mat x16) (vec x17))) k) + eps) := by
  rw [val_main_v129_apply]
  have e : idx_main_v129 (ix2 r k) = ix2 r (0 : Fin 1) := funext fun a => Fin.ext (by match a with | ⟨0, _⟩ => rfl | ⟨1, _⟩ => rfl)
  rw [e, val_main_v128_apply, val_main_v127_apply, v123_at, val_main_v126_apply, val_main_cst_21_apply]
  rfl

/-- The layer's output: the normalised clipped row, scaled and shifted coordinatewise. -/
theorem v136_at (x1 : FVec Ideal S50000x128 .f32) (x14 : FVec Ideal S128x128 .f32) (x15 : FVec Ideal S128 .f32) (x16 : FVec Ideal S128x128 .f32) (x17 x20 x21 x22 x23 : FVec Ideal S128 .f32) (r : Fin 50000) (j : Fin 128) :
    val_main_v136 (F := Ideal) x1 x14 x15 x16 x17 x20 x21 x22 x23 (ix2 r j) = hidden (affine (hidden (affine (rowOf x1 r) (mat x14) (vec x15)) (vec x20) (vec x21)) (mat x16) (vec x17)) (vec x22) (vec x23) j := by
  rw [val_main_v136_apply, val_main_v133_apply, val_main_v130_apply, v125_at, v129_at,
    val_main_v132_apply, val_main_v131_apply, val_main_v135_apply, val_main_v134_apply]
  have eg : idx_main_v131 (idx_main_v132 (ix2 r j)) = ix1 j := funext fun a => Fin.ext (by match a with | ⟨0, _⟩ => rfl)
  have eb : idx_main_v134 (idx_main_v135 (ix2 r j)) = ix1 j := funext fun a => Fin.ext (by match a with | ⟨0, _⟩ => rfl)
  rw [eg, eb]
  rfl

/-! ### The output map -/

theorem v140_at (x1 : FVec Ideal S50000x128 .f32) (x14 : FVec Ideal S128x128 .f32) (x15 : FVec Ideal S128 .f32) (x16 : FVec Ideal S128x128 .f32) (x17 : FVec Ideal S128 .f32) (x18 : FVec Ideal S128x128 .f32) (x19 x20 x21 x22 x23 : FVec Ideal S128 .f32) (r : Fin 50000) (j : Fin 128) :
    val_main_v140 (F := Ideal) x1 x14 x15 x16 x17 x18 x19 x20 x21 x22 x23 (ix2 r j)
      = affine (hidden (affine (hidden (affine (rowOf x1 r) (mat x14) (vec x15)) (vec x20) (vec x21)) (mat x16) (vec x17)) (vec x22) (vec x23)) (mat x18) (vec x19) j := by
  rw [val_main_v140_apply, val_main_v137_apply, val_main_v139_apply, val_main_v138_apply]
  have el : ∀ k : Fin 128, lidx_main_v137 (ix2 r j) k = ix2 r k := fun k => funext fun a => Fin.ext (by match a with | ⟨0, _⟩ => rfl | ⟨1, _⟩ => rfl)
  have er : ∀ k : Fin 128, ridx_main_v137 (ix2 r j) k = ix2 k j := fun k => funext fun a => Fin.ext (by match a with | ⟨0, _⟩ => rfl | ⟨1, _⟩ => rfl)
  have eb : idx_main_v138 (idx_main_v139 (ix2 r j)) = ix1 j := funext fun a => Fin.ext (by match a with | ⟨0, _⟩ => rfl)
  simp only [el, er, eb, v136_at]
  rfl

/-- The reference's mapped memory table is the row-by-row map of the memory table. -/
theorem memHead_eq (x1 : FVec Ideal S50000x128 .f32) (x14 : FVec Ideal S128x128 .f32) (x15 : FVec Ideal S128 .f32)
    (x16 : FVec Ideal S128x128 .f32) (x17 : FVec Ideal S128 .f32) (x18 : FVec Ideal S128x128 .f32)
    (x19 x20 x21 x22 x23 : FVec Ideal S128 .f32) :
    val_main_v140 (F := Ideal) x1 x14 x15 x16 x17 x18 x19 x20 x21 x22 x23
      = memHead (R := 50000) x1 x14 x15 x16 x17 x18 x19 x20 x21 x22 x23 := by
  funext i
  obtain ⟨r, j, rfl⟩ : ∃ (r : Fin 50000) (j : Fin 128), i = ix2 r j := ⟨i 0, i 1, eq_ix2 i⟩
  rw [v140_at]
  rfl

end Cert.ReferenceIdeal.Val

end
-- ==== Proof.RefEdge.lean ====
/-
  The reference's messages.

  The reference joins the gathered query rows and the gathered memory rows into 800000 × 256, applies the
  one-output perceptron with whole-array operations, squashes, and multiplies each edge's scalar into the edge's
  gathered mapped-memory row. Read at an index `(e, j)` every step touches only row `e`; the product of the joined row
  with the 256 × 128 matrix is the query half's sum plus the memory half's sum.
-/
import proofs.«429219_j43319040147615_1_alg».proof.Proof.Gen.ReferenceIdeal.Read
import proofs.«429219_j43319040147615_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.SL.Sem
open scoped BigOperators

namespace Cert.ReferenceIdeal.Val

open Cert.ReferenceIdeal Cert.ReferenceIdeal.Read Cert.Spec

/-- The joined array's first 128 columns are the gathered query rows. -/
theorem cat_lo (x0 x1 : FVec Ideal S50000x128 .f32) (x2 x3 : IVec S800000 32) (e : Fin 800000) (k : Fin 128) :
    val_main_v14 (F := Ideal) x0 x1 x2 x3 (ix2 (n1 := 256) e (Fin.castAdd 128 k)) = val_main_v6 (F := Ideal) x0 x2 (ix2 e k) := by
  unfold val_main_v14
  exact concatenate_pair_apply_left (t := S800000x256) (s₁ := S800000x128) (s₂ := S800000x128) 1 _ _ _
    (ix2 e (Fin.castAdd 128 k)) rfl (ix2 e k) (fun b => by
      match b with
      | ⟨0, _⟩ => rfl
      | ⟨1, _⟩ => rfl)

/-- The joined array's last 128 columns are the gathered memory rows. -/
theorem cat_hi (x0 x1 : FVec Ideal S50000x128 .f32) (x2 x3 : IVec S800000 32) (e : Fin 800000) (k : Fin 128) :
    val_main_v14 (F := Ideal) x0 x1 x2 x3 (ix2 (n1 := 256) e (Fin.natAdd 128 k)) = val_main_v13 (F := Ideal) x1 x3 (ix2 e k) := by
  unfold val_main_v14
  exact concatenate_pair_apply_right (t := S800000x256) (s₁ := S800000x128) (s₂ := S800000x128) 1 _ _ _
    (ix2 e (Fin.natAdd 128 k)) rfl rfl (ix2 e k)
    (fun b hb => by
      match b with
      | ⟨0, _⟩ => rfl
      | ⟨1, _⟩ => exact absurd rfl hb)
    (by show k.val + 128 = 128 + k.val; omega)

/-- The first pre-activation of an edge: the joined row times the 256 × 128 matrix is the query half's sum plus the
    memory half's sum, plus the bias. -/
theorem pre1 (x0 x1 : FVec Ideal S50000x128 .f32) (x2 x3 : IVec S800000 32) (x4 : FVec Ideal S256x128 .f32) (x5 : FVec Ideal S128 .f32) (e : Fin 800000) (j : Fin 128) :
    val_main_v18 (F := Ideal) x0 x1 x2 x3 x4 x5 (ix2 e j)
      = edgePre (rowOf (R := 800000) (C := 128) (val_main_v6 (F := Ideal) x0 x2) e) (rowOf (R := 800000) (C := 128) (val_main_v13 (F := Ideal) x1 x3) e)
          (mat (loHalf x4)) (mat (hiHalf x4)) (vec (C := 128) x5) j := by
  have hl : ∀ k : Fin 256, lidx_main_v15 (ix2 e j) k = ix2 e k := fun k => funext fun a => Fin.ext (by match a with | ⟨0, _⟩ => rfl | ⟨1, _⟩ => rfl)
  have hr : ∀ k : Fin 256, ridx_main_v15 (ix2 e j) k = ix2 k j := fun k => funext fun a => Fin.ext (by match a with | ⟨0, _⟩ => rfl | ⟨1, _⟩ => rfl)
  have hb : idx_main_v16 (idx_main_v17 (ix2 e j)) = ix1 j := funext fun a => Fin.ext (by match a with | ⟨0, _⟩ => rfl)
  rw [val_main_v18_apply, val_main_v15_apply, val_main_v17_apply, val_main_v16_apply, hb]
  simp only [hl, hr]
  rw [sum_halves]
  simp only [cat_lo, cat_hi]
  rfl

/-- The first hidden layer at an index is the layer of the edge's first pre-activation row. -/
theorem layer1 (x0 x1 : FVec Ideal S50000x128 .f32) (x2 x3 : IVec S800000 32) (x4 : FVec Ideal S256x128 .f32) (x5 : FVec Ideal S128 .f32) (x10 x11 : FVec Ideal S128 .f32) (e : Fin 800000)
    (h : Fin 128 → EReal) (hh : ∀ k : Fin 128, val_main_v18 (F := Ideal) x0 x1 x2 x3 x4 x5 (ix2 e k) = h k) (j : Fin 128) :
    val_main_v43 (F := Ideal) x0 x1 x2 x3 x4 x5 x10 x11 (ix2 e j) = hidden h (vec (C := 128) x10) (vec (C := 128) x11) j := by
  -- the row clipped below at zero
  have h19 : ∀ k : Fin 128, val_main_v19 (F := Ideal) x0 x1 x2 x3 x4 x5 (ix2 e k) = relu h k := fun k => by
    rw [val_main_v19_apply, val_main_call0_v0_apply, val_main_call0_cst_apply, hh]; rfl
  -- a column index over the edge is (e, 0); a row index under it runs over the edge's row
  have c24 : ∀ k : Fin 128, idx_main_v24 (ix2 e k) = ix2 e (0 : Fin 1) := fun k => funext fun a => Fin.ext (by match a with | ⟨0, _⟩ => rfl | ⟨1, _⟩ => rfl)
  have c31 : ∀ k : Fin 128, idx_main_v31 (ix2 e k) = ix2 e (0 : Fin 1) := fun k => funext fun a => Fin.ext (by match a with | ⟨0, _⟩ => rfl | ⟨1, _⟩ => rfl)
  have c36 : idx_main_v36 (ix2 e j) = ix2 e (0 : Fin 1) := funext fun a => Fin.ext (by match a with | ⟨0, _⟩ => rfl | ⟨1, _⟩ => rfl)
  have r20 : ∀ k : Fin 128, idx_main_v20 (idx_main_v21 (ix2 e (0 : Fin 1))) k = ix2 e k := fun k => funext fun a => Fin.ext (by match a with | ⟨0, _⟩ => rfl | ⟨1, _⟩ => rfl)
  have r27 : ∀ k : Fin 128, idx_main_v27 (idx_main_v28 (ix2 e (0 : Fin 1))) k = ix2 e k := fun k => funext fun a => Fin.ext (by match a with | ⟨0, _⟩ => rfl | ⟨1, _⟩ => rfl)
  have g39 : idx_main_v38 (idx_main_v39 (ix2 e j)) = ix1 j := funext fun a => Fin.ext (by match a with | ⟨0, _⟩ => rfl)
  have b42 : idx_main_v41 (idx_main_v42 (ix2 e j)) = ix1 j := funext fun a => Fin.ext (by match a with | ⟨0, _⟩ => rfl)
  -- the mean of the clipped row (the sum starts from the zero word)
  have h23 : val_main_v23 (F := Ideal) x0 x1 x2 x3 x4 x5 (ix2 e (0 : Fin 1)) = rowMean (relu h) := by
    rw [val_main_v23_apply, val_main_v21_apply, val_main_v20_apply, val_main_v22_apply,
      val_main_cst_3_apply, val_main_cst_apply]
    simp only [r20, h19, Ideal.ofBits_def, Ideal.ofBits_zero_f32, zero_add]
    rfl
  -- the centred row, which the program spells twice
  have h25 : ∀ k : Fin 128, val_main_v25 (F := Ideal) x0 x1 x2 x3 x4 x5 (ix2 e k) = centred (relu h) k := fun k => by
    rw [val_main_v25_apply, val_main_v24_apply, c24, h19, h23]; rfl
  have h32 : ∀ k : Fin 128, val_main_v32 (F := Ideal) x0 x1 x2 x3 x4 x5 (ix2 e k) = centred (relu h) k := fun k => by
    rw [val_main_v32_apply, val_main_v31_apply, c31, h19, h23]; rfl
  -- the variance: the mean of the squares of the centred row
  have h30 : val_main_v30 (F := Ideal) x0 x1 x2 x3 x4 x5 (ix2 e (0 : Fin 1)) = rowMean (fun k => centred (relu h) k * centred (relu h) k) := by
    rw [val_main_v30_apply, val_main_v28_apply, val_main_v27_apply, val_main_v29_apply,
      val_main_cst_5_apply, val_main_cst_4_apply]
    simp only [r27, val_main_v26_apply, h25, Ideal.ofBits_def, Ideal.ofBits_zero_f32, zero_add]
    rfl
  -- the inverse root of the variance plus the offset
  have h36 : val_main_v36 (F := Ideal) x0 x1 x2 x3 x4 x5 (ix2 e j) = Ideal.rsqrt (rowMean (fun k => centred (relu h) k * centred (relu h) k) + eps) := by
    rw [val_main_v36_apply, c36, val_main_v35_apply, val_main_v34_apply, h30, val_main_v33_apply,
      val_main_cst_6_apply]; rfl
  rw [val_main_v43_apply, val_main_v40_apply, val_main_v37_apply, h32, h36, val_main_v39_apply,
    val_main_v38_apply, g39, val_main_v42_apply, val_main_v41_apply, b42]
  rfl

/-- The second pre-activation: the first hidden row through the second affine map. -/
theorem pre2 (x0 x1 : FVec Ideal S50000x128 .f32) (x2 x3 : IVec S800000 32) (x4 : FVec Ideal S256x128 .f32) (x5 : FVec Ideal S128 .f32) (x6 : FVec Ideal S128x128 .f32) (x7 : FVec Ideal S128 .f32) (x10 x11 : FVec Ideal S128 .f32) (e : Fin 800000)
    (x : Fin 128 → EReal) (hx : ∀ k : Fin 128, val_main_v43 (F := Ideal) x0 x1 x2 x3 x4 x5 x10 x11 (ix2 e k) = x k) (j : Fin 128) :
    val_main_v47 (F := Ideal) x0 x1 x2 x3 x4 x5 x6 x7 x10 x11 (ix2 e j) = affine x (mat (R := 128) (C := 128) x6) (vec (C := 128) x7) j := by
  have hl : ∀ k : Fin 128, lidx_main_v44 (ix2 e j) k = ix2 e k := fun k => funext fun a => Fin.ext (by match a with | ⟨0, _⟩ => rfl | ⟨1, _⟩ => rfl)
  have hr : ∀ k : Fin 128, ridx_main_v44 (ix2 e j) k = ix2 k j := fun k => funext fun a => Fin.ext (by match a with | ⟨0, _⟩ => rfl | ⟨1, _⟩ => rfl)
  have hb : idx_main_v45 (idx_main_v46 (ix2 e j)) = ix1 j := funext fun a => Fin.ext (by match a with | ⟨0, _⟩ => rfl)
  rw [val_main_v47_apply, val_main_v44_apply, val_main_v46_apply, val_main_v45_apply, hb]
  simp only [hl, hr, hx]
  rfl

/-- The second hidden layer at an index is the layer of the edge's second pre-activation row. -/
theorem layer2 (x0 x1 : FVec Ideal S50000x128 .f32) (x2 x3 : IVec S800000 32) (x4 : FVec Ideal S256x128 .f32) (x5 : FVec Ideal S128 .f32) (x6 : FVec Ideal S128x128 .f32) (x7 : FVec Ideal S128 .f32) (x10 x11 x12 x13 : FVec Ideal S128 .f32) (e : Fin 800000)
    (h : Fin 128 → EReal) (hh : ∀ k : Fin 128, val_main_v47 (F := Ideal) x0 x1 x2 x3 x4 x5 x6 x7 x10 x11 (ix2 e k) = h k) (j : Fin 128) :
    val_main_v72 (F := Ideal) x0 x1 x2 x3 x4 x5 x6 x7 x10 x11 x12 x13 (ix2 e j) = hidden h (vec (C := 128) x12) (vec (C := 128) x13) j := by
  -- the row clipped below at zero
  have h19 : ∀ k : Fin 128, val_main_v48 (F := Ideal) x0 x1 x2 x3 x4 x5 x6 x7 x10 x11 (ix2 e k) = relu h k := fun k => by
    rw [val_main_v48_apply, val_main_call1_v0_apply, val_main_call1_cst_apply, hh]; rfl
  -- a column index over the edge is (e, 0); a row index under it runs over the edge's row
  have c24 : ∀ k : Fin 128, idx_main_v53 (ix2 e k) = ix2 e (0 : Fin 1) := fun k => funext fun a => Fin.ext (by match a with | ⟨0, _⟩ => rfl | ⟨1, _⟩ => rfl)
  have c31 : ∀ k : Fin 128, idx_main_v60 (ix2 e k) = ix2 e (0 : Fin 1) := fun k => funext fun a => Fin.ext (by match a with | ⟨0, _⟩ => rfl | ⟨1, _⟩ => rfl)
  have c36 : idx_main_v65 (ix2 e j) = ix2 e (0 : Fin 1) := funext fun a => Fin.ext (by match a with | ⟨0, _⟩ => rfl | ⟨1, _⟩ => rfl)
  have r20 : ∀ k : Fin 128, idx_main_v49 (idx_main_v50 (ix2 e (0 : Fin 1))) k = ix2 e k := fun k => funext fun a => Fin.ext (by match a with | ⟨0, _⟩ => rfl | ⟨1, _⟩ => rfl)
  have r27 : ∀ k : Fin 128, idx_main_v56 (idx_main_v57 (ix2 e (0 : Fin 1))) k = ix2 e k := fun k => funext fun a => Fin.ext (by match a with | ⟨0, _⟩ => rfl | ⟨1, _⟩ => rfl)
  have g39 : idx_main_v67 (idx_main_v68 (ix2 e j)) = ix1 j := funext fun a => Fin.ext (by match a with | ⟨0, _⟩ => rfl)
  have b42 : idx_main_v70 (idx_main_v71 (ix2 e j)) = ix1 j := funext fun a => Fin.ext (by match a with | ⟨0, _⟩ => rfl)
  -- the mean of the clipped row (the sum starts from the zero word)
  have h23 : val_main_v52 (F := Ideal) x0 x1 x2 x3 x4 x5 x6 x7 x10 x11 (ix2 e (0 : Fin 1)) = rowMean (relu h) := by
    rw [val_main_v52_apply, val_main_v50_apply, val_main_v49_apply, val_main_v51_apply,
      val_main_cst_8_apply, val_main_cst_7_apply]
    simp only [r20, h19, Ideal.ofBits_def, Ideal.ofBits_zero_f32, zero_add]
    rfl
  -- the centred row, which the program spells twice
  have h25 : ∀ k : Fin 128, val_main_v54 (F := Ideal) x0 x1 x2 x3 x4 x5 x6 x7 x10 x11 (ix2 e k) = centred (relu h) k := fun k => by
    rw [val_main_v54_apply, val_main_v53_apply, c24, h19, h23]; rfl
  have h32 : ∀ k : Fin 128, val_main_v61 (F := Ideal) x0 x1 x2 x3 x4 x5 x6 x7 x10 x11 (ix2 e k) = centred (relu h) k := fun k => by
    rw [val_main_v61_apply, val_main_v60_apply, c31, h19, h23]; rfl
  -- the variance: the mean of the squares of the centred row
  have h30 : val_main_v59 (F := Ideal) x0 x1 x2 x3 x4 x5 x6 x7 x10 x11 (ix2 e (0 : Fin 1)) = rowMean (fun k => centred (relu h) k * centred (relu h) k) := by
    rw [val_main_v59_apply, val_main_v57_apply, val_main_v56_apply, val_main_v58_apply,
      val_main_cst_10_apply, val_main_cst_9_apply]
    simp only [r27, val_main_v55_apply, h25, Ideal.ofBits_def, Ideal.ofBits_zero_f32, zero_add]
    rfl
  -- the inverse root of the variance plus the offset
  have h36 : val_main_v65 (F := Ideal) x0 x1 x2 x3 x4 x5 x6 x7 x10 x11 (ix2 e j) = Ideal.rsqrt (rowMean (fun k => centred (relu h) k * centred (relu h) k) + eps) := by
    rw [val_main_v65_apply, c36, val_main_v64_apply, val_main_v63_apply, h30, val_main_v62_apply,
      val_main_cst_11_apply]; rfl
  rw [val_main_v72_apply, val_main_v69_apply, val_main_v66_apply, h32, h36, val_main_v68_apply,
    val_main_v67_apply, g39, val_main_v71_apply, val_main_v70_apply, b42]
  rfl

/-- The output map: the second hidden row through the one-output affine map. -/
theorem pre3 (x0 x1 : FVec Ideal S50000x128 .f32) (x2 x3 : IVec S800000 32) (x4 : FVec Ideal S256x128 .f32) (x5 : FVec Ideal S128 .f32) (x6 : FVec Ideal S128x128 .f32) (x7 : FVec Ideal S128 .f32) (x8 : FVec Ideal S128x1 .f32) (x9 : FVec Ideal S1 .f32) (x10 x11 x12 x13 : FVec Ideal S128 .f32) (e : Fin 800000)
    (x : Fin 128 → EReal) (hx : ∀ k : Fin 128, val_main_v72 (F := Ideal) x0 x1 x2 x3 x4 x5 x6 x7 x10 x11 x12 x13 (ix2 e k) = x k) :
    val_main_v76 (F := Ideal) x0 x1 x2 x3 x4 x5 x6 x7 x8 x9 x10 x11 x12 x13 (ix2 e (0 : Fin 1)) = affine x (mat (R := 128) (C := 1) x8) (vec (C := 1) x9) 0 := by
  have hl : ∀ k : Fin 128, lidx_main_v73 (ix2 e (0 : Fin 1)) k = ix2 e k := fun k => funext fun a => Fin.ext (by match a with | ⟨0, _⟩ => rfl | ⟨1, _⟩ => rfl)
  have hr : ∀ k : Fin 128, ridx_main_v73 (ix2 e (0 : Fin 1)) k = ix2 k (0 : Fin 1) := fun k => funext fun a => Fin.ext (by match a with | ⟨0, _⟩ => rfl | ⟨1, _⟩ => rfl)
  have hb : idx_main_v74 (idx_main_v75 (ix2 e (0 : Fin 1))) = ix1 (0 : Fin 1) := funext fun a => Fin.ext (by match a with | ⟨0, _⟩ => rfl)
  rw [val_main_v76_apply, val_main_v73_apply, val_main_v75_apply, val_main_v74_apply, hb]
  simp only [hl, hr, hx]
  rfl

/-- The gate column at an edge is the squashed one-output perceptron of the edge's two gathered rows. -/
theorem gate_eq (x0 x1 : FVec Ideal S50000x128 .f32) (x2 x3 : IVec S800000 32) (x4 : FVec Ideal S256x128 .f32) (x5 : FVec Ideal S128 .f32) (x6 : FVec Ideal S128x128 .f32) (x7 : FVec Ideal S128 .f32) (x8 : FVec Ideal S128x1 .f32) (x9 : FVec Ideal S1 .f32) (x10 x11 x12 x13 : FVec Ideal S128 .f32) (e : Fin 800000) :
    val_main_v77 (F := Ideal) x0 x1 x2 x3 x4 x5 x6 x7 x8 x9 x10 x11 x12 x13 (ix2 e (0 : Fin 1))
      = gate (rowOf (R := 800000) (C := 128) (val_main_v6 (F := Ideal) x0 x2) e) (rowOf (R := 800000) (C := 128) (val_main_v13 (F := Ideal) x1 x3) e)
          (loHalf x4) (hiHalf x4) x5 x6 x7 x8 x9 x10 x11 x12 x13 := by
  rw [val_main_v77_apply,
    pre3 x0 x1 x2 x3 x4 x5 x6 x7 x8 x9 x10 x11 x12 x13 e _
      (layer2 x0 x1 x2 x3 x4 x5 x6 x7 x10 x11 x12 x13 e _
        (pre2 x0 x1 x2 x3 x4 x5 x6 x7 x10 x11 e _
          (layer1 x0 x1 x2 x3 x4 x5 x10 x11 e _ (pre1 x0 x1 x2 x3 x4 x5 e))))]
  rfl

/-- The reference's update array is the messages of its three gathered arrays. -/
theorem upd_eq (x0 x1 : FVec Ideal S50000x128 .f32) (x2 x3 : IVec S800000 32) (x4 : FVec Ideal S256x128 .f32)
    (x5 : FVec Ideal S128 .f32) (x6 : FVec Ideal S128x128 .f32) (x7 : FVec Ideal S128 .f32) (x8 : FVec Ideal S128x1 .f32)
    (x9 : FVec Ideal S1 .f32) (x10 x11 x12 x13 : FVec Ideal S128 .f32) (x14 : FVec Ideal S128x128 .f32)
    (x15 : FVec Ideal S128 .f32) (x16 : FVec Ideal S128x128 .f32) (x17 : FVec Ideal S128 .f32)
    (x18 : FVec Ideal S128x128 .f32) (x19 x20 x21 x22 x23 : FVec Ideal S128 .f32) :
    val_main_v150 (F := Ideal) x0 x1 x2 x3 x4 x5 x6 x7 x8 x9 x10 x11 x12 x13 x14 x15 x16 x17 x18 x19 x20 x21 x22 x23
      = edgeVal (R := 800000) (val_main_v6 (F := Ideal) x0 x2) (val_main_v13 (F := Ideal) x1 x3)
          (val_main_v148 (F := Ideal) x1 x3 x14 x15 x16 x17 x18 x19 x20 x21 x22 x23)
          (loHalf x4) (hiHalf x4) x5 x6 x7 x8 x9 x10 x11 x12 x13 := by
  funext i
  obtain ⟨e, j, rfl⟩ : ∃ (e : Fin 800000) (j : Fin 128), i = ix2 e j := ⟨i 0, i 1, eq_ix2 i⟩
  -- the gate column, spread over the lanes, read back at the edge
  have c149 : idx_main_v149 (ix2 e j) = ix2 e (0 : Fin 1) := funext fun a => Fin.ext (by match a with | ⟨0, _⟩ => rfl | ⟨1, _⟩ => rfl)
  have c141 : idx_main_v141 (ix2 e (0 : Fin 1)) = ix1 e := funext fun a => Fin.ext (by match a with | ⟨0, _⟩ => rfl)
  have c78 : idx_main_v78 (ix1 e) = ix2 e (0 : Fin 1) :=
    funext fun a => Fin.ext (by match a with | ⟨0, _⟩ => exact Nat.div_one _ | ⟨1, _⟩ => rfl)
  rw [val_main_v150_apply, val_main_v149_apply, c149, val_main_v141_apply, c141, val_main_v78_apply, c78, gate_eq]
  rfl

end Cert.ReferenceIdeal.Val

end
-- ==== Proof.Bridge.lean ====
/-
  The two programs' results are one function of the arguments.

  The kernel program ends with the messages of its two kernels scatter-added into a zero table at the raw target
  indices; its three table reads keep a gathered row only where the (moved) index is a row of the table and write a
  fill word elsewhere. The reference ends with its messages scatter-added at the same indices, its three reads plain
  gathers at the same moved indices.

  The mapped memory table is the same row-by-row map on both sides, and a message depends only on its edge's three
  gathered rows. At an edge whose source index is a row of the table (the precondition says every edge's is) the memory
  row and the mapped-memory row are kept, so they are the reference's. The query row may differ only at an edge whose
  target index is NOT a row of the table, and the scatter-add lands no update of such an edge. So the two update arrays
  agree on every row the scatter-add reads, and the sums are equal.
-/
import proofs.«429219_j43319040147615_1_alg».proof.Defs
import proofs.«429219_j43319040147615_1_alg».proof.Proof.KRun
import proofs.«429219_j43319040147615_1_alg».proof.Proof.Arrays
import proofs.«429219_j43319040147615_1_alg».proof.Proof.Entry
import proofs.«429219_j43319040147615_1_alg».proof.Proof.Index
import proofs.«429219_j43319040147615_1_alg».proof.Proof.RefMem
import proofs.«429219_j43319040147615_1_alg».proof.Proof.RefEdge
import proofs.«429219_j43319040147615_1_alg».proof.Proof.Gen.ReferenceIdeal.Run
import proofs.«429219_j43319040147615_1_alg».proof.Proof.Gen.ReferenceIdeal.Read

noncomputable section

open Idealize.ShloMosaic Idealize.ShloMosaic.ValueIdx Idealize.SL.Sem
open scoped BigOperators

namespace Cert.Proof.Bridge

open Cert.Spec Cert.KernelIdeal.Val

section Kernel
open Cert.KernelIdeal Cert.KernelIdeal.Gen

/-- Narrowing to half width is the identity on extended reals. -/
theorem truncf_id {s : Shape} (x : FVec Ideal s .f32) (h : FTy.bits .bf16 < FTy.bits .f32) :
    (truncf .bf16 x h : FVec Ideal s .bf16) = x := rfl

/-- The kernel program's result as a function of the arguments: the messages over its kept-or-filled reads,
    scatter-added into zeros. -/
def outK (a0 a1 : FVec Ideal S50000x128 .f32) (a2 a3 : IVec S800000 32) (a4 : FVec Ideal S256x128 .f32)
    (a5 : FVec Ideal S128 .f32) (a6 : FVec Ideal S128x128 .f32) (a7 : FVec Ideal S128 .f32) (a8 : FVec Ideal S128x1 .f32)
    (a9 : FVec Ideal S1 .f32) (a10 a11 a12 a13 : FVec Ideal S128 .f32) (a14 : FVec Ideal S128x128 .f32)
    (a15 : FVec Ideal S128 .f32) (a16 : FVec Ideal S128x128 .f32) (a17 : FVec Ideal S128 .f32)
    (a18 : FVec Ideal S128x128 .f32) (a19 a20 a21 a22 a23 : FVec Ideal S128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 a2)
    (edgeVal (R := 800000) (takeFill a0 a2) (takeFill a1 a3)
      (takeFill (memHead (R := 50000) a1 a14 a15 a16 a17 a18 a19 a20 a21 a22 a23) a3)
      (loHalf a4) (hiHalf a4) a5 a6 a7 a8 a9 a10 a11 a12 a13)

/-- The same with plain gathers: the reference's shape. -/
def outR (a0 a1 : FVec Ideal S50000x128 .f32) (a2 a3 : IVec S800000 32) (a4 : FVec Ideal S256x128 .f32)
    (a5 : FVec Ideal S128 .f32) (a6 : FVec Ideal S128x128 .f32) (a7 : FVec Ideal S128 .f32) (a8 : FVec Ideal S128x1 .f32)
    (a9 : FVec Ideal S1 .f32) (a10 a11 a12 a13 : FVec Ideal S128 .f32) (a14 : FVec Ideal S128x128 .f32)
    (a15 : FVec Ideal S128 .f32) (a16 : FVec Ideal S128x128 .f32) (a17 : FVec Ideal S128 .f32)
    (a18 : FVec Ideal S128x128 .f32) (a19 a20 a21 a22 a23 : FVec Ideal S128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 a2)
    (edgeVal (R := 800000) (takeRows a0 a2) (takeRows a1 a3)
      (takeRows (memHead (R := 50000) a1 a14 a15 a16 a17 a18 a19 a20 a21 a22 a23) a3)
      (loHalf a4) (hiHalf a4) a5 a6 a7 a8 a9 a10 a11 a12 a13)

/-- Where every source index is a row of the table, the kept-or-filled reads and the plain gathers give the same
    sums: the updates agree on every row the scatter-add lands. -/
theorem outK_eq_outR (a0 a1 : FVec Ideal S50000x128 .f32) (a2 a3 : IVec S800000 32) (a4 : FVec Ideal S256x128 .f32)
    (a5 : FVec Ideal S128 .f32) (a6 : FVec Ideal S128x128 .f32) (a7 : FVec Ideal S128 .f32) (a8 : FVec Ideal S128x1 .f32)
    (a9 : FVec Ideal S1 .f32) (a10 a11 a12 a13 : FVec Ideal S128 .f32) (a14 : FVec Ideal S128x128 .f32)
    (a15 : FVec Ideal S128 .f32) (a16 : FVec Ideal S128x128 .f32) (a17 : FVec Ideal S128 .f32)
    (a18 : FVec Ideal S128x128 .f32) (a19 a20 a21 a22 a23 : FVec Ideal S128 .f32)
    (hcol : ∀ e : Fin 800000, InTable (a3 (ix1 e))) :
    outK a0 a1 a2 a3 a4 a5 a6 a7 a8 a9 a10 a11 a12 a13 a14 a15 a16 a17 a18 a19 a20 a21 a22 a23
      = outR a0 a1 a2 a3 a4 a5 a6 a7 a8 a9 a10 a11 a12 a13 a14 a15 a16 a17 a18 a19 a20 a21 a22 a23 := by
  unfold outK outR
  refine scatterAdd_congr _ _ _ _ fun e k hrow => ?_
  rw [col_apply] at hrow
  exact edgeVal_congr _ _ _ _ _ _ _ _ _ _ _ _ _ _ _ _ _ e k
    (fun k' => takeFill_apply_of_inTable a0 a2 e k' hrow)
    (fun k' => takeFill_apply_of_inTable a1 a3 e k' (hcol e))
    (takeFill_apply_of_inTable _ a3 e k (hcol e))

/-- The scatter-add of the second kernel's array is `outK` of the arguments, once each array a kernel finds is known as
    a function of the arguments: the first kernel finds the memory table, its three matrices narrowed, and the biases,
    scales and shifts as launched; the second finds the three kept-or-filled reads (the third of the first kernel's
    array), the two halves of the first edge matrix and the other two edge matrices narrowed, and the rest as launched.
    Narrowing is the identity, and the two cut halves are the rows `0 … 127` and `128 … 255`. -/
theorem outK_of
    {a0 a1 : FVec Ideal S50000x128 .f32} {a2 a3 : IVec S800000 32} {a4 : FVec Ideal S256x128 .f32}
    {a5 : FVec Ideal S128 .f32} {a6 : FVec Ideal S128x128 .f32} {a7 : FVec Ideal S128 .f32} {a8 : FVec Ideal S128x1 .f32}
    {a9 : FVec Ideal S1 .f32} {a10 a11 a12 a13 : FVec Ideal S128 .f32} {a14 : FVec Ideal S128x128 .f32}
    {a15 : FVec Ideal S128 .f32} {a16 : FVec Ideal S128x128 .f32} {a17 : FVec Ideal S128 .f32}
    {a18 : FVec Ideal S128x128 .f32} {a19 a20 a21 a22 a23 : FVec Ideal S128 .f32}
    {d1 q mm mh : FVec Ideal S800000x128 .f32} {MH x1 : FVec Ideal S50000x128 .f32}
    {w1 w2 w3 : FVec Ideal S128x128 .bf16} {c1 c2 c3 s1 t1 s2 t2 : FVec Ideal S128 .f32}
    {W1a W1b W2 : FVec Ideal S128x128 .bf16} {W3 : FVec Ideal S128x1 .bf16} {b1 b2 : FVec Ideal S128 .f32}
    {b3 : FVec Ideal S1 .f32} {p1 p2 p3 p4 : FVec Ideal S128 .f32}
    (hd : d1 = edgeVal (R := 800000) q mm mh W1a W1b b1 W2 b2 W3 b3 p1 p2 p3 p4)
    (hq : q = takeFill a0 a2) (hm : mm = takeFill a1 a3) (hmh : mh = takeFill MH a3)
    (hMH : MH = memHead (R := 50000) x1 w1 c1 w2 c2 w3 c3 s1 t1 s2 t2)
    (hx1 : x1 = a1) (hw1 : w1 = (truncf .bf16 a14 bitsLt_bf16_f32 : FVec Ideal S128x128 .bf16)) (hc1 : c1 = a15)
    (hw2 : w2 = (truncf .bf16 a16 bitsLt_bf16_f32 : FVec Ideal S128x128 .bf16)) (hc2 : c2 = a17)
    (hw3 : w3 = (truncf .bf16 a18 bitsLt_bf16_f32 : FVec Ideal S128x128 .bf16)) (hc3 : c3 = a19)
    (hs1 : s1 = a20) (ht1 : t1 = a21) (hs2 : s2 = a22) (ht2 : t2 = a23)
    (hW1a : W1a = (truncf .bf16 (extractStridedSlice S128x128 ![0, 0] a4 slices_S256x128_S128x128_0_0) bitsLt_bf16_f32 : FVec Ideal S128x128 .bf16))
    (hW1b : W1b = (truncf .bf16 (extractStridedSlice S128x128 ![128, 0] a4 slices_S256x128_S128x128_128_0) bitsLt_bf16_f32 : FVec Ideal S128x128 .bf16))
    (hb1 : b1 = a5) (hW2 : W2 = (truncf .bf16 a6 bitsLt_bf16_f32 : FVec Ideal S128x128 .bf16)) (hb2 : b2 = a7)
    (hW3 : W3 = (truncf .bf16 a8 bitsLt_bf16_f32 : FVec Ideal S128x1 .bf16)) (hb3 : b3 = a9)
    (hp1 : p1 = a10) (hp2 : p2 = a11) (hp3 : p3 = a12) (hp4 : p4 = a13) :
    Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 a2) d1
      = outK a0 a1 a2 a3 a4 a5 a6 a7 a8 a9 a10 a11 a12 a13 a14 a15 a16 a17 a18 a19 a20 a21 a22 a23 := by
  subst hd hq hm hmh hMH hx1 hw1 hc1 hw2 hc2 hw3 hc3 hs1 ht1 hs2 ht2 hW1a hW1b hb1 hW2 hb2 hW3 hb3 hp1 hp2 hp3 hp4
  rw [slice_lo, slice_hi]
  rfl

variable (m : (ℓ : Loc nD τ sig) → Buf (Elt Ideal) ℓ) (ρ : Dev nD → PrngReg) (c : Dev nD)

set_option maxHeartbeats 1000000 in
/-- The result buffer of the kernel program's run is `outK` of the launch memory's arguments. -/
theorem kernel_out :
    W8 (F := Ideal) m ρ c (Proc.devRef .tc main_v16)
      = outK (arg m c main_arg0) (arg m c main_arg1) (arg m c main_arg2) (arg m c main_arg3) (arg m c main_arg4)
          (arg m c main_arg5) (arg m c main_arg6) (arg m c main_arg7) (arg m c main_arg8) (arg m c main_arg9)
          (arg m c main_arg10) (arg m c main_arg11) (arg m c main_arg12) (arg m c main_arg13) (arg m c main_arg14)
          (arg m c main_arg15) (arg m c main_arg16) (arg m c main_arg17) (arg m c main_arg18) (arg m c main_arg19)
          (arg m c main_arg20) (arg m c main_arg21) (arg m c main_arg22) (arg m c main_arg23) :=
  (W8_out m ρ c).trans
    (outK_of (edgeArr (V6 m ρ) c) (V6_q m ρ c) (V6_m m ρ c) (V6_mh m ρ c) (memArr (V1 m ρ) c)
      (V1_mem m ρ c) (V1_W1 m ρ c) (V1_b1 m ρ c) (V1_W2 m ρ c) (V1_b2 m ρ c) (V1_W3 m ρ c) (V1_b3 m ρ c)
      (V1_g1 m ρ c) (V1_be1 m ρ c) (V1_g2 m ρ c) (V1_be2 m ρ c)
      (V6_W1a m ρ c) (V6_W1b m ρ c) (V6_b1 m ρ c) (V6_W2 m ρ c) (V6_b2 m ρ c) (V6_W3 m ρ c) (V6_b3 m ρ c)
      (V6_g1 m ρ c) (V6_be1 m ρ c) (V6_g2 m ρ c) (V6_be2 m ρ c))

end Kernel

section Reference
open Cert.ReferenceIdeal Cert.ReferenceIdeal.Read Cert.ReferenceIdeal.Val

variable (m : (ℓ : Loc nD τ sig) → Buf (Elt Ideal) ℓ) (c : Dev nD)

/-- The reference's result is `outR` of its launch memory's arguments. -/
theorem ref_out :
    Cert.ReferenceIdeal.Value.res_main_v153 (F := Ideal) m c
      = outR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) (m ((c.tc : Thread nD τ).loc main_arg17))
          (m ((c.tc : Thread nD τ).loc main_arg18)) (m ((c.tc : Thread nD τ).loc main_arg19))
          (m ((c.tc : Thread nD τ).loc main_arg20)) (m ((c.tc : Thread nD τ).loc main_arg21))
          (m ((c.tc : Thread nD τ).loc main_arg22)) (m ((c.tc : Thread nD τ).loc main_arg23)) := by
  rw [val_main_v153_eq]
  unfold val_main_v153
  rw [upd_eq]
  unfold val_main_v148
  rw [memHead_eq]
  rfl

end Reference

end Cert.Proof.Bridge

end
-- ==== Proof.lean ====
/-
  The certificate of a message-passing layer: a Pallas program of two kernels against its jnp reference, equal over the
  extended reals.

  Both programs map the 50000 × 128 memory table row by row through a three-layer perceptron (affine map, clip at zero,
  layer normalisation, twice, then an affine map), gather for each of the 800000 edges the query row of its target node
  and the memory row and the mapped-memory row of its source node, pass the two gathered rows through a second
  perceptron with one output, squash it by the hyperbolic tangent, multiply the edge's mapped-memory row by that scalar,
  and add the edges' rows into their target nodes' rows of a zero table.

  The kernel program computes the two perceptrons in kernels tiled over rows (10 blocks of 5000 nodes, 250 blocks of
  3200 edges) with the matrices narrowed to half width, which is the identity on extended reals; every step is
  row-local, so the tiling is invisible. It splits the first edge matrix into its query half and its memory half
  instead of joining the two gathered rows: the sum over 256 coordinates is the sum of the two halves' sums, with no
  finiteness needed. Its table reads fill a row whose index is not a row of the table, where the reference's read
  clamps: under the precondition every source index is a row of the table, and an edge whose target index is not a row
  of the table is dropped by the scatter-add of both programs, so the fill is never read into the result.

  The frames of the two kernel programs are the generated ones; the reference's is its generated run with the result
  dropped. The idealization rewrote no operation, so `preserves` is trivial. The precondition's finiteness conjuncts
  are not used: only its last conjunct, that every source index lies in `[0, 50000)`.
-/
import proofs.«429219_j43319040147615_1_alg».proof.Defs
import proofs.«429219_j43319040147615_1_alg».proof.Proof.Gen.Kernel
import proofs.«429219_j43319040147615_1_alg».proof.Proof.Gen.Kernel.Skeleton
import proofs.«429219_j43319040147615_1_alg».proof.Proof.Gen.Kernel.Launch
import proofs.«429219_j43319040147615_1_alg».proof.Proof.Gen.Kernel.Points
import proofs.«429219_j43319040147615_1_alg».proof.Proof.Gen.Kernel.Frame
import proofs.«429219_j43319040147615_1_alg».proof.Proof.Gen.KernelIdeal
import proofs.«429219_j43319040147615_1_alg».proof.Proof.Gen.KernelIdeal.Skeleton
import proofs.«429219_j43319040147615_1_alg».proof.Proof.Gen.KernelIdeal.Launch
import proofs.«429219_j43319040147615_1_alg».proof.Proof.Gen.KernelIdeal.Points
import proofs.«429219_j43319040147615_1_alg».proof.Proof.Gen.KernelIdeal.Frame
import proofs.«429219_j43319040147615_1_alg».proof.Proof.Gen.ReferenceIdeal
import proofs.«429219_j43319040147615_1_alg».proof.Proof.Gen.Pre_finite_inputs
import proofs.«429219_j43319040147615_1_alg».proof.Proof.Gen.ReferenceIdeal.Run
import proofs.«429219_j43319040147615_1_alg».proof.Proof.Gen.ReferenceIdeal.Read
import proofs.«429219_j43319040147615_1_alg».proof.Proof.Bridge
import Idealize.ShloMosaic.Adequacy
import Idealize.ShloMosaic.Init

noncomputable section

namespace Cert.Proof

open Idealize.ShloMosaic Idealize.ShloMosaic.ValueIdx Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same table: the kernel program's result is
    the messages over kept-or-filled reads scatter-added into zeros, the reference's the messages over plain gathers,
    and under the precondition the two are equal. -/
theorem algebraic : Cert.algebraic_KernelIdeal_ReferenceIdeal := by
  intro m ρ m' ρ' hpre hagree
  refine ⟨fun c => Cert.KernelIdeal.Gen.W8 (F := Ideal) m ρ c (Proc.devRef .tc Cert.KernelIdeal.main_v16),
    Cert.KernelIdeal.Val.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23⟩ :=
    hagree c
  rw [Bridge.ref_out, h0, h1, h2, h3, h4, h5, h6, h7, h8, h9, h10, h11, h12, h13, h14, h15, h16, h17, h18, h19, h20, h21, h22,
    h23]
  exact ((Bridge.kernel_out m ρ c).trans (Bridge.outK_eq_outR _ _ _ _ _ _ _ _ _ _ _ _ _ _ _ _ _ _ _ _ _ _ _ _
    (fun e => Cert.KernelIdeal.Val.col_inTable m hpre c e))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
